-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x16x16 : Shape := ⟨4, ![4, 16, 16, 16]⟩
abbrev S1 : Shape := ⟨1, ![1]⟩
abbrev S16384x4 : Shape := ⟨2, ![16384, 4]⟩
abbrev S6x64 : Shape := ⟨2, ![6, 64]⟩
abbrev S64 : Shape := ⟨1, ![64]⟩
abbrev S64x64 : Shape := ⟨2, ![64, 64]⟩
abbrev S3x64x64 : Shape := ⟨3, ![3, 64, 64]⟩
abbrev S737280 : Shape := ⟨1, ![737280]⟩
abbrev S_ : Shape := ⟨0, ![]⟩

class Facts : Prop where
  bcast_S_S4x16x16x16 : S_.BroadcastsInDim S4x16x16x16 (![] : Fin 0 → Fin S4x16x16x16.rank)
  reducesTo_S4x16x16x16_S_d0_1_2_3 : S4x16x16x16.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S16384x4 : S_.BroadcastsInDim S16384x4 (![] : Fin 0 → Fin S16384x4.rank)
  reducesTo_S16384x4_S_d0_1 : S16384x4.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64x64 .f32) (main_arg6 : FVec F S3x64x64 .f32) (main_arg7 : FVec F S64 .f32) (main_v13 : IVec S_ 1) (main_v16 : IVec S6x64 1) : IVec S_ 1 :=
  let main_c_5 : IVec S_ 1 := constantI S_ 1 1#1
  let main_v17 : IVec S_ 1 := (fun x v => Host.reduce IntOp.andi x v reducesTo_S6x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg7 main_v33

def fn {F : FTy → Type} [FloatOps F] (main_arg0 : FVec F S4x16x16x16 .f32) (main_arg1 : FVec F S1 .f32) (main_arg2 : FVec F S16384x4 .f32) (main_arg3 : FVec F S6x64 .f32) (main_arg4 : FVec F S64 .f32) (main_arg5 : FVec F S64x64 .f32) (main_arg6 : FVec F S3x64x64 .f32) (main_arg7 : FVec F S64 .f32) (main_arg8 : IVec S737280 32) (main_arg9 : IVec S737280 32) (main_arg10 : IVec S737280 32) : IVec S_ 1 :=
  let main_v0 : FVec F S4x16x16x16 .f32 := Host.absf main_arg0
  let main_cst : FVec F S_ .f32 := constant S_ .f32 0x7F800000#32
  let main_v1 : FVec F S4x16x16x16 .f32 := broadcastInDim S4x16x16x16 ![] bcast_S_S4x16x16x16 main_cst
  let main_v2 : IVec S4x16x16x16 1 := cmpf .olt main_v0 main_v1
  let main_c : IVec S_ 1 := constantI S_ 1 1#1
  let main_v3 : IVec S_ 1 := (fun x v => Host.reduce IntOp.andi x v reducesTo_S4x16x16x16_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S16384x4 .f32 := Host.absf main_arg2
  let main_cst_2 : FVec F S_ .f32 := constant S_ .f32 0x7F800000#32
  let main_v10 : FVec F S16384x4 .f32 := broadcastInDim S16384x4 ![] bcast_S_S16384x4 main_cst_2
  let main_v11 : IVec S16384x4 1 := cmpf .olt main_v9 main_v10
  let main_c_3 : IVec S_ 1 := constantI S_ 1 1#1
  let main_v12 : IVec S_ 1 := (fun x v => Host.reduce IntOp.andi x v reducesTo_S16384x4_S_d0_1 h_S_) main_v11 main_c_3
  let main_v13 : IVec S_ 1 := andi main_v8 main_v12
  let main_v14 : FVec F S6x64 .f32 := Host.absf main_arg3
  let main_cst_4 : FVec F S_ .f32 := constant S_ .f32 0x7F800000#32
  let main_v15 : FVec F S6x64 .f32 := broadcastInDim S6x64 ![] bcast_S_S6x64 main_cst_4
  let main_v16 : IVec S6x64 1 := cmpf .olt main_v14 main_v15
  fn_part1 (F := F) main_arg4 main_arg5 main_arg6 main_arg7 main_v13 main_v16
-- ==== Kernel.lean ====
abbrev S4x16x16x16 : Shape := ⟨4, ![4, 16, 16, 16]⟩
abbrev S1 : Shape := ⟨1, ![1]⟩
abbrev S16384x4 : Shape := ⟨2, ![16384, 4]⟩
abbrev S6x64 : Shape := ⟨2, ![6, 64]⟩
abbrev S64 : Shape := ⟨1, ![64]⟩
abbrev S64x64 : Shape := ⟨2, ![64, 64]⟩
abbrev S3x64x64 : Shape := ⟨3, ![3, 64, 64]⟩
abbrev S737280 : Shape := ⟨1, ![737280]⟩
abbrev S16384x1 : Shape := ⟨2, ![16384, 1]⟩
abbrev S_ : Shape := ⟨0, ![]⟩
abbrev S16384x6 : Shape := ⟨2, ![16384, 6]⟩
abbrev S16384x64 : Shape := ⟨2, ![16384, 64]⟩
abbrev S2048x6 : Shape := ⟨2, ![2048, 6]⟩
abbrev S2048x64 : Shape := ⟨2, ![2048, 64]⟩
abbrev S1x64 : Shape := ⟨2, ![1, 64]⟩
abbrev S737280x1 : Shape := ⟨2, ![737280, 1]⟩
abbrev S737280x64 : Shape := ⟨2, ![737280, 64]⟩
abbrev S2048 : Shape := ⟨1, ![2048]⟩
abbrev S2048x1 : Shape := ⟨2, ![2048, 1]⟩
abbrev S2048x2048 : Shape := ⟨2, ![2048, 2048]⟩
abbrev S1x2048 : Shape := ⟨2, ![1, 2048]⟩
abbrev S1x64x64 : Shape := ⟨3, ![1, 64, 64]⟩

abbrev nBuf : Space → Nat
  | .hbm => 29
  | .vmem => 27
  | .smem => 0
  | _ => 0

abbrev bufTy : (tb : Table) → Fin (tcTables nBuf tb) → BufTy
  | .hbm, ⟨0, _⟩ => ⟨S4x16x16x16, .f32⟩
  | .hbm, ⟨1, _⟩ => ⟨S1, .f32⟩
  | .hbm, ⟨2, _⟩ => ⟨S16384x4, .f32⟩
  | .hbm, ⟨3, _⟩ => ⟨S6x64, .f32⟩
  | .hbm, ⟨4, _⟩ => ⟨S64, .f32⟩
  | .hbm, ⟨5, _⟩ => ⟨S64x64, .f32⟩
  | .hbm, ⟨6, _⟩ => ⟨S3x64x64, .f32⟩
  | .hbm, ⟨7, _⟩ => ⟨S64, .f32⟩
  | .hbm, ⟨8, _⟩ => ⟨S737280, .i32⟩
  | .hbm, ⟨9, _⟩ => ⟨S737280, .i32⟩
  | .hbm, ⟨10, _⟩ => ⟨S737280, .i32⟩
  | .hbm, ⟨11, _⟩ => ⟨S16384x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x1, .f32⟩
  | .hbm, ⟨16, _⟩ => ⟨S16384x6, .f32⟩
  | .hbm, ⟨17, _⟩ => ⟨S16384x64, .f32⟩
  | .hbm, ⟨18, _⟩ => ⟨S16384x64, .f32⟩
  | .hbm, ⟨19, _⟩ => ⟨S_, .i32⟩
  | .hbm, ⟨20, _⟩ => ⟨S737280, .i32⟩
  | .hbm, ⟨21, _⟩ => ⟨S737280, .i1⟩
  | .hbm, ⟨22, _⟩ => ⟨S_, .i32⟩
  | .hbm, ⟨23, _⟩ => ⟨S737280, .i32⟩
  | .hbm, ⟨24, _⟩ => ⟨S737280, .i32⟩
  | .hbm, ⟨25, _⟩ => ⟨S737280, .i32⟩
  | .hbm, ⟨26, _⟩ => ⟨S737280x1, .i32⟩
  | .hbm, ⟨27, _⟩ => ⟨S737280x64, .f32⟩
  | .hbm, ⟨28, _⟩ => ⟨S16384x64, .f32⟩
  | .local _ .vmem, ⟨0, _⟩ => ⟨S2048x6, .f32⟩
  | .local _ .vmem, ⟨1, _⟩ => ⟨S2048x6, .f32⟩
  | .local _ .vmem, ⟨2, _⟩ => ⟨S6x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S3x64x64, .f32⟩
  | .local _ .vmem, ⟨13, _⟩ => ⟨S2048x64, .f32⟩
  | .local _ .vmem, ⟨14, _⟩ => ⟨S2048x64, .f32⟩
  | .local _ .vmem, ⟨15, _⟩ => ⟨S2048, .i32⟩
  | .local _ .vmem, ⟨16, _⟩ => ⟨S2048, .i32⟩
  | .local _ .vmem, ⟨17, _⟩ => ⟨S2048, .i32⟩
  | .local _ .vmem, ⟨18, _⟩ => ⟨S2048, .i32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x1, .f32⟩
  | .local _ .vmem, ⟨25, _⟩ => ⟨S2048x1, .f32⟩
  | .local _ .vmem, ⟨26, _⟩ => ⟨S2048x1, .f32⟩
  | _, _ => ⟨S4x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_scratch5 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 360], ![false, false]⟩

def k1_cond2 (i : grid1.Coords) : BitVec 1 :=
  let arg1 : BitVec 32 := BitVec.ofNat 32 (i 1).val
  let c359_i32 : BitVec 32 := 359#32
  let v98 : BitVec 1 := Scalar.cmpi .eq arg1 c359_i32
  let v99 : BitVec 32 := Scalar.extui v98
  let c0_i32_46 : BitVec 32 := 0#32
  let v100 : BitVec 1 := Scalar.cmpi .ne v99 c0_i32_46
  v100

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S3x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S4x16x16x16_S16384x1 : S4x16x16x16.ShapeCasts S16384x1
  shapeCasts_S1_S_ : S1.ShapeCasts S_
  bcast_S_S16384x1 : S_.BroadcastsInDim S16384x1 (![] : Fin 0 → Fin S16384x1.rank)
  concatenates_S16384x4_S16384x1_S16384x1_S16384x6_d1 : Shape.Concatenates [S16384x4, S16384x1, S16384x1] S16384x6 1
  inb_S2048x6_S2048x6_0_0 : ∀ a, (![0, 0] : Fin 2 → Nat) a + S2048x6.size a ≤ S2048x6.size a
  h_S2048x6 : 0 < S2048x6.numel
  shapeCasts_S2048x6_S2048x6 : S2048x6.ShapeCasts S2048x6
  inb_S6x64_S6x64_0_0 : ∀ a, (![0, 0] : Fin 2 → Nat) a + S6x64.size a ≤ S6x64.size a
  h_S6x64 : 0 < S6x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  bcast_S_S737280 : S_.BroadcastsInDim S737280 (![] : Fin 0 → Fin S737280.rank)
  bcast_S737280_S737280x1_0 : S737280.BroadcastsInDim S737280x1 (![0] : Fin 1 → Fin S737280x1.rank)
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048_S2048_0 : ∀ a, (![0] : Fin 1 → Nat) a + S2048.size a ≤ S2048.size a
  h_S2048 : 0 < S2048.numel
  iota_S2048x2048_d0_w32 : S2048x2048.Iotas .tc 32 [0]
  shapeCasts_S2048_S1x2048 : S2048.ShapeCasts S1x2048
  broadcasts_S1x2048_S2048x2048 : S1x2048.Broadcasts S2048x2048
  natLt_1_32 : 1 < 32
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  shapeCasts_S2048_S2048x1 : S2048.ShapeCasts S2048x1
  broadcasts_S2048x1_S2048x64 : S2048x1.Broadcasts S2048x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  dot_S2048x6_S6x64_S2048x64_1_0_0_1_n_n_wf : DotDims.WF S2048x6 S6x64 S2048x64 [1] [0] [0] [1] [] []
  dot_S2048x64_S64x64_S2048x64_1_0_0_1_n_n_wf : DotDims.WF S2048x64 S64x64 S2048x64 [1] [0] [0] [1] [] []
  gather_S16384x64_S737280x1_S737280x64_1_0_n_n_0_1_164_wf : GatherDims.WF S16384x64 S737280x1 S737280x64 [1] [0] [] [0] [] 1 ![1, 64]
  dot_S2048x2048_S2048x64_S2048x64_1_0_0_1_n_n_wf : DotDims.WF S2048x2048 S2048x64 S2048x64 [1] [0] [0] [1] [] []
  dot_S2048x2048_S2048x1_S2048x1_1_0_0_1_n_n_wf : DotDims.WF S2048x2048 S2048x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x6.size a ≤ S16384x6.size a
  hwx0_0 : ∀ i : grid0.Coords, EltTy.bits .f32 = 32 ∨ (Rect.block (s := S16384x6) S2048x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .f32 = 32 ∨ (Rect.block (s := S16384x64) S2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S16384x64.size a
  hwx0_6 : ∀ i : grid0.Coords, EltTy.bits .f32 = 32 ∨ (Rect.block (s := S16384x64) S2048x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S737280x64.size a
  hwx1_0 : ∀ i : grid1.Coords, EltTy.bits .f32 = 32 ∨ (Rect.block (s := S737280x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x64x64.size a ≤ S3x64x64.size a
  hwx1_1 : ∀ i : grid1.Coords, EltTy.bits .f32 = 32 ∨ (Rect.block (s := S3x64x64) S3x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048.size a ≤ S737280.size a
  hwx1_3 : ∀ i : grid1.Coords, EltTy.bits .i32 = 32 ∨ (Rect.block (s := S737280) S2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048.size a ≤ S737280.size a
  hwx1_4 : ∀ i : grid1.Coords, EltTy.bits .i32 = 32 ∨ (Rect.block (s := S737280) S2048.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S16384x64.size a
  hwx1_5 : ∀ i : grid1.Coords, EltTy.bits .f32 = 32 ∨ (Rect.block (s := S16384x64) S2048x64.size (cc1_transform_5 i) (hinb1_5 i)).WholeWords (EltTy.packing .f32)

variable [Facts₀]

def dot_S2048x6_S6x64_S2048x64_1_0_0_1_n_n : DotDims S2048x6 S6x64 S2048x64 where
  lhsContracting := [1]
  rhsContracting := [0]
  lhsNonContracting := [0]
  rhsNonContracting := [1]
  lhsBatch := []
  rhsBatch := []
  wf := dot_S2048x6_S6x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def gather_S16384x64_S737280x1_S737280x64_1_0_n_n_0_1_164 : GatherDims S16384x64 S737280x1 S737280x64 where
  offsetDims := [1]
  collapsedSliceDims := [0]
  operandBatchingDims := []
  startIndicesBatchingDims := []
  startIndexMap := [0]
  indexVectorDim := 1
  sliceSizes := ![1, 64]
  wf := gather_S16384x64_S737280x1_S737280x64_1_0_n_n_0_1_164_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x2048_S2048x1_S2048x1_1_0_0_1_n_n : DotDims S2048x2048 S2048x1 S2048x1 where
  lhsContracting := [1]
  rhsContracting := [0]
  lhsNonContracting := [0]
  rhsNonContracting := [1]
  lhsBatch := []
  rhsBatch := []
  wf := dot_S2048x2048_S2048x1_S2048x1_1_0_0_1_n_n_wf

abbrev win0_0 : Pipeline.Window sig grid0 :=
  Pipeline.Window.ofSpec (Memref.whole main_v4) S2048x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S3x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x16x16x16 : Shape := ⟨4, ![4, 16, 16, 16]⟩
abbrev S1 : Shape := ⟨1, ![1]⟩
abbrev S16384x4 : Shape := ⟨2, ![16384, 4]⟩
abbrev S6x64 : Shape := ⟨2, ![6, 64]⟩
abbrev S64 : Shape := ⟨1, ![64]⟩
abbrev S64x64 : Shape := ⟨2, ![64, 64]⟩
abbrev S3x64x64 : Shape := ⟨3, ![3, 64, 64]⟩
abbrev S737280 : Shape := ⟨1, ![737280]⟩
abbrev S16384x1 : Shape := ⟨2, ![16384, 1]⟩
abbrev S_ : Shape := ⟨0, ![]⟩
abbrev S16384x6 : Shape := ⟨2, ![16384, 6]⟩
abbrev S16384x64 : Shape := ⟨2, ![16384, 64]⟩
abbrev S1x64 : Shape := ⟨2, ![1, 64]⟩
abbrev S737280x1 : Shape := ⟨2, ![737280, 1]⟩
abbrev S737280x64 : Shape := ⟨2, ![737280, 64]⟩
abbrev S1x64x64 : Shape := ⟨3, ![1, 64, 64]⟩
abbrev S16384 : Shape := ⟨1, ![16384]⟩

abbrev nBuf : Space → Nat
  | .hbm => 112
  | .vmem => 0
  | .smem => 0
  | _ => 0

abbrev bufTy : (tb : Table) → Fin (tcTables nBuf tb) → BufTy
  | .hbm, ⟨0, _⟩ => ⟨S4x16x16x16, .f32⟩
  | .hbm, ⟨1, _⟩ => ⟨S1, .f32⟩
  | .hbm, ⟨2, _⟩ => ⟨S16384x4, .f32⟩
  | .hbm, ⟨3, _⟩ => ⟨S6x64, .f32⟩
  | .hbm, ⟨4, _⟩ => ⟨S64, .f32⟩
  | .hbm, ⟨5, _⟩ => ⟨S64x64, .f32⟩
  | .hbm, ⟨6, _⟩ => ⟨S3x64x64, .f32⟩
  | .hbm, ⟨7, _⟩ => ⟨S64, .f32⟩
  | .hbm, ⟨8, _⟩ => ⟨S737280, .i32⟩
  | .hbm, ⟨9, _⟩ => ⟨S737280, .i32⟩
  | .hbm, ⟨10, _⟩ => ⟨S737280, .i32⟩
  | .hbm, ⟨11, _⟩ => ⟨S16384x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384x1, .f32⟩
  | .hbm, ⟨16, _⟩ => ⟨S16384x6, .f32⟩
  | .hbm, ⟨17, _⟩ => ⟨S16384x64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S1x64, .f32⟩
  | .hbm, ⟨23, _⟩ => ⟨S16384x64, .f32⟩
  | .hbm, ⟨24, _⟩ => ⟨S16384x64, .f32⟩
  | .hbm, ⟨25, _⟩ => ⟨S_, .i32⟩
  | .hbm, ⟨26, _⟩ => ⟨S737280, .i32⟩
  | .hbm, ⟨27, _⟩ => ⟨S737280, .i1⟩
  | .hbm, ⟨28, _⟩ => ⟨S_, .i32⟩
  | .hbm, ⟨29, _⟩ => ⟨S737280, .i32⟩
  | .hbm, ⟨30, _⟩ => ⟨S737280, .i32⟩
  | .hbm, ⟨31, _⟩ => ⟨S737280, .i32⟩
  | .hbm, ⟨32, _⟩ => ⟨S737280x1, .i32⟩
  | .hbm, ⟨33, _⟩ => ⟨S737280x64, .f32⟩
  | .hbm, ⟨34, _⟩ => ⟨S_, .i32⟩
  | .hbm, ⟨35, _⟩ => ⟨S737280, .i32⟩
  | .hbm, ⟨36, _⟩ => ⟨S737280, .i1⟩
  | .hbm, ⟨37, _⟩ => ⟨S737280, .f32⟩
  | .hbm, ⟨38, _⟩ => ⟨S1x64x64, .f32⟩
  | .hbm, ⟨39, _⟩ => ⟨S64x64, .f32⟩
  | .hbm, ⟨40, _⟩ => ⟨S737280x64, .f32⟩
  | .hbm, ⟨41, _⟩ => ⟨S737280x1, .f32⟩
  | .hbm, ⟨42, _⟩ => ⟨S737280x64, .f32⟩
  | .hbm, ⟨43, _⟩ => ⟨S737280x64, .f32⟩
  | .hbm, ⟨44, _⟩ => ⟨S_, .f32⟩
  | .hbm, ⟨45, _⟩ => ⟨S16384x64, .f32⟩
  | .hbm, ⟨46, _⟩ => ⟨S737280x1, .i32⟩
  | .hbm, ⟨47, _⟩ => ⟨S16384x64, .f32⟩
  | .hbm, ⟨48, _⟩ => ⟨S_, .f32⟩
  | .hbm, ⟨49, _⟩ => ⟨S16384, .f32⟩
  | .hbm, ⟨50, _⟩ => ⟨S737280x1, .i32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384x1, .f32⟩
  | .hbm, ⟨56, _⟩ => ⟨S16384x64, .f32⟩
  | .hbm, ⟨57, _⟩ => ⟨S16384x64, .f32⟩
  | .hbm, ⟨58, _⟩ => ⟨S16384x64, .f32⟩
  | .hbm, ⟨59, _⟩ => ⟨S_, .i32⟩
  | .hbm, ⟨60, _⟩ => ⟨S737280, .i32⟩
  | .hbm, ⟨61, _⟩ => ⟨S737280, .i1⟩
  | .hbm, ⟨62, _⟩ => ⟨S737280, .f32⟩
  | .hbm, ⟨63, _⟩ => ⟨S1x64x64, .f32⟩
  | .hbm, ⟨64, _⟩ => ⟨S64x64, .f32⟩
  | .hbm, ⟨65, _⟩ => ⟨S737280x64, .f32⟩
  | .hbm, ⟨66, _⟩ => ⟨S737280x1, .f32⟩
  | .hbm, ⟨67, _⟩ => ⟨S737280x64, .f32⟩
  | .hbm, ⟨68, _⟩ => ⟨S737280x64, .f32⟩
  | .hbm, ⟨69, _⟩ => ⟨S_, .f32⟩
  | .hbm, ⟨70, _⟩ => ⟨S16384x64, .f32⟩
  | .hbm, ⟨71, _⟩ => ⟨S737280x1, .i32⟩
  | .hbm, ⟨72, _⟩ => ⟨S16384x64, .f32⟩
  | .hbm, ⟨73, _⟩ => ⟨S_, .f32⟩
  | .hbm, ⟨74, _⟩ => ⟨S16384, .f32⟩
  | .hbm, ⟨75, _⟩ => ⟨S737280x1, .i32⟩
  | .hbm, ⟨76, _⟩ => ⟨S16384, .f32⟩
  | .hbm, ⟨77, _⟩ => ⟨S_, .f32⟩
  | .hbm, ⟨78, _⟩ => ⟨S16384, .f32⟩
  | .hbm, ⟨79, _⟩ => ⟨S16384, .f32⟩
  | .hbm, ⟨80, _⟩ => ⟨S16384x1, .f32⟩
  | .hbm, ⟨81, _⟩ => ⟨S16384x64, .f32⟩
  | .hbm, ⟨82, _⟩ => ⟨S16384x64, .f32⟩
  | .hbm, ⟨83, _⟩ => ⟨S16384x64, .f32⟩
  | .hbm, ⟨84, _⟩ => ⟨S_, .i32⟩
  | .hbm, ⟨85, _⟩ => ⟨S737280, .i32⟩
  | .hbm, ⟨86, _⟩ => ⟨S737280, .i1⟩
  | .hbm, ⟨87, _⟩ => ⟨S737280, .f32⟩
  | .hbm, ⟨88, _⟩ => ⟨S1x64x64, .f32⟩
  | .hbm, ⟨89, _⟩ => ⟨S64x64, .f32⟩
  | .hbm, ⟨90, _⟩ => ⟨S737280x64, .f32⟩
  | .hbm, ⟨91, _⟩ => ⟨S737280x1, .f32⟩
  | .hbm, ⟨92, _⟩ => ⟨S737280x64, .f32⟩
  | .hbm, ⟨93, _⟩ => ⟨S737280x64, .f32⟩
  | .hbm, ⟨94, _⟩ => ⟨S_, .f32⟩
  | .hbm, ⟨95, _⟩ => ⟨S16384x64, .f32⟩
  | .hbm, ⟨96, _⟩ => ⟨S737280x1, .i32⟩
  | .hbm, ⟨97, _⟩ => ⟨S16384x64, .f32⟩
  | .hbm, ⟨98, _⟩ => ⟨S_, .f32⟩
  | .hbm, ⟨99, _⟩ => ⟨S16384, .f32⟩
  | .hbm, ⟨100, _⟩ => ⟨S737280x1, .i32⟩
  | .hbm, ⟨101, _⟩ => ⟨S16384, .f32⟩
  | .hbm, ⟨102, _⟩ => ⟨S_, .f32⟩
  | .hbm, ⟨103, _⟩ => ⟨S16384, .f32⟩
  | .hbm, ⟨104, _⟩ => ⟨S16384, .f32⟩
  | .hbm, ⟨105, _⟩ => ⟨S16384x1, .f32⟩
  | .hbm, ⟨106, _⟩ => ⟨S16384x64, .f32⟩
  | .hbm, ⟨107, _⟩ => ⟨S16384x64, .f32⟩
  | .hbm, ⟨108, _⟩ => ⟨S16384x64, .f32⟩
  | .hbm, ⟨109, _⟩ => ⟨S_, .f32⟩
  | .hbm, ⟨110, _⟩ => ⟨S16384x64, .f32⟩
  | .hbm, ⟨111, _⟩ => ⟨S16384x64, .f32⟩
  | _, _ => ⟨S4x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_9 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_10 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call0_cst : Ref sig .tc := ⟨.hbm, 109, rfl⟩
abbrev main_call0_v0 : Ref sig .tc := ⟨.hbm, 110, rfl⟩
abbrev main_v83 : Ref sig .tc := ⟨.hbm, 111, rfl⟩

abbrev nD : Nat := 1
abbrev τ : Topo := Topo.v7x

variable {F : FTy → Type} [FloatOps F]

class Facts₀ : Prop where
  shapeCasts_S4x16x16x16_S16384x1 : S4x16x16x16.ShapeCasts S16384x1
  shapeCasts_S1_S_ : S1.ShapeCasts S_
  bcast_S_S16384x1 : S_.BroadcastsInDim S16384x1 (![] : Fin 0 → Fin S16384x1.rank)
  concatenates_S16384x4_S16384x1_S16384x1_S16384x6_d1 : Shape.Concatenates [S16384x4, S16384x1, S16384x1] S16384x6 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S737280 : S_.BroadcastsInDim S737280 (![] : Fin 0 → Fin S737280.rank)
  bcast_S737280_S737280x1_0 : S737280.BroadcastsInDim S737280x1 (![0] : Fin 1 → Fin S737280x1.rank)
  slices_S3x64x64_S1x64x64_0_0_0 : S3x64x64.Slices ![0, 0, 0] S1x64x64
  shapeCasts_S1x64x64_S64x64 : S1x64x64.ShapeCasts S64x64
  bcast_S737280x1_S737280x64_0_1 : S737280x1.BroadcastsInDim S737280x64 (![0, 1] : Fin 2 → Fin S737280x64.rank)
  bcast_S_S16384x64 : S_.BroadcastsInDim S16384x64 (![] : Fin 0 → Fin S16384x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  slices_S3x64x64_S1x64x64_1_0_0 : S3x64x64.Slices ![1, 0, 0] S1x64x64
  slices_S3x64x64_S1x64x64_2_0_0 : S3x64x64.Slices ![2, 0, 0] S1x64x64
  dot_S16384x6_S6x64_S16384x64_1_0_0_1_n_n_wf : DotDims.WF S16384x6 S6x64 S16384x64 [1] [0] [0] [1] [] []
  dot_S16384x64_S64x64_S16384x64_1_0_0_1_n_n_wf : DotDims.WF S16384x64 S64x64 S16384x64 [1] [0] [0] [1] [] []
  gather_S16384x64_S737280x1_S737280x64_1_0_n_n_0_1_164_wf : GatherDims.WF S16384x64 S737280x1 S737280x64 [1] [0] [] [0] [] 1 ![1, 64]
  dot_S737280x64_S64x64_S737280x64_1_0_0_1_n_n_wf : DotDims.WF S737280x64 S64x64 S737280x64 [1] [0] [0] [1] [] []
  scatter_S16384x64_S737280x1_S737280x64_1_0_0_1_wf : ScatterDims.WF S16384x64 S737280x1 S737280x64 [1] [0] [0] 1
  scatter_S16384_S737280x1_S737280_n_0_0_1_wf : ScatterDims.WF S16384 S737280x1 S737280 [] [0] [0] 1

variable [Facts₀]

def dot_S16384x6_S6x64_S16384x64_1_0_0_1_n_n : DotDims S16384x6 S6x64 S16384x64 where
  lhsContracting := [1]
  rhsContracting := [0]
  lhsNonContracting := [0]
  rhsNonContracting := [1]
  lhsBatch := []
  rhsBatch := []
  wf := dot_S16384x6_S6x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S737280x1_S737280x64_1_0_n_n_0_1_164 : GatherDims S16384x64 S737280x1 S737280x64 where
  offsetDims := [1]
  collapsedSliceDims := [0]
  operandBatchingDims := []
  startIndicesBatchingDims := []
  startIndexMap := [0]
  indexVectorDim := 1
  sliceSizes := ![1, 64]
  wf := gather_S16384x64_S737280x1_S737280x64_1_0_n_n_0_1_164_wf
def dot_S737280x64_S64x64_S737280x64_1_0_0_1_n_n : DotDims S737280x64 S64x64 S737280x64 where
  lhsContracting := [1]
  rhsContracting := [0]
  lhsNonContracting := [0]
  rhsNonContracting := [1]
  lhsBatch := []
  rhsBatch := []
  wf := dot_S737280x64_S64x64_S737280x64_1_0_0_1_n_n_wf
def scatter_S16384x64_S737280x1_S737280x64_1_0_0_1 : ScatterDims S16384x64 S737280x1 S737280x64 where
  updateWindowDims := [1]
  insertedWindowDims := [0]
  scatterDimsToOperandDims := [0]
  indexVectorDim := 1
  wf := scatter_S16384x64_S737280x1_S737280x64_1_0_0_1_wf
def scatter_S16384_S737280x1_S737280_n_0_0_1 : ScatterDims S16384 S737280x1 S737280 where
  updateWindowDims := []
  insertedWindowDims := [0]
  scatterDimsToOperandDims := [0]
  indexVectorDim := 1
  wf := scatter_S16384_S737280x1_S737280_n_0_0_1_wf

class Facts : Prop extends Facts₀ where

variable [Facts]
-- ==== Proof.BR0Body.lean ====
/- Region 0 of @main (the projection kernel, pipeline 0), at a parameter V: the buffer contents when the region
   is entered. Each window's block at a point; what the body leaves in each of the two output windows' buffers, as a
   function of the five input blocks; the body's triple; the pipeline's proof data; the body obligation at every
   point. Stated at any float interpretation F. -/
import proofs.«420560_j48172353192125_2_alg».proof.Proof.Gen.Kernel.Launch
import proofs.«420560_j48172353192125_2_alg».proof.Proof.Gen.Kernel.Skeleton
import proofs.«420560_j48172353192125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place: where the window is not fetched its block index has
    not moved, so the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one the whole buffer -/

abbrev r0_0 : Rect S2048x6 := Rect.unit (s := S2048x6) ![0, 0] S2048x6.size inb_S2048x6_S2048x6_0_0
abbrev r0_1 : Rect S6x64 := Rect.unit (s := S6x64) ![0, 0] S6x64.size inb_S6x64_S6x64_0_0
abbrev r0_2 : Rect S64 := Rect.unit (s := S64) ![0] S64.size inb_S64_S64_0
abbrev r0_3 : Rect S64x64 := Rect.unit (s := S64x64) ![0, 0] S64x64.size inb_S64x64_S64x64_0_0
abbrev r0_4 : Rect S2048x64 := Rect.unit (s := S2048x64) ![0, 0] S2048x64.size inb_S2048x64_S2048x64_0_0

/-! ## What the body leaves in each output window's buffer -/

/-- Window 5's staging buffer after the body, from the input windows' blocks: its one store, of the first product
    plus its bias row. -/
def out0_5 (x0 : Vec F S2048x6 .f32) (x1 : Vec F S6x64 .f32) (x2 : Vec F S64 .f32) : Vec F S2048x64 .f32 :=
  View.canon [⟨r0_4, k0_pay1 (View.ld x0 r0_0) (View.ld x1 r0_1) (View.ld x2 r0_2)⟩]

/-- Window 6's staging buffer after the body: its one store, of the second product plus its bias row. -/
def out0_6 (x0 : Vec F S2048x6 .f32) (x1 : Vec F S6x64 .f32) (x2 : Vec F S64 .f32) (x3 : Vec F S64x64 .f32) (x4 : Vec F S64 .f32) : Vec F S2048x64 .f32 :=
  View.canon [⟨r0_4, k0_pay2 (View.ld x0 r0_0) (View.ld x1 r0_1) (View.ld x2 r0_2) (View.ld x3 r0_3) (View.ld x4 r0_2)⟩]

/-- One store of the whole buffer tiles it, so it covers it. -/
theorem cover0 (p0 : Vec F S2048x64 .f32) (y : S2048x64.Idx) :
    ∃ pc ∈ ([⟨r0_4, p0⟩] : List (View.Piece (Elt F) S2048x64 .f32)), y ∈ pc.1.set :=
  View.cover_of_tiled [⟨r0_4, p0⟩] S2048x64.size (by rfl) y

/-! ## The body's triple -/

set_option maxHeartbeats 1000000 in
/-- The kernel body on whole staging memrefs, the inputs' at read contents and the outputs' at anything, runs to the
    continuation holding the inputs' as they were and each output's at its function of the inputs. -/
theorem sound_kernel0 (c : Dev nD) (E : Set ℕ) (i : grid0.Coords)
    (arg1 : Memref sig .tc .vmem S2048x6 .f32) (harg1 : arg1.IsWhole) (arg2 : Memref sig .tc .vmem S6x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S2048x64 .f32) (harg6 : arg6.IsWhole)
    (arg7 : Memref sig .tc .vmem S2048x64 .f32) (harg7 : arg7.IsWhole)
    (x0 : Vec F S2048x6 .f32) (x1 : Vec F S6x64 .f32) (x2 : Vec F S64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of pipeline 0 on core c: the arrays as the region finds them; after the body at point t each
    input's buffer at its block and each output's at its function of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.BR1Step.lean ====
/-
  One grid point of the message-passing kernel as a pure step on its six accumulators.

  At the point (node block nb, edge block eb) the kernel holds, per relation r = 0, 1, 2, a running sum of messages
  (2048 nodes by 64 channels) and a running count of edges (2048 by 1). The point adds to each the contribution
  of the 2048 edges of block eb that end in node block nb: the one-hot matrix of the edges' local destinations
  times the masked messages, respectively times the mask. At eb = 0 the accumulators start from zero; at the last
  edge block the output block is the root transform plus the three means, clipped below at zero.
-/
import proofs.«420560_j48172353192125_2_alg».proof.Proof.Gen.Kernel.Skeleton
import Idealize.ShloMosaic.Lib.Pipeline.FrameBody

noncomputable section

namespace Cert.Kernel.R1

open Idealize.ShloMosaic Idealize.SL.Sem Cert.Kernel Cert.Kernel.Gen

variable {F : FTy → Type} [FloatOps F]

/-- The rectangle through which relation r's 64 by 64 weight is loaded from the 3 by 64 by 64 buffer. -/
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0

variable (F) in
/-- The six accumulators: per relation a message sum and an edge count. -/
structure Acc where
  s0 : Vec F S2048x64 .f32
  s1 : Vec F S2048x64 .f32
  s2 : Vec F S2048x64 .f32
  c0 : Vec F S2048x1 .f32
  c1 : Vec F S2048x1 .f32
  c2 : Vec F S2048x1 .f32

/-- The accumulators as the first edge block finds them: all zero. -/
def acc0 : Acc F := ⟨k1_pay5, k1_pay6, k1_pay7, k1_pay8, k1_pay9, k1_pay10⟩

/-- One edge block's contribution added to the accumulators: xs the block of gathered source rows, w the three
    relation weights, dst and ety the block's destinations and relation types, i the grid point. -/
def step (i : grid1.Coords) (a : Acc F) (xs : Vec F S2048x64 .f32) (w : Vec F S3x64x64 .f32)
    (dst ety : Vec F S2048 .i32) : Acc F where
  s0 := k1_pay16 a.s0 (k1_pay15 i dst ety xs (View.ld w rW0))
  c0 := k1_pay17 (k1_pay13 i dst) (k1_pay14 i dst ety) a.c0
  s1 := k1_pay19 ety (k1_pay11 xs) (k1_pay12 i dst) (k1_pay13 i dst) (View.ld w rW1) a.s1
  c1 := k1_pay20 ety (k1_pay12 i dst) (k1_pay13 i dst) a.c1
  s2 := k1_pay2 ety (k1_pay11 xs) (k1_pay12 i dst) (k1_pay13 i dst) (View.ld w rW2) a.s2
  c2 := k1_pay3 ety (k1_pay12 i dst) (k1_pay13 i dst) a.c2

/-- The output block at the last edge block: the root transform's block plus the three means, clipped at zero. -/
def fin (h : Vec F S2048x64 .f32) (a : Acc F) : Vec F S2048x64 .f32 :=
  k1_pay4 h a.s0 a.c0 a.s1 a.c1 a.s2 a.c2

end Cert.Kernel.R1

end
-- ==== Proof.BR1Dat.lean ====
/-
  The proof data of the message-passing region: what its six accumulators and its output block hold after each
  grid point, as a recursion over the points in the order the grid runs them (node block outermost, edge block
  innermost, 360 edge blocks per node block).

  After point n the accumulators are one step (R1Step) over what the point before left, or over zero when n opens a
  node block (n divisible by 360). The output window's block after a point is the closing formula of that point's
  accumulators; only the last edge block of a node block writes it back.
-/
import proofs.«420560_j48172353192125_2_alg».proof.Proof.Gen.Kernel.Launch
import proofs.«420560_j48172353192125_2_alg».proof.Proof.Gen.Kernel.Skeleton
import proofs.«420560_j48172353192125_2_alg».proof.Proof.Gen.Kernel.Points
import proofs.«420560_j48172353192125_2_alg».proof.Proof.BR1Step
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at their literal types: gathered source rows, relation weights, root transform,
    destinations, relation types. -/
abbrev xsB (c : Dev nD) (t : Fin cfg1.N) : Vec F S2048x64 .f32 := iblk1 V c 0 t
abbrev wB (c : Dev nD) (t : Fin cfg1.N) : Vec F S3x64x64 .f32 := iblk1 V c 1 t
abbrev hB (c : Dev nD) (t : Fin cfg1.N) : Vec F S2048x64 .f32 := iblk1 V c 2 t
abbrev dstB (c : Dev nD) (t : Fin cfg1.N) : Vec F S2048 .i32 := iblk1 V c 3 t
abbrev etyB (c : Dev nD) (t : Fin cfg1.N) : Vec F S2048 .i32 := iblk1 V c 4 t

/-- The accumulators after point n: one step over the point before's, or over zero where a node block opens. -/
def accAt (c : Dev nD) : (n : ℕ) → n < cfg1.N → Acc F
  | 0, hn => step (grid1.coords ⟨0, hn⟩) acc0 (xsB V c ⟨0, hn⟩) (wB V c ⟨0, hn⟩) (dstB V c ⟨0, hn⟩) (etyB V c ⟨0, hn⟩)
  | n + 1, hn =>
    step (grid1.coords ⟨n + 1, hn⟩) (if (n + 1) % 360 = 0 then acc0 else accAt c n (Nat.lt_of_succ_lt hn))
      (xsB V c ⟨n + 1, hn⟩) (wB V c ⟨n + 1, hn⟩) (dstB V c ⟨n + 1, hn⟩) (etyB V c ⟨n + 1, hn⟩)

/-- The six scratch operands as memrefs. -/
abbrev scM0 : Memref sig .tc .vmem S2048x64 .f32 := Memref.whole cc1_scratch0
abbrev scM1 : Memref sig .tc .vmem S2048x64 .f32 := Memref.whole cc1_scratch1
abbrev scM2 : Memref sig .tc .vmem S2048x64 .f32 := Memref.whole cc1_scratch2
abbrev scM3 : Memref sig .tc .vmem S2048x1 .f32 := Memref.whole cc1_scratch3
abbrev scM4 : Memref sig .tc .vmem S2048x1 .f32 := Memref.whole cc1_scratch4
abbrev scM5 : Memref sig .tc .vmem S2048x1 .f32 := Memref.whole cc1_scratch5

/-- The other scoped buffers of the core (the first region's staging buffers), each whole at some contents. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant before position n: before the first point whatever the launch hands over; afterwards the
    six accumulators at what the point before left, the other scoped buffers at anything, the generator register at
    some state. -/
def PhiS1 (c : Dev nD) : (n : ℕ) → n ≤ cfg1.N → sProp 𝕄
  | 0, _ => Pipeline.ΦA spec1 c
  | n + 1, hn => iprop(stgRest (F := F) c
      ∗ owns (c : Thread nD τ) scM0 fullShare (accAt V c n hn).s0
      ∗ owns (c : Thread nD τ) scM1 fullShare (accAt V c n hn).s1
      ∗ owns (c : Thread nD τ) scM2 fullShare (accAt V c n hn).s2
      ∗ owns (c : Thread nD τ) scM3 fullShare (accAt V c n hn).c0
      ∗ owns (c : Thread nD τ) scM4 fullShare (accAt V c n hn).c1
      ∗ owns (c : Thread nD τ) scM5 fullShare (accAt V c n hn).c2
      ∗ (∃ r, prngReg c r))

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => fin (hB V c t) (accAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = fin (hB V c t) (accAt V c t.val t.isLt) := by dsimp only [dat1]

end Cert.Kernel.R1

end
-- ==== Proof.BR1Run.lean ====
/-
  What the three case runs of the message-passing kernel share: its two conditions on the grid coordinates in closed
  form over the grid, where the output window is idle and not written back, each window's staging memref at a point,
  and the launch's invariant split into the six accumulators' buffers and the rest.
-/
import proofs.«420560_j48172353192125_2_alg».proof.Proof.BR1Dat

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions on the coordinates -/

/-- The first edge block: the condition under which the body zeroes the six accumulators. -/
abbrev cond1_0 (i : grid1.Coords) : Prop := (Scalar.cmpi .ne (Scalar.extui (Scalar.cmpi .eq (BitVec.ofNat 32 (i 1).val) 0#32)) 0#32) = 1#1
/-- It holds at the points divisible by 360. -/
theorem hcond1_0 : ∀ t : Fin cfg1.N, cond1_0 (grid1.coords t) ↔ t.val % 360 = 0 :=
  (by decide +kernel : ∀ t : Fin grid1.N, cond1_0 (grid1.coords t) ↔ t.val % 360 = 0)

/-- The last edge block: the condition under which the body writes the output block. -/
abbrev cond1_1 (i : grid1.Coords) : Prop := k1_cond2 i = 1#1
/-- It holds at the points that are 359 modulo 360. -/
theorem hcond1_1 : ∀ t : Fin cfg1.N, cond1_1 (grid1.coords t) ↔ t.val % 360 = 359 :=
  (by decide +kernel : ∀ t : Fin grid1.N, cond1_1 (grid1.coords t) ↔ t.val % 360 = 359)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last edge block the output window is idle: the body stores nothing into it, -/
theorem idleAt1_5 : ∀ t : Fin cfg1.N, ¬cond1_1 (grid1.coords t) → cfg1.idle 5 (grid1.coords t) = true := by decide +kernel
/-- and the pipeline does not write its block back. -/
theorem noFlush1_5 : ∀ t : Fin cfg1.N, ¬cond1_1 (grid1.coords t) → (cfg1.win 5).flush t = false := by decide +kernel
/-- At the last edge block it is live. -/
theorem liveAt1_5 : ∀ t : Fin cfg1.N, cond1_1 (grid1.coords t) → cfg1.idle 5 (grid1.coords t) = false := by decide +kernel

/-! ## The staging memrefs at a point -/

abbrev ms1_0 (t : Fin cfg1.N) : Memref sig .tc .vmem S2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)

/-! ## The launch's invariant, the six accumulators' buffers named -/

/-- What the launch hands the region holds the other scoped buffers, the six accumulators' buffers each at some
    contents, and the generator register. -/
theorem PhiA1_split (c : Dev nD) :
    (Pipeline.ΦA spec1 c : sProp 𝕄) ⊢ iprop(stgRest (F := F) c
      ∗ (∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)
      ∗ (∃ d, owns (c : Thread nD τ) scM4 fullShare d) ∗ (∃ d, owns (c : Thread nD τ) scM5 fullShare d)
      ∗ (∃ r, prngReg c r)) := by
  unfold Pipeline.ΦA stgRest; rw [scopedRest1_eq]; simp only [scM0, scM1, scM2, scM3, scM4, scM5, owns_whole]
  iintro ⟨⟨A0, A1, A2, A3, A4, A5, A6, A7, A8, A9, S0, S1, S2, S3, S4, S5⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  isplitl [S2]; · iexact S2
  isplitl [S3]; · iexact S3
  isplitl [S4]; · iexact S4
  isplitl [S5]; · iexact S5
  iexact Hg

/-- And conversely. -/
theorem PhiA1_join (c : Dev nD) :
    iprop(stgRest (F := F) c
      ∗ (∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)
      ∗ (∃ d, owns (c : Thread nD τ) scM4 fullShare d) ∗ (∃ d, owns (c : Thread nD τ) scM5 fullShare d)
      ∗ (∃ r, prngReg c r)) ⊢ (Pipeline.ΦA spec1 c : sProp 𝕄) := by
  unfold Pipeline.ΦA stgRest; rw [scopedRest1_eq]; simp only [scM0, scM1, scM2, scM3, scM4, scM5, owns_whole]
  iintro ⟨⟨A0, A1, A2, A3, A4, A5, A6, A7, A8, A9⟩, S0, S1, S2, S3, S4, S5, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [S0]; · iexact S0
  isplitl [S1]; · iexact S1
  isplitl [S2]; · iexact S2
  isplitl [S3]; · iexact S3
  isplitl [S4]; · iexact S4
  iexact S5

end Cert.Kernel.R1

end
-- ==== Proof.BR1RunA.lean ====
/-
  The message-passing kernel's body run at the first edge block of a node block: its triple, with what each accumulator's buffer
  (and, at the last edge block, the output block's) is left holding as the list of the stores the run meets.
-/
import proofs.«420560_j48172353192125_2_alg».proof.Proof.BR1Run

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The kernel body at the first edge block of a node block (and not the last): the six accumulators, found at anything, are zeroed and
    then updated; the output block's buffer is handed back untouched.
    On whole memrefs, the five inputs' at their contents, the body runs to the continuation holding the inputs' as they
    were and each buffer it stored into with its stores written, listed last first. The lists are read off the run. -/
noncomputable def kernelRun1_A (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hc0 : cond1_0 i) (hc1 : ¬cond1_1 i)
    (x0 : Vec F S2048x64 .f32) (x1 : Vec F S3x64x64 .f32) (x2 : Vec F S2048x64 .f32) (x3 : Vec F S2048 .i32) (x4 : Vec F S2048 .i32) :
    Σ' (L5 : List (View.Piece (Elt F) S2048x64 .f32)) (LS0 : List (View.Piece (Elt F) S2048x64 .f32)) (LS1 : List (View.Piece (Elt F) S2048x64 .f32)) (LS2 : List (View.Piece (Elt F) S2048x64 .f32)) (LS3 : List (View.Piece (Elt F) S2048x1 .f32)) (LS4 : List (View.Piece (Elt F) S2048x1 .f32)), { LS5 : List (View.Piece (Elt F) S2048x1 .f32) //
      ∀ (xi5 : Vec F S2048x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)
              ∗ (∃ f, arg12.view.loc (c : Thread nD τ) ↦[arg12.view.set]{fullShare} arg12.view.writes (Elt F) f LS4)
              ∗ (∃ f, arg13.view.loc (c : Thread nD τ) ↦[arg13.view.set]{fullShare} arg13.view.writes (Elt F) f LS5)) -∗ K ⟨⟩))
          ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi5 E K => ?run⟩
  case run =>
    simp only [cc1__rgcn_kernel_eq_skeleton]; unfold cc1__rgcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.R1

end
-- ==== Proof.BR1RunB.lean ====
/-
  The message-passing kernel's body run at an edge block neither first nor last: its triple, with what each accumulator's buffer
  (and, at the last edge block, the output block's) is left holding as the list of the stores the run meets.
-/
import proofs.«420560_j48172353192125_2_alg».proof.Proof.BR1RunA

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The kernel body at an edge block that is neither the first nor the last of its node block: the six accumulators, found at what the
    point before left, are updated; the output block's buffer is handed back untouched.
    On whole memrefs, the five inputs' at their contents, the body runs to the continuation holding the inputs' as they
    were and each buffer it stored into with its stores written, listed last first. The lists are read off the run. -/
noncomputable def kernelRun1_B (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hc0 : ¬cond1_0 i) (hc1 : ¬cond1_1 i)
    (x0 : Vec F S2048x64 .f32) (x1 : Vec F S3x64x64 .f32) (x2 : Vec F S2048x64 .f32) (x3 : Vec F S2048 .i32) (x4 : Vec F S2048 .i32)
    (xs0 : Vec F S2048x64 .f32) (xs1 : Vec F S2048x64 .f32) (xs2 : Vec F S2048x64 .f32) (xs3 : Vec F S2048x1 .f32) (xs4 : Vec F S2048x1 .f32) (xs5 : Vec F S2048x1 .f32) :
    Σ' (L5 : List (View.Piece (Elt F) S2048x64 .f32)) (LS0 : List (View.Piece (Elt F) S2048x64 .f32)) (LS1 : List (View.Piece (Elt F) S2048x64 .f32)) (LS2 : List (View.Piece (Elt F) S2048x64 .f32)) (LS3 : List (View.Piece (Elt F) S2048x1 .f32)) (LS4 : List (View.Piece (Elt F) S2048x1 .f32)), { LS5 : List (View.Piece (Elt F) S2048x1 .f32) //
      ∀ (xi5 : Vec F S2048x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)
              ∗ (∃ f, arg12.view.loc (c : Thread nD τ) ↦[arg12.view.set]{fullShare} arg12.view.writes (Elt F) f LS4)
              ∗ (∃ f, arg13.view.loc (c : Thread nD τ) ↦[arg13.view.set]{fullShare} arg13.view.writes (Elt F) f LS5)) -∗ K ⟨⟩))
          ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi5 E K => ?run⟩
  case run =>
    simp only [cc1__rgcn_kernel_eq_skeleton]; unfold cc1__rgcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.R1

end
-- ==== Proof.BR1RunC.lean ====
/-
  The message-passing kernel's body run at the last edge block of a node block: its triple, with what each accumulator's buffer
  (and, at the last edge block, the output block's) is left holding as the list of the stores the run meets.
-/
import proofs.«420560_j48172353192125_2_alg».proof.Proof.BR1RunB

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The kernel body at the last edge block of a node block (and not the first): the six accumulators are updated and the output block's
    buffer, found at anything, is stored.
    On whole memrefs, the five inputs' at their contents, the body runs to the continuation holding the inputs' as they
    were and each buffer it stored into with its stores written, listed last first. The lists are read off the run. -/
noncomputable def kernelRun1_C (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hc0 : ¬cond1_0 i) (hc1 : cond1_1 i)
    (x0 : Vec F S2048x64 .f32) (x1 : Vec F S3x64x64 .f32) (x2 : Vec F S2048x64 .f32) (x3 : Vec F S2048 .i32) (x4 : Vec F S2048 .i32)
    (xs0 : Vec F S2048x64 .f32) (xs1 : Vec F S2048x64 .f32) (xs2 : Vec F S2048x64 .f32) (xs3 : Vec F S2048x1 .f32) (xs4 : Vec F S2048x1 .f32) (xs5 : Vec F S2048x1 .f32) :
    Σ' (L5 : List (View.Piece (Elt F) S2048x64 .f32)) (LS0 : List (View.Piece (Elt F) S2048x64 .f32)) (LS1 : List (View.Piece (Elt F) S2048x64 .f32)) (LS2 : List (View.Piece (Elt F) S2048x64 .f32)) (LS3 : List (View.Piece (Elt F) S2048x1 .f32)) (LS4 : List (View.Piece (Elt F) S2048x1 .f32)), { LS5 : List (View.Piece (Elt F) S2048x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)
              ∗ (∃ f, arg12.view.loc (c : Thread nD τ) ↦[arg12.view.set]{fullShare} arg12.view.writes (Elt F) f LS4)
              ∗ (∃ f, arg13.view.loc (c : Thread nD τ) ↦[arg13.view.set]{fullShare} arg13.view.writes (Elt F) f LS5)) -∗ K ⟨⟩))
          ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__rgcn_kernel_eq_skeleton]; unfold cc1__rgcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.R1

end
-- ==== Proof.BR1Body.lean ====
/-
  The body obligation of the message-passing region: at every grid point the kernel body, handed the input blocks and
  the accumulators as the point before left them, leaves the accumulators one step further and, at a node block's last
  edge block, the output block at the closing formula.

  Per case of the two conditions on the coordinates the run's stores are read back as the step's values; the cases are
  then met by the point's position modulo 360.
-/
import proofs.«420560_j48172353192125_2_alg».proof.Proof.BR1RunC
import Idealize.ShloMosaic.Lib.Pipeline.Value

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Zero offsets -/

theorem hz1 : (![0] : Fin 1 → ℕ) = fun _ => 0 := funext fun a => by fin_cases a <;> rfl
theorem hz2 : (![0, 0] : Fin 2 → ℕ) = fun _ => 0 := funext fun a => by fin_cases a <;> rfl

/-! ## What each case's stores leave

Every buffer a case stores into is covered by its stores, and reads back as the step's value; with these the case's
run becomes a triple over the step. -/

/-! ### At the first edge block of a node block -/

section CaseA

variable (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole)
  (hc0 : cond1_0 i) (hc1 : ¬cond1_1 i)
  (x0 : Vec F S2048x64 .f32) (x1 : Vec F S3x64x64 .f32) (x2 : Vec F S2048x64 .f32) (x3 : Vec F S2048 .i32) (x4 : Vec F S2048 .i32)

/-- The stores into accumulator 0's buffer cover it, -/
theorem scovA_0 (y : S2048x64.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1 S2048x64.size (by sl_kernel_rfl) y

/-- and leave the step's value over zero: a store of zero, then a store of the update of what was read back. -/
theorem canonA_0 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1 = (step i acc0 x0 x1 x3 x4).s0 := by
  unfold kernelRun1_A; dsimp only; sl_unfold_words
  rw [View.canon_cons_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 1's buffer cover it, -/
theorem scovA_1 (y : S2048x64.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 S2048x64.size (by sl_kernel_rfl) y

/-- and leave the step's value over zero: a store of zero, then a store of the update of what was read back. -/
theorem canonA_1 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 = (step i acc0 x0 x1 x3 x4).s1 := by
  unfold kernelRun1_A; dsimp only; sl_unfold_words
  rw [View.canon_cons_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 2's buffer cover it, -/
theorem scovA_2 (y : S2048x64.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 S2048x64.size (by sl_kernel_rfl) y

/-- and leave the step's value over zero: a store of zero, then a store of the update of what was read back. -/
theorem canonA_2 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 = (step i acc0 x0 x1 x3 x4).s2 := by
  unfold kernelRun1_A; dsimp only; sl_unfold_words
  rw [View.canon_cons_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 3's buffer cover it, -/
theorem scovA_3 (y : S2048x1.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1 S2048x1.size (by sl_kernel_rfl) y

/-- and leave the step's value over zero: a store of zero, then a store of the update of what was read back. -/
theorem canonA_3 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1 = (step i acc0 x0 x1 x3 x4).c0 := by
  unfold kernelRun1_A; dsimp only; sl_unfold_words
  rw [View.canon_cons_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 4's buffer cover it, -/
theorem scovA_4 (y : S2048x1.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.1 S2048x1.size (by sl_kernel_rfl) y

/-- and leave the step's value over zero: a store of zero, then a store of the update of what was read back. -/
theorem canonA_4 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.1 = (step i acc0 x0 x1 x3 x4).c1 := by
  unfold kernelRun1_A; dsimp only; sl_unfold_words
  rw [View.canon_cons_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 5's buffer cover it, -/
theorem scovA_5 (y : S2048x1.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.1 S2048x1.size (by sl_kernel_rfl) y

/-- and leave the step's value over zero: a store of zero, then a store of the update of what was read back. -/
theorem canonA_5 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.1 = (step i acc0 x0 x1 x3 x4).c2 := by
  unfold kernelRun1_A; dsimp only; sl_unfold_words
  rw [View.canon_cons_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

include hc0 hc1 in
/-- The case's triple over the step: the accumulators' buffers end at the step's values over zero, the output block's buffer as found. -/
theorem sound_kernel1_A (xi5 : Vec F S2048x64 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare xi5
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare (step i acc0 x0 x1 x3 x4).s0
            ∗ owns (c : Thread nD τ) arg9 fullShare (step i acc0 x0 x1 x3 x4).s1
            ∗ owns (c : Thread nD τ) arg10 fullShare (step i acc0 x0 x1 x3 x4).s2
            ∗ owns (c : Thread nD τ) arg11 fullShare (step i acc0 x0 x1 x3 x4).c0
            ∗ owns (c : Thread nD τ) arg12 fullShare (step i acc0 x0 x1 x3 x4).c1
            ∗ owns (c : Thread nD τ) arg13 fullShare (step i acc0 x0 x1 x3 x4).c2) -∗ K ⟨⟩))
      ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K := by
  iintro ⟨H0, H1, H2, H3, H4, H5, HS0, HS1, HS2, HS3, HS4, HS5, Hk⟩
  iapply ((kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.2 xi5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr
    swap; · iexact HS0
    ipureintro; exact (View.read_writes_eq_canon _ _ _ (scovA_0 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_0 c i arg2 harg2 arg3 harg3 arg4 harg4 arg5 harg5 arg6 harg6 arg7 harg7 arg8 harg8 arg9 harg9 arg10 harg10 arg11 harg11 arg12 harg12 arg13 harg13 hc0 hc1 x0 x1 x2 x3 x4)
  isplitl [HS1]
  · unfold owns; iexists _; isplitr
    swap; · iexact HS1
    ipureintro; exact (View.read_writes_eq_canon _ _ _ (scovA_1 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_1 c i arg2 harg2 arg3 harg3 arg4 harg4 arg5 harg5 arg6 harg6 arg7 harg7 arg8 harg8 arg9 harg9 arg10 harg10 arg11 harg11 arg12 harg12 arg13 harg13 hc0 hc1 x0 x1 x2 x3 x4)
  isplitl [HS2]
  · unfold owns; iexists _; isplitr
    swap; · iexact HS2
    ipureintro; exact (View.read_writes_eq_canon _ _ _ (scovA_2 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_2 c i arg2 harg2 arg3 harg3 arg4 harg4 arg5 harg5 arg6 harg6 arg7 harg7 arg8 harg8 arg9 harg9 arg10 harg10 arg11 harg11 arg12 harg12 arg13 harg13 hc0 hc1 x0 x1 x2 x3 x4)
  isplitl [HS3]
  · unfold owns; iexists _; isplitr
    swap; · iexact HS3
    ipureintro; exact (View.read_writes_eq_canon _ _ _ (scovA_3 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_3 c i arg2 harg2 arg3 harg3 arg4 harg4 arg5 harg5 arg6 harg6 arg7 harg7 arg8 harg8 arg9 harg9 arg10 harg10 arg11 harg11 arg12 harg12 arg13 harg13 hc0 hc1 x0 x1 x2 x3 x4)
  isplitl [HS4]
  · unfold owns; iexists _; isplitr
    swap; · iexact HS4
    ipureintro; exact (View.read_writes_eq_canon _ _ _ (scovA_4 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_4 c i arg2 harg2 arg3 harg3 arg4 harg4 arg5 harg5 arg6 harg6 arg7 harg7 arg8 harg8 arg9 harg9 arg10 harg10 arg11 harg11 arg12 harg12 arg13 harg13 hc0 hc1 x0 x1 x2 x3 x4)
  unfold owns; iexists _; isplitr
  swap; · iexact HS5
  ipureintro; exact (View.read_writes_eq_canon _ _ _ (scovA_5 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_5 c i arg2 harg2 arg3 harg3 arg4 harg4 arg5 harg5 arg6 harg6 arg7 harg7 arg8 harg8 arg9 harg9 arg10 harg10 arg11 harg11 arg12 harg12 arg13 harg13 hc0 hc1 x0 x1 x2 x3 x4)

end CaseA

/-! ### At an edge block neither first nor last -/

section CaseB

variable (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole)
  (hc0 : ¬cond1_0 i) (hc1 : ¬cond1_1 i)
  (x0 : Vec F S2048x64 .f32) (x1 : Vec F S3x64x64 .f32) (x2 : Vec F S2048x64 .f32) (x3 : Vec F S2048 .i32) (x4 : Vec F S2048 .i32)
  (xs0 : Vec F S2048x64 .f32) (xs1 : Vec F S2048x64 .f32) (xs2 : Vec F S2048x64 .f32) (xs3 : Vec F S2048x1 .f32) (xs4 : Vec F S2048x1 .f32) (xs5 : Vec F S2048x1 .f32)

/-- The stores into accumulator 0's buffer cover it, -/
theorem scovB_0 (y : S2048x64.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1 S2048x64.size (by sl_kernel_rfl) y

/-- and leave the step's value: one store, of the update of what was read. -/
theorem canonB_0 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1 = (step i ⟨xs0, xs1, xs2, xs3, xs4, xs5⟩ x0 x1 x3 x4).s0 := by
  unfold kernelRun1_B; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 1's buffer cover it, -/
theorem scovB_1 (y : S2048x64.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1 S2048x64.size (by sl_kernel_rfl) y

/-- and leave the step's value: one store, of the update of what was read. -/
theorem canonB_1 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1 = (step i ⟨xs0, xs1, xs2, xs3, xs4, xs5⟩ x0 x1 x3 x4).s1 := by
  unfold kernelRun1_B; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 2's buffer cover it, -/
theorem scovB_2 (y : S2048x64.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1 S2048x64.size (by sl_kernel_rfl) y

/-- and leave the step's value: one store, of the update of what was read. -/
theorem canonB_2 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1 = (step i ⟨xs0, xs1, xs2, xs3, xs4, xs5⟩ x0 x1 x3 x4).s2 := by
  unfold kernelRun1_B; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 3's buffer cover it, -/
theorem scovB_3 (y : S2048x1.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1 S2048x1.size (by sl_kernel_rfl) y

/-- and leave the step's value: one store, of the update of what was read. -/
theorem canonB_3 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1 = (step i ⟨xs0, xs1, xs2, xs3, xs4, xs5⟩ x0 x1 x3 x4).c0 := by
  unfold kernelRun1_B; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 4's buffer cover it, -/
theorem scovB_4 (y : S2048x1.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1 S2048x1.size (by sl_kernel_rfl) y

/-- and leave the step's value: one store, of the update of what was read. -/
theorem canonB_4 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1 = (step i ⟨xs0, xs1, xs2, xs3, xs4, xs5⟩ x0 x1 x3 x4).c1 := by
  unfold kernelRun1_B; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 5's buffer cover it, -/
theorem scovB_5 (y : S2048x1.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1 S2048x1.size (by sl_kernel_rfl) y

/-- and leave the step's value: one store, of the update of what was read. -/
theorem canonB_5 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1 = (step i ⟨xs0, xs1, xs2, xs3, xs4, xs5⟩ x0 x1 x3 x4).c2 := by
  unfold kernelRun1_B; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

include hc0 hc1 in
/-- The case's triple over the step: the accumulators' buffers end at the step's values, the output block's buffer as found. -/
theorem sound_kernel1_B (xi5 : Vec F S2048x64 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare xi5
        ∗ owns (c : Thread nD τ) arg8 fullShare xs0
        ∗ owns (c : Thread nD τ) arg9 fullShare xs1
        ∗ owns (c : Thread nD τ) arg10 fullShare xs2
        ∗ owns (c : Thread nD τ) arg11 fullShare xs3
        ∗ owns (c : Thread nD τ) arg12 fullShare xs4
        ∗ owns (c : Thread nD τ) arg13 fullShare xs5
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare (step i ⟨xs0, xs1, xs2, xs3, xs4, xs5⟩ x0 x1 x3 x4).s0
            ∗ owns (c : Thread nD τ) arg9 fullShare (step i ⟨xs0, xs1, xs2, xs3, xs4, xs5⟩ x0 x1 x3 x4).s1
            ∗ owns (c : Thread nD τ) arg10 fullShare (step i ⟨xs0, xs1, xs2, xs3, xs4, xs5⟩ x0 x1 x3 x4).s2
            ∗ owns (c : Thread nD τ) arg11 fullShare (step i ⟨xs0, xs1, xs2, xs3, xs4, xs5⟩ x0 x1 x3 x4).c0
            ∗ owns (c : Thread nD τ) arg12 fullShare (step i ⟨xs0, xs1, xs2, xs3, xs4, xs5⟩ x0 x1 x3 x4).c1
            ∗ owns (c : Thread nD τ) arg13 fullShare (step i ⟨xs0, xs1, xs2, xs3, xs4, xs5⟩ x0 x1 x3 x4).c2) -∗ K ⟨⟩))
      ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K := by
  iintro ⟨H0, H1, H2, H3, H4, H5, HS0, HS1, HS2, HS3, HS4, HS5, Hk⟩
  iapply ((kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.2 xi5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr
    swap; · iexact HS0
    ipureintro; exact (View.read_writes_eq_canon _ _ _ (scovB_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS1]
  · unfold owns; iexists _; isplitr
    swap; · iexact HS1
    ipureintro; exact (View.read_writes_eq_canon _ _ _ (scovB_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS2]
  · unfold owns; iexists _; isplitr
    swap; · iexact HS2
    ipureintro; exact (View.read_writes_eq_canon _ _ _ (scovB_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS3]
  · unfold owns; iexists _; isplitr
    swap; · iexact HS3
    ipureintro; exact (View.read_writes_eq_canon _ _ _ (scovB_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS4]
  · unfold owns; iexists _; isplitr
    swap; · iexact HS4
    ipureintro; exact (View.read_writes_eq_canon _ _ _ (scovB_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  unfold owns; iexists _; isplitr
  swap; · iexact HS5
  ipureintro; exact (View.read_writes_eq_canon _ _ _ (scovB_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)

end CaseB

/-! ### At the last edge block of a node block -/

section CaseC

variable (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole)
  (hc0 : ¬cond1_0 i) (hc1 : cond1_1 i)
  (x0 : Vec F S2048x64 .f32) (x1 : Vec F S3x64x64 .f32) (x2 : Vec F S2048x64 .f32) (x3 : Vec F S2048 .i32) (x4 : Vec F S2048 .i32)
  (xs0 : Vec F S2048x64 .f32) (xs1 : Vec F S2048x64 .f32) (xs2 : Vec F S2048x64 .f32) (xs3 : Vec F S2048x1 .f32) (xs4 : Vec F S2048x1 .f32) (xs5 : Vec F S2048x1 .f32)

/-- The stores into accumulator 0's buffer cover it, -/
theorem scovC_0 (y : S2048x64.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1 S2048x64.size (by sl_kernel_rfl) y

/-- and leave the step's value: one store, of the update of what was read. -/
theorem canonC_0 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1 = (step i ⟨xs0, xs1, xs2, xs3, xs4, xs5⟩ x0 x1 x3 x4).s0 := by
  unfold kernelRun1_C; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 1's buffer cover it, -/
theorem scovC_1 (y : S2048x64.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1 S2048x64.size (by sl_kernel_rfl) y

/-- and leave the step's value: one store, of the update of what was read. -/
theorem canonC_1 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1 = (step i ⟨xs0, xs1, xs2, xs3, xs4, xs5⟩ x0 x1 x3 x4).s1 := by
  unfold kernelRun1_C; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 2's buffer cover it, -/
theorem scovC_2 (y : S2048x64.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1 S2048x64.size (by sl_kernel_rfl) y

/-- and leave the step's value: one store, of the update of what was read. -/
theorem canonC_2 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1 = (step i ⟨xs0, xs1, xs2, xs3, xs4, xs5⟩ x0 x1 x3 x4).s2 := by
  unfold kernelRun1_C; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 3's buffer cover it, -/
theorem scovC_3 (y : S2048x1.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1 S2048x1.size (by sl_kernel_rfl) y

/-- and leave the step's value: one store, of the update of what was read. -/
theorem canonC_3 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1 = (step i ⟨xs0, xs1, xs2, xs3, xs4, xs5⟩ x0 x1 x3 x4).c0 := by
  unfold kernelRun1_C; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 4's buffer cover it, -/
theorem scovC_4 (y : S2048x1.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1 S2048x1.size (by sl_kernel_rfl) y

/-- and leave the step's value: one store, of the update of what was read. -/
theorem canonC_4 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1 = (step i ⟨xs0, xs1, xs2, xs3, xs4, xs5⟩ x0 x1 x3 x4).c1 := by
  unfold kernelRun1_C; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 5's buffer cover it, -/
theorem scovC_5 (y : S2048x1.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1 S2048x1.size (by sl_kernel_rfl) y

/-- and leave the step's value: one store, of the update of what was read. -/
theorem canonC_5 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1 = (step i ⟨xs0, xs1, xs2, xs3, xs4, xs5⟩ x0 x1 x3 x4).c2 := by
  unfold kernelRun1_C; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The store into the output block's buffer covers it, -/
theorem covC_out (y : S2048x64.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).1 S2048x64.size (by sl_kernel_rfl) y

/-- and leaves the closing formula of the root block and the accumulators just stored, each read back. -/
theorem canonC_out : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).1 = fin x2 (step i ⟨xs0, xs1, xs2, xs3, xs4, xs5⟩ x0 x1 x3 x4) := by
  unfold kernelRun1_C; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

include hc0 hc1 in
/-- The case's triple over the step: the accumulators' buffers end at the step's values, the output block's at the closing formula. -/
theorem sound_kernel1_C (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg7 fullShare d)
        ∗ owns (c : Thread nD τ) arg8 fullShare xs0
        ∗ owns (c : Thread nD τ) arg9 fullShare xs1
        ∗ owns (c : Thread nD τ) arg10 fullShare xs2
        ∗ owns (c : Thread nD τ) arg11 fullShare xs3
        ∗ owns (c : Thread nD τ) arg12 fullShare xs4
        ∗ owns (c : Thread nD τ) arg13 fullShare xs5
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare (fin x2 (step i ⟨xs0, xs1, xs2, xs3, xs4, xs5⟩ x0 x1 x3 x4))
            ∗ owns (c : Thread nD τ) arg8 fullShare (step i ⟨xs0, xs1, xs2, xs3, xs4, xs5⟩ x0 x1 x3 x4).s0
            ∗ owns (c : Thread nD τ) arg9 fullShare (step i ⟨xs0, xs1, xs2, xs3, xs4, xs5⟩ x0 x1 x3 x4).s1
            ∗ owns (c : Thread nD τ) arg10 fullShare (step i ⟨xs0, xs1, xs2, xs3, xs4, xs5⟩ x0 x1 x3 x4).s2
            ∗ owns (c : Thread nD τ) arg11 fullShare (step i ⟨xs0, xs1, xs2, xs3, xs4, xs5⟩ x0 x1 x3 x4).c0
            ∗ owns (c : Thread nD τ) arg12 fullShare (step i ⟨xs0, xs1, xs2, xs3, xs4, xs5⟩ x0 x1 x3 x4).c1
            ∗ owns (c : Thread nD τ) arg13 fullShare (step i ⟨xs0, xs1, xs2, xs3, xs4, xs5⟩ x0 x1 x3 x4).c2) -∗ K ⟨⟩))
      ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K := by
  iintro ⟨H0, H1, H2, H3, H4, H5, HS0, HS1, HS2, HS3, HS4, HS5, Hk⟩
  iapply ((kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%es0, HS0⟩, ⟨%es1, HS1⟩, ⟨%es2, HS2⟩, ⟨%es3, HS3⟩, ⟨%es4, HS4⟩, ⟨%es5, HS5⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (View.read_writes_eq_canon _ _ _ (covC_out c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_out c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS0]
  · unfold owns; iexists _; isplitr
    swap; · iexact HS0
    ipureintro; exact (View.read_writes_eq_canon _ _ _ (scovC_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS1]
  · unfold owns; iexists _; isplitr
    swap; · iexact HS1
    ipureintro; exact (View.read_writes_eq_canon _ _ _ (scovC_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS2]
  · unfold owns; iexists _; isplitr
    swap; · iexact HS2
    ipureintro; exact (View.read_writes_eq_canon _ _ _ (scovC_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS3]
  · unfold owns; iexists _; isplitr
    swap; · iexact HS3
    ipureintro; exact (View.read_writes_eq_canon _ _ _ (scovC_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS4]
  · unfold owns; iexists _; isplitr
    swap; · iexact HS4
    ipureintro; exact (View.read_writes_eq_canon _ _ _ (scovC_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  unfold owns; iexists _; isplitr
  swap; · iexact HS5
  ipureintro; exact (View.read_writes_eq_canon _ _ _ (scovC_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)

end CaseC

-- the TensorCore's buffer contents when the region is entered
variable (V : (c : Dev nD) → (b : Ref sig .tc) → Buf (Elt F) ((c : Thread nD τ).loc b))

/-! ## The accumulators after a point, case by case -/

/-- At a point that opens a node block the accumulators are one step over zero. -/
theorem accAt_first (c : Dev nD) (t : Fin cfg1.N) (h0 : t.val % 360 = 0) :
    accAt V c t.val t.isLt = step (grid1.coords t) acc0 (xsB V c t) (wB V c t) (dstB V c t) (etyB V c t) := by
  obtain ⟨n, hn⟩ := t
  cases n with
  | zero => rfl
  | succ n => exact congrArg (fun a => step _ a _ _ _ _) (if_pos h0)

/-- At any other point they are one step over what the point before left. -/
theorem accAt_next (c : Dev nD) (t : Fin cfg1.N) (h0 : ¬t.val % 360 = 0) :
    accAt V c t.val t.isLt = step (grid1.coords t) (accAt V c (t.val - 1) (Nat.lt_of_le_of_lt (Nat.sub_le _ _) t.isLt)) (xsB V c t) (wB V c t) (dstB V c t) (etyB V c t) := by
  obtain ⟨n, hn⟩ := t
  cases n with
  | zero => exact absurd (Nat.zero_mod _) h0
  | succ n => exact congrArg (fun a => step _ a _ _ _ _) (if_neg h0)

/-! ## The invariant before a position -/

theorem PhiS1_zero (c : Dev nD) (n : ℕ) (h : n ≤ cfg1.N) (hz : n = 0) : PhiS1 V c n h = Pipeline.ΦA spec1 c := by
  subst hz; rfl

/-- After point n: the accumulators at that point's values. -/
theorem PhiS1_succ (c : Dev nD) (n : ℕ) (hn : n < cfg1.N) :
    PhiS1 V c (n + 1) hn = iprop(stgRest (F := F) c
      ∗ owns (c : Thread nD τ) scM0 fullShare (accAt V c n hn).s0
      ∗ owns (c : Thread nD τ) scM1 fullShare (accAt V c n hn).s1
      ∗ owns (c : Thread nD τ) scM2 fullShare (accAt V c n hn).s2
      ∗ owns (c : Thread nD τ) scM3 fullShare (accAt V c n hn).c0
      ∗ owns (c : Thread nD τ) scM4 fullShare (accAt V c n hn).c1
      ∗ owns (c : Thread nD τ) scM5 fullShare (accAt V c n hn).c2
      ∗ (∃ r, prngReg c r)) := rfl

/-- Before a point that is not the first: the accumulators at what the point before left. -/
theorem PhiS1_pos (c : Dev nD) (n : ℕ) (h : n ≤ cfg1.N) (hz : n ≠ 0) :
    PhiS1 V c n h = iprop(stgRest (F := F) c
      ∗ owns (c : Thread nD τ) scM0 fullShare (accAt V c (n - 1) (by omega)).s0
      ∗ owns (c : Thread nD τ) scM1 fullShare (accAt V c (n - 1) (by omega)).s1
      ∗ owns (c : Thread nD τ) scM2 fullShare (accAt V c (n - 1) (by omega)).s2
      ∗ owns (c : Thread nD τ) scM3 fullShare (accAt V c (n - 1) (by omega)).c0
      ∗ owns (c : Thread nD τ) scM4 fullShare (accAt V c (n - 1) (by omega)).c1
      ∗ owns (c : Thread nD τ) scM5 fullShare (accAt V c (n - 1) (by omega)).c2
      ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The input windows' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's position modulo 360 says which case it is in;
    the invariant hands the body the accumulators at what the point before left (at anything before the first point) and
    takes them back one step further; away from the last edge block the output window's buffer goes back as found, at
    the last edge block it holds the closing formula; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 2880 := lt_of_lt_of_eq t.isLt (show cfg1.N = 2880 from N_1)
  by_cases h0 : t.val % 360 = 0
  · have h1 : ¬t.val % 360 = 359 := by omega
    rw [Dat.leavesExact_idle (dat1 V c) 5 t (idleAt1_5 t (fun h => h1 ((hcond1_1 t).mp h))) (noFlush1_5 t (fun h => h1 ((hcond1_1 t).mp h)))]
    rw [accAt_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave ⟨Hstg, HS0, HS1, HS2, HS3, HS4, HS5, Hg⟩ := (PhiA1_split (F := F) c) $$ HΦ
      iapply (sound_kernel1_A c (grid1.coords t) (ms1_0 t) (hs1_0 t) (ms1_1 t) (hs1_1 t) (ms1_2 t) (hs1_2 t) (ms1_3 t) (hs1_3 t) (ms1_4 t) (hs1_4 t) (ms1_5 t) (hs1_5 t) scM0 (Memref.isWhole_whole _) scM1 (Memref.isWhole_whole _) scM2 (Memref.isWhole_whole _) scM3 (Memref.isWhole_whole _) scM4 (Memref.isWhole_whole _) scM5 (Memref.isWhole_whole _) ((hcond1_0 t).mpr h0) (fun h => h1 ((hcond1_1 t).mp h)) (xsB V c t) (wB V c t) (hB V c t) (dstB V c t) (etyB V c t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, HS0, HS1, HS2, HS3, HS4, HS5⟩
      isplitl [Hstg HS0 HS1 HS2 HS3 HS4 HS5 Hg]
      · isplitl [Hstg]; · iexact Hstg
        isplitl [HS0]; · iexact HS0
        isplitl [HS1]; · iexact HS1
        isplitl [HS2]; · iexact HS2
        isplitl [HS3]; · iexact HS3
        isplitl [HS4]; · iexact HS4
        isplitl [HS5]; · iexact HS5
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨Hstg, HS0, HS1, HS2, HS3, HS4, HS5, Hg⟩, Ho, ⟨%d0, H0⟩, ⟨%d1, H1⟩, ⟨%d2, H2⟩, ⟨%d3, H3⟩, ⟨%d4, H4⟩, ⟨%d5, H5⟩⟩
      iapply (sound_kernel1_A c (grid1.coords t) (ms1_0 t) (hs1_0 t) (ms1_1 t) (hs1_1 t) (ms1_2 t) (hs1_2 t) (ms1_3 t) (hs1_3 t) (ms1_4 t) (hs1_4 t) (ms1_5 t) (hs1_5 t) scM0 (Memref.isWhole_whole _) scM1 (Memref.isWhole_whole _) scM2 (Memref.isWhole_whole _) scM3 (Memref.isWhole_whole _) scM4 (Memref.isWhole_whole _) scM5 (Memref.isWhole_whole _) ((hcond1_0 t).mpr h0) (fun h => h1 ((hcond1_1 t).mp h)) (xsB V c t) (wB V c t) (hB V c t) (dstB V c t) (etyB V c t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, H4, H5, HS0, HS1, HS2, HS3, HS4, HS5⟩
      isplitl [Hstg HS0 HS1 HS2 HS3 HS4 HS5 Hg]
      · isplitl [Hstg]; · iexact Hstg
        isplitl [HS0]; · iexact HS0
        isplitl [HS1]; · iexact HS1
        isplitl [HS2]; · iexact HS2
        isplitl [HS3]; · iexact HS3
        isplitl [HS4]; · iexact HS4
        isplitl [HS5]; · iexact HS5
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [accAt_next V c t h0]
    rw [PhiS1_castSucc V c t, PhiS1_pos V c _ _ hz]
    by_cases h1 : t.val % 360 = 359
    · rw [show (dat1 V c).leavesExact 5 t = owns (c : Thread nD τ) (ms1_5 t) fullShare ((dat1 V c).after 5 t) from by
        unfold Dat.leavesExact; rw [liveAt1_5 t ((hcond1_1 t).mpr h1)], after1_5]
      rw [accAt_next V c t h0]
      iintro ⟨⟨Hstg, HS0, HS1, HS2, HS3, HS4, HS5, Hg⟩, Ho, ⟨%d0, H0⟩, ⟨%d1, H1⟩, ⟨%d2, H2⟩, ⟨%d3, H3⟩, ⟨%d4, H4⟩, ⟨%d5, H5⟩⟩
      iapply (sound_kernel1_C c (grid1.coords t) (ms1_0 t) (hs1_0 t) (ms1_1 t) (hs1_1 t) (ms1_2 t) (hs1_2 t) (ms1_3 t) (hs1_3 t) (ms1_4 t) (hs1_4 t) (ms1_5 t) (hs1_5 t) scM0 (Memref.isWhole_whole _) scM1 (Memref.isWhole_whole _) scM2 (Memref.isWhole_whole _) scM3 (Memref.isWhole_whole _) scM4 (Memref.isWhole_whole _) scM5 (Memref.isWhole_whole _) (fun h => h0 ((hcond1_0 t).mp h)) ((hcond1_1 t).mpr h1) (xsB V c t) (wB V c t) (hB V c t) (dstB V c t) (etyB V c t) (accAt V c (t.val - 1) (Nat.lt_of_le_of_lt (Nat.sub_le _ _) t.isLt)).s0 (accAt V c (t.val - 1) (Nat.lt_of_le_of_lt (Nat.sub_le _ _) t.isLt)).s1 (accAt V c (t.val - 1) (Nat.lt_of_le_of_lt (Nat.sub_le _ _) t.isLt)).s2 (accAt V c (t.val - 1) (Nat.lt_of_le_of_lt (Nat.sub_le _ _) t.isLt)).c0 (accAt V c (t.val - 1) (Nat.lt_of_le_of_lt (Nat.sub_le _ _) t.isLt)).c1 (accAt V c (t.val - 1) (Nat.lt_of_le_of_lt (Nat.sub_le _ _) t.isLt)).c2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, HS0, HS1, HS2, HS3, HS4, HS5⟩
      isplitl [Hstg HS0 HS1 HS2 HS3 HS4 HS5 Hg]
      · isplitl [Hstg]; · iexact Hstg
        isplitl [HS0]; · iexact HS0
        isplitl [HS1]; · iexact HS1
        isplitl [HS2]; · iexact HS2
        isplitl [HS3]; · iexact HS3
        isplitl [HS4]; · iexact HS4
        isplitl [HS5]; · iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      iintro ⟨⟨Hstg, HS0, HS1, HS2, HS3, HS4, HS5, Hg⟩, Ho, ⟨%d0, H0⟩, ⟨%d1, H1⟩, ⟨%d2, H2⟩, ⟨%d3, H3⟩, ⟨%d4, H4⟩, ⟨%d5, H5⟩⟩
      iapply (sound_kernel1_B c (grid1.coords t) (ms1_0 t) (hs1_0 t) (ms1_1 t) (hs1_1 t) (ms1_2 t) (hs1_2 t) (ms1_3 t) (hs1_3 t) (ms1_4 t) (hs1_4 t) (ms1_5 t) (hs1_5 t) scM0 (Memref.isWhole_whole _) scM1 (Memref.isWhole_whole _) scM2 (Memref.isWhole_whole _) scM3 (Memref.isWhole_whole _) scM4 (Memref.isWhole_whole _) scM5 (Memref.isWhole_whole _) (fun h => h0 ((hcond1_0 t).mp h)) (fun h => h1 ((hcond1_1 t).mp h)) (xsB V c t) (wB V c t) (hB V c t) (dstB V c t) (etyB V c t) (accAt V c (t.val - 1) (Nat.lt_of_le_of_lt (Nat.sub_le _ _) t.isLt)).s0 (accAt V c (t.val - 1) (Nat.lt_of_le_of_lt (Nat.sub_le _ _) t.isLt)).s1 (accAt V c (t.val - 1) (Nat.lt_of_le_of_lt (Nat.sub_le _ _) t.isLt)).s2 (accAt V c (t.val - 1) (Nat.lt_of_le_of_lt (Nat.sub_le _ _) t.isLt)).c0 (accAt V c (t.val - 1) (Nat.lt_of_le_of_lt (Nat.sub_le _ _) t.isLt)).c1 (accAt V c (t.val - 1) (Nat.lt_of_le_of_lt (Nat.sub_le _ _) t.isLt)).c2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, HS0, HS1, HS2, HS3, HS4, HS5⟩
      isplitl [Hstg HS0 HS1 HS2 HS3 HS4 HS5 Hg]
      · isplitl [Hstg]; · iexact Hstg
        isplitl [HS0]; · iexact HS0
        isplitl [HS1]; · iexact HS1
        isplitl [HS2]; · iexact HS2
        isplitl [HS3]; · iexact HS3
        isplitl [HS4]; · iexact HS4
        isplitl [HS5]; · iexact HS5
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the launch's back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 2880 := N_1; omega)]
  iintro ⟨Hstg, HS0, HS1, HS2, HS3, HS4, HS5, Hg⟩
  iapply (PhiA1_join (F := F) c)
  isplitl [Hstg]; · iexact Hstg
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iexact Hg

end Cert.Kernel.R1

end
-- ==== Proof.BKRun.lean ====
/-
  The run of @main, from the launch to the return: a host stretch, the projection region, a host stretch, the
  message-passing region. The buffer contents at each of the four boundaries are a fold from the launch memory: a host
  stretch leaves what its operations compute; a region leaves its arrays at what its write-backs fold to and every
  other buffer as entered. Every weakly fair execution terminates without fault, and every final memory holds, at each
  unscoped buffer, the last boundary's contents. Each argument array is read back through the fold to its launch
  contents: no host operation writes one, and a region either stages it as an input window (which hands the array
  back as entered) or does not touch it. Stated at any float interpretation F.
-/
import proofs.«420560_j48172353192125_2_alg».proof.Proof.Gen.Kernel.Launch
import proofs.«420560_j48172353192125_2_alg».proof.Proof.Gen.Kernel.Skeleton
import proofs.«420560_j48172353192125_2_alg».proof.Proof.Gen.Kernel.Points
import proofs.«420560_j48172353192125_2_alg».proof.Proof.Gen.Kernel.Regions
import proofs.«420560_j48172353192125_2_alg».proof.Proof.BR0Body
import proofs.«420560_j48172353192125_2_alg».proof.Proof.BR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
/-- The same read at the TensorCore's references (what the projection region's proof data take). -/
abbrev V1 : (c : Dev nD) → (b : Ref sig .tc) → Buf (Elt F) ((c : Thread nD τ).loc b) := fun c b => W1 m c b
/-- At the projection region's exit: its arrays at what the pipeline leaves (the inputs as entered, each output's
    write-backs folded), every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the projection region's exit contents). -/
abbrev V2 : (c : Dev nD) → (b : Ref sig .tc) → Buf (Elt F) ((c : Thread nD τ).loc b) := fun c b => W2 m c b
/-- At the projection region's exit each of its arrays holds what the pipeline leaves, and every other buffer what it
    held at entry. -/
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the message-passing region's entry). -/
abbrev W3 : Dev nD → Valuation τ sig (Elt F) := fun c => StableHlo.after hostOps1 (W2 m c)
/-- The same read at the TensorCore's references (what the message-passing region's proof data take). -/
abbrev V3 : (c : Dev nD) → (b : Ref sig .tc) → Buf (Elt F) ((c : Thread nD τ).loc b) := fun c b => W3 m c b
/-- At the message-passing region's exit: its arrays at what the pipeline leaves, every other buffer as entered. -/
def W4 (c : Dev nD) : Valuation τ sig (Elt F) :=
  Pipeline.withArrays spec1 c (W3 m c) fun w => (R1.dat1 (V3 m) c).arrAt w cfg1.N
theorem W4_arr (c : Dev nD) (w : Fin cfg1.W) :
    W4 m c (Proc.devRef .tc (Pipeline.arrRef spec1 w)) = (R1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (the message-passing region's exit contents). -/
abbrev V4 : (c : Dev nD) → (b : Ref sig .tc) → Buf (Elt F) ((c : Thread nD τ).loc b) := fun c b => W4 m c b
theorem hF1 (c : Dev nD) (w : Fin cfg1.W) : (R1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A reference the first host stretch does not write keeps its launch contents across it. -/
theorem W1_of (c : Dev nD) (r : Ref sig .tc) (h : r ∉ hostOps0_W) :
    W1 m c (Proc.devRef .tc r) = W0 m c (Proc.devRef .tc r) :=
  StableHlo.after_of_writes_sub hostOps0 _ hostOps0_writes h
/-- A reference the second host stretch does not write keeps its contents across it. -/
theorem W3_of (c : Dev nD) (r : Ref sig .tc) (h : r ∉ hostOps1_W) :
    W3 m c (Proc.devRef .tc r) = W2 m c (Proc.devRef .tc r) :=
  StableHlo.after_of_writes_sub hostOps1 _ hostOps1_writes h

/-! ### The arguments end as launched: no host operation and no region writes one (a region reads it through an
    input window or bypasses it), so the fold at an argument's buffer walks back to the launch memory -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := (W2_arr m c 1).trans (((R0.dat0 (V1 m) c).arrAt_in 1 rfl _).trans (R0.A_eq0 (V1 m) c 1))
    _ = W0 m c (Proc.devRef .tc main_arg3) := W1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := (W2_arr m c 2).trans (((R0.dat0 (V1 m) c).arrAt_in 2 rfl _).trans (R0.A_eq0 (V1 m) c 2))
    _ = W0 m c (Proc.devRef .tc main_arg4) := W1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := (W2_arr m c 3).trans (((R0.dat0 (V1 m) c).arrAt_in 3 rfl _).trans (R0.A_eq0 (V1 m) c 3))
    _ = W0 m c (Proc.devRef .tc main_arg5) := W1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := (W4_arr m c 1).trans (((R1.dat1 (V3 m) c).arrAt_in 1 rfl _).trans (R1.A_eq1 (V3 m) c 1))
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := W3_of m c main_arg7 (by decide)
    _ = W1 m c (Proc.devRef .tc main_arg7) := (W2_arr m c 4).trans (((R0.dat0 (V1 m) c).arrAt_in 4 rfl _).trans (R0.A_eq0 (V1 m) c 4))
    _ = W0 m c (Proc.devRef .tc main_arg7) := W1_of m c main_arg7 (by decide)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := (W4_arr m c 3).trans (((R1.dat1 (V3 m) c).arrAt_in 3 rfl _).trans (R1.A_eq1 (V3 m) c 3))
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl

theorem W4_main_arg10 (c : Dev nD) : W4 m c (Proc.devRef .tc main_arg10) = m ((c : Thread nD τ).loc main_arg10) :=
  calc W4 m c (Proc.devRef .tc main_arg10)
    _ = W3 m c (Proc.devRef .tc main_arg10) := (W4_arr m c 4).trans (((R1.dat1 (V3 m) c).arrAt_in 4 rfl _).trans (R1.A_eq1 (V3 m) c 4))
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region over the thread state: entered from every unscoped buffer at W1, left at W2. Its arrays
    split out of the unscoped buffers and put back at the exit contents; the generator register into the invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the message-passing region makes its invariant before the first point. -/
theorem hin1' (c : Dev nD) :
    (iprop((∃ r, prngReg c r) ∗ Pipeline.prefHeld (pcfgs (F := F) 1).pre c (fun _ => fullShare) (adm (F := F) 1).1
      ∗ Pipeline.scopedRest (Pipeline.pin (pcfgs (F := F)) adm 1).spec c) : sProp 𝕄) ⊢ (R1.dat1 (V3 m) c).Φ 0 := by
  refine BIBase.Entails.trans ?_ (R1.hin1 (V3 m) c)
  unfold Pipeline.ΦA
  iintro ⟨Hp, -, Hr⟩
  isplitl [Hr]; · iexact Hr
  iexact Hp

/-- After the last point the message-passing region's invariant gives the generator register and the scoped rest back. -/
theorem hout1' (c : Dev nD) :
    (R1.dat1 (V3 m) c).Φ (Fin.last cfg1.N)
      ⊢ (iprop((∃ r, prngReg c r) ∗ emp ∗ Pipeline.scopedRest (Pipeline.pin (pcfgs (F := F)) adm 1).spec c) : sProp 𝕄) := by
  refine BIBase.Entails.trans (R1.hout1 (V3 m) c) ?_
  unfold Pipeline.ΦA
  iintro ⟨Hr, Hp⟩
  isplitl [Hp]; · iexact Hp
  isplitr; · iempintro
  iexact Hr

set_option backward.isDefEq.respectTransparency.types false in
/-- The message-passing region over the thread state: entered from every unscoped buffer at W3, left at W4. Its
    invariant carries the scratch accumulators between points, so the launch's holdings enter it and leave it through
    the region's own first-point and last-point lemmas. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1' m c
  hout c := by
    rw [Pipeline.ownSems0_none]; exact hout1' m c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final memory holds at each unscoped buffer the last boundary's
    contents W4. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every weakly fair execution of @main terminates, nothing faulting, and every final memory has the
    argument arrays as launched: the run above, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c)⟩) (run_main m ρ)

end Cert.Kernel.Run

end
-- ==== Proof.R0Body.lean ====
/- Region 0 of @main (the projection kernel, pipeline 0), at a parameter V: the buffer contents when the region
   is entered. Each window's block at a point; what the body leaves in each of the two output windows' buffers, as a
   function of the five input blocks; the body's triple; the pipeline's proof data; the body obligation at every
   point. Stated at any float interpretation F. -/
import proofs.«420560_j48172353192125_2_alg».proof.Proof.Gen.KernelIdeal.Launch
import proofs.«420560_j48172353192125_2_alg».proof.Proof.Gen.KernelIdeal.Skeleton
import proofs.«420560_j48172353192125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is V's and whose body leaves the block in place: where the window is not fetched its block index has
    not moved, so the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one the whole buffer -/

abbrev r0_0 : Rect S2048x6 := Rect.unit (s := S2048x6) ![0, 0] S2048x6.size inb_S2048x6_S2048x6_0_0
abbrev r0_1 : Rect S6x64 := Rect.unit (s := S6x64) ![0, 0] S6x64.size inb_S6x64_S6x64_0_0
abbrev r0_2 : Rect S64 := Rect.unit (s := S64) ![0] S64.size inb_S64_S64_0
abbrev r0_3 : Rect S64x64 := Rect.unit (s := S64x64) ![0, 0] S64x64.size inb_S64x64_S64x64_0_0
abbrev r0_4 : Rect S2048x64 := Rect.unit (s := S2048x64) ![0, 0] S2048x64.size inb_S2048x64_S2048x64_0_0

/-! ## What the body leaves in each output window's buffer -/

/-- Window 5's staging buffer after the body, from the input windows' blocks: its one store, of the first product
    plus its bias row. -/
def out0_5 (x0 : Vec F S2048x6 .f32) (x1 : Vec F S6x64 .f32) (x2 : Vec F S64 .f32) : Vec F S2048x64 .f32 :=
  View.canon [⟨r0_4, k0_pay1 (View.ld x0 r0_0) (View.ld x1 r0_1) (View.ld x2 r0_2)⟩]

/-- Window 6's staging buffer after the body: its one store, of the second product plus its bias row. -/
def out0_6 (x0 : Vec F S2048x6 .f32) (x1 : Vec F S6x64 .f32) (x2 : Vec F S64 .f32) (x3 : Vec F S64x64 .f32) (x4 : Vec F S64 .f32) : Vec F S2048x64 .f32 :=
  View.canon [⟨r0_4, k0_pay2 (View.ld x0 r0_0) (View.ld x1 r0_1) (View.ld x2 r0_2) (View.ld x3 r0_3) (View.ld x4 r0_2)⟩]

/-- One store of the whole buffer tiles it, so it covers it. -/
theorem cover0 (p0 : Vec F S2048x64 .f32) (y : S2048x64.Idx) :
    ∃ pc ∈ ([⟨r0_4, p0⟩] : List (View.Piece (Elt F) S2048x64 .f32)), y ∈ pc.1.set :=
  View.cover_of_tiled [⟨r0_4, p0⟩] S2048x64.size (by rfl) y

/-! ## The body's triple -/

set_option maxHeartbeats 1000000 in
/-- The kernel body on whole staging memrefs, the inputs' at read contents and the outputs' at anything, runs to the
    continuation holding the inputs' as they were and each output's at its function of the inputs. -/
theorem sound_kernel0 (c : Dev nD) (E : Set ℕ) (i : grid0.Coords)
    (arg1 : Memref sig .tc .vmem S2048x6 .f32) (harg1 : arg1.IsWhole) (arg2 : Memref sig .tc .vmem S6x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S2048x64 .f32) (harg6 : arg6.IsWhole)
    (arg7 : Memref sig .tc .vmem S2048x64 .f32) (harg7 : arg7.IsWhole)
    (x0 : Vec F S2048x6 .f32) (x1 : Vec F S6x64 .f32) (x2 : Vec F S64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of pipeline 0 on core c: the arrays as the region finds them; after the body at point t each
    input's buffer at its block and each output's at its function of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1Step.lean ====
/-
  One grid point of the message-passing kernel as a pure step on its six accumulators.

  At the point (node block nb, edge block eb) the kernel holds, per relation r = 0, 1, 2, a running sum of messages
  (2048 nodes by 64 channels) and a running count of edges (2048 by 1). The point adds to each the contribution
  of the 2048 edges of block eb that end in node block nb: the one-hot matrix of the edges' local destinations
  times the masked messages, respectively times the mask. At eb = 0 the accumulators start from zero; at the last
  edge block the output block is the root transform plus the three means, clipped below at zero.
-/
import proofs.«420560_j48172353192125_2_alg».proof.Proof.Gen.KernelIdeal.Skeleton
import Idealize.ShloMosaic.Lib.Pipeline.FrameBody

noncomputable section

namespace Cert.KernelIdeal.R1

open Idealize.ShloMosaic Idealize.SL.Sem Cert.KernelIdeal Cert.KernelIdeal.Gen

variable {F : FTy → Type} [FloatOps F]

/-- The rectangle through which relation r's 64 by 64 weight is loaded from the 3 by 64 by 64 buffer. -/
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0

variable (F) in
/-- The six accumulators: per relation a message sum and an edge count. -/
structure Acc where
  s0 : Vec F S2048x64 .f32
  s1 : Vec F S2048x64 .f32
  s2 : Vec F S2048x64 .f32
  c0 : Vec F S2048x1 .f32
  c1 : Vec F S2048x1 .f32
  c2 : Vec F S2048x1 .f32

/-- The accumulators as the first edge block finds them: all zero. -/
def acc0 : Acc F := ⟨k1_pay5, k1_pay6, k1_pay7, k1_pay8, k1_pay9, k1_pay10⟩

/-- One edge block's contribution added to the accumulators: xs the block of gathered source rows, w the three
    relation weights, dst and ety the block's destinations and relation types, i the grid point. -/
def step (i : grid1.Coords) (a : Acc F) (xs : Vec F S2048x64 .f32) (w : Vec F S3x64x64 .f32)
    (dst ety : Vec F S2048 .i32) : Acc F where
  s0 := k1_pay16 a.s0 (k1_pay15 i dst ety xs (View.ld w rW0))
  c0 := k1_pay17 (k1_pay13 i dst) (k1_pay14 i dst ety) a.c0
  s1 := k1_pay19 ety (k1_pay11 xs) (k1_pay12 i dst) (k1_pay13 i dst) (View.ld w rW1) a.s1
  c1 := k1_pay20 ety (k1_pay12 i dst) (k1_pay13 i dst) a.c1
  s2 := k1_pay2 ety (k1_pay11 xs) (k1_pay12 i dst) (k1_pay13 i dst) (View.ld w rW2) a.s2
  c2 := k1_pay3 ety (k1_pay12 i dst) (k1_pay13 i dst) a.c2

/-- The output block at the last edge block: the root transform's block plus the three means, clipped at zero. -/
def fin (h : Vec F S2048x64 .f32) (a : Acc F) : Vec F S2048x64 .f32 :=
  k1_pay4 h a.s0 a.c0 a.s1 a.c1 a.s2 a.c2

end Cert.KernelIdeal.R1

end
-- ==== Proof.R1Dat.lean ====
/-
  The proof data of the message-passing region: what its six accumulators and its output block hold after each
  grid point, as a recursion over the points in the order the grid runs them (node block outermost, edge block
  innermost, 360 edge blocks per node block).

  After point n the accumulators are one step (R1Step) over what the point before left, or over zero when n opens a
  node block (n divisible by 360). The output window's block after a point is the closing formula of that point's
  accumulators; only the last edge block of a node block writes it back.
-/
import proofs.«420560_j48172353192125_2_alg».proof.Proof.Gen.KernelIdeal.Launch
import proofs.«420560_j48172353192125_2_alg».proof.Proof.Gen.KernelIdeal.Skeleton
import proofs.«420560_j48172353192125_2_alg».proof.Proof.Gen.KernelIdeal.Points
import proofs.«420560_j48172353192125_2_alg».proof.Proof.R1Step
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at their literal types: gathered source rows, relation weights, root transform,
    destinations, relation types. -/
abbrev xsB (c : Dev nD) (t : Fin cfg1.N) : Vec F S2048x64 .f32 := iblk1 V c 0 t
abbrev wB (c : Dev nD) (t : Fin cfg1.N) : Vec F S3x64x64 .f32 := iblk1 V c 1 t
abbrev hB (c : Dev nD) (t : Fin cfg1.N) : Vec F S2048x64 .f32 := iblk1 V c 2 t
abbrev dstB (c : Dev nD) (t : Fin cfg1.N) : Vec F S2048 .i32 := iblk1 V c 3 t
abbrev etyB (c : Dev nD) (t : Fin cfg1.N) : Vec F S2048 .i32 := iblk1 V c 4 t

/-- The accumulators after point n: one step over the point before's, or over zero where a node block opens. -/
def accAt (c : Dev nD) : (n : ℕ) → n < cfg1.N → Acc F
  | 0, hn => step (grid1.coords ⟨0, hn⟩) acc0 (xsB V c ⟨0, hn⟩) (wB V c ⟨0, hn⟩) (dstB V c ⟨0, hn⟩) (etyB V c ⟨0, hn⟩)
  | n + 1, hn =>
    step (grid1.coords ⟨n + 1, hn⟩) (if (n + 1) % 360 = 0 then acc0 else accAt c n (Nat.lt_of_succ_lt hn))
      (xsB V c ⟨n + 1, hn⟩) (wB V c ⟨n + 1, hn⟩) (dstB V c ⟨n + 1, hn⟩) (etyB V c ⟨n + 1, hn⟩)

/-- The six scratch operands as memrefs. -/
abbrev scM0 : Memref sig .tc .vmem S2048x64 .f32 := Memref.whole cc1_scratch0
abbrev scM1 : Memref sig .tc .vmem S2048x64 .f32 := Memref.whole cc1_scratch1
abbrev scM2 : Memref sig .tc .vmem S2048x64 .f32 := Memref.whole cc1_scratch2
abbrev scM3 : Memref sig .tc .vmem S2048x1 .f32 := Memref.whole cc1_scratch3
abbrev scM4 : Memref sig .tc .vmem S2048x1 .f32 := Memref.whole cc1_scratch4
abbrev scM5 : Memref sig .tc .vmem S2048x1 .f32 := Memref.whole cc1_scratch5

/-- The other scoped buffers of the core (the first region's staging buffers), each whole at some contents. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant before position n: before the first point whatever the launch hands over; afterwards the
    six accumulators at what the point before left, the other scoped buffers at anything, the generator register at
    some state. -/
def PhiS1 (c : Dev nD) : (n : ℕ) → n ≤ cfg1.N → sProp 𝕄
  | 0, _ => Pipeline.ΦA spec1 c
  | n + 1, hn => iprop(stgRest (F := F) c
      ∗ owns (c : Thread nD τ) scM0 fullShare (accAt V c n hn).s0
      ∗ owns (c : Thread nD τ) scM1 fullShare (accAt V c n hn).s1
      ∗ owns (c : Thread nD τ) scM2 fullShare (accAt V c n hn).s2
      ∗ owns (c : Thread nD τ) scM3 fullShare (accAt V c n hn).c0
      ∗ owns (c : Thread nD τ) scM4 fullShare (accAt V c n hn).c1
      ∗ owns (c : Thread nD τ) scM5 fullShare (accAt V c n hn).c2
      ∗ (∃ r, prngReg c r))

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => fin (hB V c t) (accAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = fin (hB V c t) (accAt V c t.val t.isLt) := by dsimp only [dat1]

end Cert.KernelIdeal.R1

end
-- ==== Proof.R1Run.lean ====
/-
  What the three case runs of the message-passing kernel share: its two conditions on the grid coordinates in closed
  form over the grid, where the output window is idle and not written back, each window's staging memref at a point,
  and the launch's invariant split into the six accumulators' buffers and the rest.
-/
import proofs.«420560_j48172353192125_2_alg».proof.Proof.R1Dat

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions on the coordinates -/

/-- The first edge block: the condition under which the body zeroes the six accumulators. -/
abbrev cond1_0 (i : grid1.Coords) : Prop := (Scalar.cmpi .ne (Scalar.extui (Scalar.cmpi .eq (BitVec.ofNat 32 (i 1).val) 0#32)) 0#32) = 1#1
/-- It holds at the points divisible by 360. -/
theorem hcond1_0 : ∀ t : Fin cfg1.N, cond1_0 (grid1.coords t) ↔ t.val % 360 = 0 :=
  (by decide +kernel : ∀ t : Fin grid1.N, cond1_0 (grid1.coords t) ↔ t.val % 360 = 0)

/-- The last edge block: the condition under which the body writes the output block. -/
abbrev cond1_1 (i : grid1.Coords) : Prop := k1_cond2 i = 1#1
/-- It holds at the points that are 359 modulo 360. -/
theorem hcond1_1 : ∀ t : Fin cfg1.N, cond1_1 (grid1.coords t) ↔ t.val % 360 = 359 :=
  (by decide +kernel : ∀ t : Fin grid1.N, cond1_1 (grid1.coords t) ↔ t.val % 360 = 359)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last edge block the output window is idle: the body stores nothing into it, -/
theorem idleAt1_5 : ∀ t : Fin cfg1.N, ¬cond1_1 (grid1.coords t) → cfg1.idle 5 (grid1.coords t) = true := by decide +kernel
/-- and the pipeline does not write its block back. -/
theorem noFlush1_5 : ∀ t : Fin cfg1.N, ¬cond1_1 (grid1.coords t) → (cfg1.win 5).flush t = false := by decide +kernel
/-- At the last edge block it is live. -/
theorem liveAt1_5 : ∀ t : Fin cfg1.N, cond1_1 (grid1.coords t) → cfg1.idle 5 (grid1.coords t) = false := by decide +kernel

/-! ## The staging memrefs at a point -/

abbrev ms1_0 (t : Fin cfg1.N) : Memref sig .tc .vmem S2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x64x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)

/-! ## The launch's invariant, the six accumulators' buffers named -/

/-- What the launch hands the region holds the other scoped buffers, the six accumulators' buffers each at some
    contents, and the generator register. -/
theorem PhiA1_split (c : Dev nD) :
    (Pipeline.ΦA spec1 c : sProp 𝕄) ⊢ iprop(stgRest (F := F) c
      ∗ (∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)
      ∗ (∃ d, owns (c : Thread nD τ) scM4 fullShare d) ∗ (∃ d, owns (c : Thread nD τ) scM5 fullShare d)
      ∗ (∃ r, prngReg c r)) := by
  unfold Pipeline.ΦA stgRest; rw [scopedRest1_eq]; simp only [scM0, scM1, scM2, scM3, scM4, scM5, owns_whole]
  iintro ⟨⟨A0, A1, A2, A3, A4, A5, A6, A7, A8, A9, S0, S1, S2, S3, S4, S5⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  isplitl [S2]; · iexact S2
  isplitl [S3]; · iexact S3
  isplitl [S4]; · iexact S4
  isplitl [S5]; · iexact S5
  iexact Hg

/-- And conversely. -/
theorem PhiA1_join (c : Dev nD) :
    iprop(stgRest (F := F) c
      ∗ (∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)
      ∗ (∃ d, owns (c : Thread nD τ) scM4 fullShare d) ∗ (∃ d, owns (c : Thread nD τ) scM5 fullShare d)
      ∗ (∃ r, prngReg c r)) ⊢ (Pipeline.ΦA spec1 c : sProp 𝕄) := by
  unfold Pipeline.ΦA stgRest; rw [scopedRest1_eq]; simp only [scM0, scM1, scM2, scM3, scM4, scM5, owns_whole]
  iintro ⟨⟨A0, A1, A2, A3, A4, A5, A6, A7, A8, A9⟩, S0, S1, S2, S3, S4, S5, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [S0]; · iexact S0
  isplitl [S1]; · iexact S1
  isplitl [S2]; · iexact S2
  isplitl [S3]; · iexact S3
  isplitl [S4]; · iexact S4
  iexact S5

end Cert.KernelIdeal.R1

end
-- ==== Proof.R1RunA.lean ====
/-
  The message-passing kernel's body run at the first edge block of a node block: its triple, with what each accumulator's buffer
  (and, at the last edge block, the output block's) is left holding as the list of the stores the run meets.
-/
import proofs.«420560_j48172353192125_2_alg».proof.Proof.R1Run

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The kernel body at the first edge block of a node block (and not the last): the six accumulators, found at anything, are zeroed and
    then updated; the output block's buffer is handed back untouched.
    On whole memrefs, the five inputs' at their contents, the body runs to the continuation holding the inputs' as they
    were and each buffer it stored into with its stores written, listed last first. The lists are read off the run. -/
noncomputable def kernelRun1_A (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hc0 : cond1_0 i) (hc1 : ¬cond1_1 i)
    (x0 : Vec F S2048x64 .f32) (x1 : Vec F S3x64x64 .f32) (x2 : Vec F S2048x64 .f32) (x3 : Vec F S2048 .i32) (x4 : Vec F S2048 .i32) :
    Σ' (L5 : List (View.Piece (Elt F) S2048x64 .f32)) (LS0 : List (View.Piece (Elt F) S2048x64 .f32)) (LS1 : List (View.Piece (Elt F) S2048x64 .f32)) (LS2 : List (View.Piece (Elt F) S2048x64 .f32)) (LS3 : List (View.Piece (Elt F) S2048x1 .f32)) (LS4 : List (View.Piece (Elt F) S2048x1 .f32)), { LS5 : List (View.Piece (Elt F) S2048x1 .f32) //
      ∀ (xi5 : Vec F S2048x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)
              ∗ (∃ f, arg12.view.loc (c : Thread nD τ) ↦[arg12.view.set]{fullShare} arg12.view.writes (Elt F) f LS4)
              ∗ (∃ f, arg13.view.loc (c : Thread nD τ) ↦[arg13.view.set]{fullShare} arg13.view.writes (Elt F) f LS5)) -∗ K ⟨⟩))
          ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi5 E K => ?run⟩
  case run =>
    simp only [cc1__rgcn_kernel_eq_skeleton]; unfold cc1__rgcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.R1

end
-- ==== Proof.R1RunB.lean ====
/-
  The message-passing kernel's body run at an edge block neither first nor last: its triple, with what each accumulator's buffer
  (and, at the last edge block, the output block's) is left holding as the list of the stores the run meets.
-/
import proofs.«420560_j48172353192125_2_alg».proof.Proof.R1RunA

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The kernel body at an edge block that is neither the first nor the last of its node block: the six accumulators, found at what the
    point before left, are updated; the output block's buffer is handed back untouched.
    On whole memrefs, the five inputs' at their contents, the body runs to the continuation holding the inputs' as they
    were and each buffer it stored into with its stores written, listed last first. The lists are read off the run. -/
noncomputable def kernelRun1_B (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hc0 : ¬cond1_0 i) (hc1 : ¬cond1_1 i)
    (x0 : Vec F S2048x64 .f32) (x1 : Vec F S3x64x64 .f32) (x2 : Vec F S2048x64 .f32) (x3 : Vec F S2048 .i32) (x4 : Vec F S2048 .i32)
    (xs0 : Vec F S2048x64 .f32) (xs1 : Vec F S2048x64 .f32) (xs2 : Vec F S2048x64 .f32) (xs3 : Vec F S2048x1 .f32) (xs4 : Vec F S2048x1 .f32) (xs5 : Vec F S2048x1 .f32) :
    Σ' (L5 : List (View.Piece (Elt F) S2048x64 .f32)) (LS0 : List (View.Piece (Elt F) S2048x64 .f32)) (LS1 : List (View.Piece (Elt F) S2048x64 .f32)) (LS2 : List (View.Piece (Elt F) S2048x64 .f32)) (LS3 : List (View.Piece (Elt F) S2048x1 .f32)) (LS4 : List (View.Piece (Elt F) S2048x1 .f32)), { LS5 : List (View.Piece (Elt F) S2048x1 .f32) //
      ∀ (xi5 : Vec F S2048x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)
              ∗ (∃ f, arg12.view.loc (c : Thread nD τ) ↦[arg12.view.set]{fullShare} arg12.view.writes (Elt F) f LS4)
              ∗ (∃ f, arg13.view.loc (c : Thread nD τ) ↦[arg13.view.set]{fullShare} arg13.view.writes (Elt F) f LS5)) -∗ K ⟨⟩))
          ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi5 E K => ?run⟩
  case run =>
    simp only [cc1__rgcn_kernel_eq_skeleton]; unfold cc1__rgcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.R1

end
-- ==== Proof.R1RunC.lean ====
/-
  The message-passing kernel's body run at the last edge block of a node block: its triple, with what each accumulator's buffer
  (and, at the last edge block, the output block's) is left holding as the list of the stores the run meets.
-/
import proofs.«420560_j48172353192125_2_alg».proof.Proof.R1RunB

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The kernel body at the last edge block of a node block (and not the first): the six accumulators are updated and the output block's
    buffer, found at anything, is stored.
    On whole memrefs, the five inputs' at their contents, the body runs to the continuation holding the inputs' as they
    were and each buffer it stored into with its stores written, listed last first. The lists are read off the run. -/
noncomputable def kernelRun1_C (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (hc0 : ¬cond1_0 i) (hc1 : cond1_1 i)
    (x0 : Vec F S2048x64 .f32) (x1 : Vec F S3x64x64 .f32) (x2 : Vec F S2048x64 .f32) (x3 : Vec F S2048 .i32) (x4 : Vec F S2048 .i32)
    (xs0 : Vec F S2048x64 .f32) (xs1 : Vec F S2048x64 .f32) (xs2 : Vec F S2048x64 .f32) (xs3 : Vec F S2048x1 .f32) (xs4 : Vec F S2048x1 .f32) (xs5 : Vec F S2048x1 .f32) :
    Σ' (L5 : List (View.Piece (Elt F) S2048x64 .f32)) (LS0 : List (View.Piece (Elt F) S2048x64 .f32)) (LS1 : List (View.Piece (Elt F) S2048x64 .f32)) (LS2 : List (View.Piece (Elt F) S2048x64 .f32)) (LS3 : List (View.Piece (Elt F) S2048x1 .f32)) (LS4 : List (View.Piece (Elt F) S2048x1 .f32)), { LS5 : List (View.Piece (Elt F) S2048x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ owns (c : Thread nD τ) arg12 fullShare xs4
            ∗ owns (c : Thread nD τ) arg13 fullShare xs5
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)
              ∗ (∃ f, arg12.view.loc (c : Thread nD τ) ↦[arg12.view.set]{fullShare} arg12.view.writes (Elt F) f LS4)
              ∗ (∃ f, arg13.view.loc (c : Thread nD τ) ↦[arg13.view.set]{fullShare} arg13.view.writes (Elt F) f LS5)) -∗ K ⟨⟩))
          ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__rgcn_kernel_eq_skeleton]; unfold cc1__rgcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.R1

end
-- ==== Proof.R1Body.lean ====
/-
  The body obligation of the message-passing region: at every grid point the kernel body, handed the input blocks and
  the accumulators as the point before left them, leaves the accumulators one step further and, at a node block's last
  edge block, the output block at the closing formula.

  Per case of the two conditions on the coordinates the run's stores are read back as the step's values; the cases are
  then met by the point's position modulo 360.
-/
import proofs.«420560_j48172353192125_2_alg».proof.Proof.R1RunC
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Zero offsets -/

theorem hz1 : (![0] : Fin 1 → ℕ) = fun _ => 0 := funext fun a => by fin_cases a <;> rfl
theorem hz2 : (![0, 0] : Fin 2 → ℕ) = fun _ => 0 := funext fun a => by fin_cases a <;> rfl

/-! ## What each case's stores leave

Every buffer a case stores into is covered by its stores, and reads back as the step's value; with these the case's
run becomes a triple over the step. -/

/-! ### At the first edge block of a node block -/

section CaseA

variable (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole)
  (hc0 : cond1_0 i) (hc1 : ¬cond1_1 i)
  (x0 : Vec F S2048x64 .f32) (x1 : Vec F S3x64x64 .f32) (x2 : Vec F S2048x64 .f32) (x3 : Vec F S2048 .i32) (x4 : Vec F S2048 .i32)

/-- The stores into accumulator 0's buffer cover it, -/
theorem scovA_0 (y : S2048x64.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1 S2048x64.size (by sl_kernel_rfl) y

/-- and leave the step's value over zero: a store of zero, then a store of the update of what was read back. -/
theorem canonA_0 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1 = (step i acc0 x0 x1 x3 x4).s0 := by
  unfold kernelRun1_A; dsimp only; sl_unfold_words
  rw [View.canon_cons_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 1's buffer cover it, -/
theorem scovA_1 (y : S2048x64.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 S2048x64.size (by sl_kernel_rfl) y

/-- and leave the step's value over zero: a store of zero, then a store of the update of what was read back. -/
theorem canonA_1 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 = (step i acc0 x0 x1 x3 x4).s1 := by
  unfold kernelRun1_A; dsimp only; sl_unfold_words
  rw [View.canon_cons_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 2's buffer cover it, -/
theorem scovA_2 (y : S2048x64.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 S2048x64.size (by sl_kernel_rfl) y

/-- and leave the step's value over zero: a store of zero, then a store of the update of what was read back. -/
theorem canonA_2 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 = (step i acc0 x0 x1 x3 x4).s2 := by
  unfold kernelRun1_A; dsimp only; sl_unfold_words
  rw [View.canon_cons_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 3's buffer cover it, -/
theorem scovA_3 (y : S2048x1.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1 S2048x1.size (by sl_kernel_rfl) y

/-- and leave the step's value over zero: a store of zero, then a store of the update of what was read back. -/
theorem canonA_3 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1 = (step i acc0 x0 x1 x3 x4).c0 := by
  unfold kernelRun1_A; dsimp only; sl_unfold_words
  rw [View.canon_cons_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 4's buffer cover it, -/
theorem scovA_4 (y : S2048x1.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.1 S2048x1.size (by sl_kernel_rfl) y

/-- and leave the step's value over zero: a store of zero, then a store of the update of what was read back. -/
theorem canonA_4 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.1 = (step i acc0 x0 x1 x3 x4).c1 := by
  unfold kernelRun1_A; dsimp only; sl_unfold_words
  rw [View.canon_cons_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 5's buffer cover it, -/
theorem scovA_5 (y : S2048x1.Idx) : ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.1 S2048x1.size (by sl_kernel_rfl) y

/-- and leave the step's value over zero: a store of zero, then a store of the update of what was read back. -/
theorem canonA_5 : View.canon (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.1 = (step i acc0 x0 x1 x3 x4).c2 := by
  unfold kernelRun1_A; dsimp only; sl_unfold_words
  rw [View.canon_cons_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

include hc0 hc1 in
/-- The case's triple over the step: the accumulators' buffers end at the step's values over zero, the output block's buffer as found. -/
theorem sound_kernel1_A (xi5 : Vec F S2048x64 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare xi5
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare (step i acc0 x0 x1 x3 x4).s0
            ∗ owns (c : Thread nD τ) arg9 fullShare (step i acc0 x0 x1 x3 x4).s1
            ∗ owns (c : Thread nD τ) arg10 fullShare (step i acc0 x0 x1 x3 x4).s2
            ∗ owns (c : Thread nD τ) arg11 fullShare (step i acc0 x0 x1 x3 x4).c0
            ∗ owns (c : Thread nD τ) arg12 fullShare (step i acc0 x0 x1 x3 x4).c1
            ∗ owns (c : Thread nD τ) arg13 fullShare (step i acc0 x0 x1 x3 x4).c2) -∗ K ⟨⟩))
      ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K := by
  iintro ⟨H0, H1, H2, H3, H4, H5, HS0, HS1, HS2, HS3, HS4, HS5, Hk⟩
  iapply ((kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.2.2.2 xi5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr
    swap; · iexact HS0
    ipureintro; exact (View.read_writes_eq_canon _ _ _ (scovA_0 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_0 c i arg2 harg2 arg3 harg3 arg4 harg4 arg5 harg5 arg6 harg6 arg7 harg7 arg8 harg8 arg9 harg9 arg10 harg10 arg11 harg11 arg12 harg12 arg13 harg13 hc0 hc1 x0 x1 x2 x3 x4)
  isplitl [HS1]
  · unfold owns; iexists _; isplitr
    swap; · iexact HS1
    ipureintro; exact (View.read_writes_eq_canon _ _ _ (scovA_1 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_1 c i arg2 harg2 arg3 harg3 arg4 harg4 arg5 harg5 arg6 harg6 arg7 harg7 arg8 harg8 arg9 harg9 arg10 harg10 arg11 harg11 arg12 harg12 arg13 harg13 hc0 hc1 x0 x1 x2 x3 x4)
  isplitl [HS2]
  · unfold owns; iexists _; isplitr
    swap; · iexact HS2
    ipureintro; exact (View.read_writes_eq_canon _ _ _ (scovA_2 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_2 c i arg2 harg2 arg3 harg3 arg4 harg4 arg5 harg5 arg6 harg6 arg7 harg7 arg8 harg8 arg9 harg9 arg10 harg10 arg11 harg11 arg12 harg12 arg13 harg13 hc0 hc1 x0 x1 x2 x3 x4)
  isplitl [HS3]
  · unfold owns; iexists _; isplitr
    swap; · iexact HS3
    ipureintro; exact (View.read_writes_eq_canon _ _ _ (scovA_3 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_3 c i arg2 harg2 arg3 harg3 arg4 harg4 arg5 harg5 arg6 harg6 arg7 harg7 arg8 harg8 arg9 harg9 arg10 harg10 arg11 harg11 arg12 harg12 arg13 harg13 hc0 hc1 x0 x1 x2 x3 x4)
  isplitl [HS4]
  · unfold owns; iexists _; isplitr
    swap; · iexact HS4
    ipureintro; exact (View.read_writes_eq_canon _ _ _ (scovA_4 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_4 c i arg2 harg2 arg3 harg3 arg4 harg4 arg5 harg5 arg6 harg6 arg7 harg7 arg8 harg8 arg9 harg9 arg10 harg10 arg11 harg11 arg12 harg12 arg13 harg13 hc0 hc1 x0 x1 x2 x3 x4)
  unfold owns; iexists _; isplitr
  swap; · iexact HS5
  ipureintro; exact (View.read_writes_eq_canon _ _ _ (scovA_5 c i arg2 harg2 arg3 harg3 arg4 harg4 arg5 harg5 arg6 harg6 arg7 harg7 arg8 harg8 arg9 harg9 arg10 harg10 arg11 harg11 arg12 harg12 arg13 harg13 hc0 hc1 x0 x1 x2 x3 x4)).trans (canonA_5 c i arg2 harg2 arg3 harg3 arg4 harg4 arg5 harg5 arg6 harg6 arg7 harg7 arg8 harg8 arg9 harg9 arg10 harg10 arg11 harg11 arg12 harg12 arg13 harg13 hc0 hc1 x0 x1 x2 x3 x4)

end CaseA

/-! ### At an edge block neither first nor last -/

section CaseB

variable (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole)
  (hc0 : ¬cond1_0 i) (hc1 : ¬cond1_1 i)
  (x0 : Vec F S2048x64 .f32) (x1 : Vec F S3x64x64 .f32) (x2 : Vec F S2048x64 .f32) (x3 : Vec F S2048 .i32) (x4 : Vec F S2048 .i32)
  (xs0 : Vec F S2048x64 .f32) (xs1 : Vec F S2048x64 .f32) (xs2 : Vec F S2048x64 .f32) (xs3 : Vec F S2048x1 .f32) (xs4 : Vec F S2048x1 .f32) (xs5 : Vec F S2048x1 .f32)

/-- The stores into accumulator 0's buffer cover it, -/
theorem scovB_0 (y : S2048x64.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1 S2048x64.size (by sl_kernel_rfl) y

/-- and leave the step's value: one store, of the update of what was read. -/
theorem canonB_0 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1 = (step i ⟨xs0, xs1, xs2, xs3, xs4, xs5⟩ x0 x1 x3 x4).s0 := by
  unfold kernelRun1_B; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 1's buffer cover it, -/
theorem scovB_1 (y : S2048x64.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1 S2048x64.size (by sl_kernel_rfl) y

/-- and leave the step's value: one store, of the update of what was read. -/
theorem canonB_1 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1 = (step i ⟨xs0, xs1, xs2, xs3, xs4, xs5⟩ x0 x1 x3 x4).s1 := by
  unfold kernelRun1_B; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 2's buffer cover it, -/
theorem scovB_2 (y : S2048x64.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1 S2048x64.size (by sl_kernel_rfl) y

/-- and leave the step's value: one store, of the update of what was read. -/
theorem canonB_2 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1 = (step i ⟨xs0, xs1, xs2, xs3, xs4, xs5⟩ x0 x1 x3 x4).s2 := by
  unfold kernelRun1_B; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 3's buffer cover it, -/
theorem scovB_3 (y : S2048x1.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1 S2048x1.size (by sl_kernel_rfl) y

/-- and leave the step's value: one store, of the update of what was read. -/
theorem canonB_3 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1 = (step i ⟨xs0, xs1, xs2, xs3, xs4, xs5⟩ x0 x1 x3 x4).c0 := by
  unfold kernelRun1_B; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 4's buffer cover it, -/
theorem scovB_4 (y : S2048x1.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1 S2048x1.size (by sl_kernel_rfl) y

/-- and leave the step's value: one store, of the update of what was read. -/
theorem canonB_4 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1 = (step i ⟨xs0, xs1, xs2, xs3, xs4, xs5⟩ x0 x1 x3 x4).c1 := by
  unfold kernelRun1_B; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 5's buffer cover it, -/
theorem scovB_5 (y : S2048x1.Idx) : ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1 S2048x1.size (by sl_kernel_rfl) y

/-- and leave the step's value: one store, of the update of what was read. -/
theorem canonB_5 : View.canon (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1 = (step i ⟨xs0, xs1, xs2, xs3, xs4, xs5⟩ x0 x1 x3 x4).c2 := by
  unfold kernelRun1_B; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

include hc0 hc1 in
/-- The case's triple over the step: the accumulators' buffers end at the step's values, the output block's buffer as found. -/
theorem sound_kernel1_B (xi5 : Vec F S2048x64 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare xi5
        ∗ owns (c : Thread nD τ) arg8 fullShare xs0
        ∗ owns (c : Thread nD τ) arg9 fullShare xs1
        ∗ owns (c : Thread nD τ) arg10 fullShare xs2
        ∗ owns (c : Thread nD τ) arg11 fullShare xs3
        ∗ owns (c : Thread nD τ) arg12 fullShare xs4
        ∗ owns (c : Thread nD τ) arg13 fullShare xs5
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare (step i ⟨xs0, xs1, xs2, xs3, xs4, xs5⟩ x0 x1 x3 x4).s0
            ∗ owns (c : Thread nD τ) arg9 fullShare (step i ⟨xs0, xs1, xs2, xs3, xs4, xs5⟩ x0 x1 x3 x4).s1
            ∗ owns (c : Thread nD τ) arg10 fullShare (step i ⟨xs0, xs1, xs2, xs3, xs4, xs5⟩ x0 x1 x3 x4).s2
            ∗ owns (c : Thread nD τ) arg11 fullShare (step i ⟨xs0, xs1, xs2, xs3, xs4, xs5⟩ x0 x1 x3 x4).c0
            ∗ owns (c : Thread nD τ) arg12 fullShare (step i ⟨xs0, xs1, xs2, xs3, xs4, xs5⟩ x0 x1 x3 x4).c1
            ∗ owns (c : Thread nD τ) arg13 fullShare (step i ⟨xs0, xs1, xs2, xs3, xs4, xs5⟩ x0 x1 x3 x4).c2) -∗ K ⟨⟩))
      ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K := by
  iintro ⟨H0, H1, H2, H3, H4, H5, HS0, HS1, HS2, HS3, HS4, HS5, Hk⟩
  iapply ((kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.2 xi5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%es0, HS0⟩, ⟨%es1, HS1⟩, ⟨%es2, HS2⟩, ⟨%es3, HS3⟩, ⟨%es4, HS4⟩, ⟨%es5, HS5⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr
    swap; · iexact HS0
    ipureintro; exact (View.read_writes_eq_canon _ _ _ (scovB_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS1]
  · unfold owns; iexists _; isplitr
    swap; · iexact HS1
    ipureintro; exact (View.read_writes_eq_canon _ _ _ (scovB_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS2]
  · unfold owns; iexists _; isplitr
    swap; · iexact HS2
    ipureintro; exact (View.read_writes_eq_canon _ _ _ (scovB_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS3]
  · unfold owns; iexists _; isplitr
    swap; · iexact HS3
    ipureintro; exact (View.read_writes_eq_canon _ _ _ (scovB_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS4]
  · unfold owns; iexists _; isplitr
    swap; · iexact HS4
    ipureintro; exact (View.read_writes_eq_canon _ _ _ (scovB_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  unfold owns; iexists _; isplitr
  swap; · iexact HS5
  ipureintro; exact (View.read_writes_eq_canon _ _ _ (scovB_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonB_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)

end CaseB

/-! ### At the last edge block of a node block -/

section CaseC

variable (c : Dev nD) (i : grid1.Coords) (arg2 : Memref sig .tc .vmem S2048x64 .f32) (harg2 : arg2.IsWhole) (arg3 : Memref sig .tc .vmem S3x64x64 .f32) (harg3 : arg3.IsWhole) (arg4 : Memref sig .tc .vmem S2048x64 .f32) (harg4 : arg4.IsWhole) (arg5 : Memref sig .tc .vmem S2048 .i32) (harg5 : arg5.IsWhole) (arg6 : Memref sig .tc .vmem S2048 .i32) (harg6 : arg6.IsWhole) (arg7 : Memref sig .tc .vmem S2048x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S2048x64 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole)
  (hc0 : ¬cond1_0 i) (hc1 : cond1_1 i)
  (x0 : Vec F S2048x64 .f32) (x1 : Vec F S3x64x64 .f32) (x2 : Vec F S2048x64 .f32) (x3 : Vec F S2048 .i32) (x4 : Vec F S2048 .i32)
  (xs0 : Vec F S2048x64 .f32) (xs1 : Vec F S2048x64 .f32) (xs2 : Vec F S2048x64 .f32) (xs3 : Vec F S2048x1 .f32) (xs4 : Vec F S2048x1 .f32) (xs5 : Vec F S2048x1 .f32)

/-- The stores into accumulator 0's buffer cover it, -/
theorem scovC_0 (y : S2048x64.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1 S2048x64.size (by sl_kernel_rfl) y

/-- and leave the step's value: one store, of the update of what was read. -/
theorem canonC_0 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.1 = (step i ⟨xs0, xs1, xs2, xs3, xs4, xs5⟩ x0 x1 x3 x4).s0 := by
  unfold kernelRun1_C; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 1's buffer cover it, -/
theorem scovC_1 (y : S2048x64.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1 S2048x64.size (by sl_kernel_rfl) y

/-- and leave the step's value: one store, of the update of what was read. -/
theorem canonC_1 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.1 = (step i ⟨xs0, xs1, xs2, xs3, xs4, xs5⟩ x0 x1 x3 x4).s1 := by
  unfold kernelRun1_C; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 2's buffer cover it, -/
theorem scovC_2 (y : S2048x64.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1 S2048x64.size (by sl_kernel_rfl) y

/-- and leave the step's value: one store, of the update of what was read. -/
theorem canonC_2 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.1 = (step i ⟨xs0, xs1, xs2, xs3, xs4, xs5⟩ x0 x1 x3 x4).s2 := by
  unfold kernelRun1_C; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 3's buffer cover it, -/
theorem scovC_3 (y : S2048x1.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1 S2048x1.size (by sl_kernel_rfl) y

/-- and leave the step's value: one store, of the update of what was read. -/
theorem canonC_3 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.1 = (step i ⟨xs0, xs1, xs2, xs3, xs4, xs5⟩ x0 x1 x3 x4).c0 := by
  unfold kernelRun1_C; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 4's buffer cover it, -/
theorem scovC_4 (y : S2048x1.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1 S2048x1.size (by sl_kernel_rfl) y

/-- and leave the step's value: one store, of the update of what was read. -/
theorem canonC_4 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.1 = (step i ⟨xs0, xs1, xs2, xs3, xs4, xs5⟩ x0 x1 x3 x4).c1 := by
  unfold kernelRun1_C; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The stores into accumulator 5's buffer cover it, -/
theorem scovC_5 (y : S2048x1.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1 S2048x1.size (by sl_kernel_rfl) y

/-- and leave the step's value: one store, of the update of what was read. -/
theorem canonC_5 : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.1 = (step i ⟨xs0, xs1, xs2, xs3, xs4, xs5⟩ x0 x1 x3 x4).c2 := by
  unfold kernelRun1_C; dsimp only; sl_unfold_words
  rw [View.canon_unit_zero (S := S2048x1) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

/-- The store into the output block's buffer covers it, -/
theorem covC_out (y : S2048x64.Idx) : ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).1 S2048x64.size (by sl_kernel_rfl) y

/-- and leaves the closing formula of the root block and the accumulators just stored, each read back. -/
theorem canonC_out : View.canon (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).1 = fin x2 (step i ⟨xs0, xs1, xs2, xs3, xs4, xs5⟩ x0 x1 x3 x4) := by
  unfold kernelRun1_C; dsimp only; sl_unfold_words
  rw [View.canon_unit_zero (S := S2048x64) hz2]
  simp only [View.readAt_eq_ld, harg2.read_unread, harg3.read_unread, harg4.read_unread, harg5.read_unread, harg6.read_unread,
    harg8.read_unread, harg9.read_unread, harg10.read_unread, harg11.read_unread, harg12.read_unread, harg13.read_unread,
    View.ld_unit_zero (S := S2048x64) hz2, View.ld_unit_zero (S := S2048x1) hz2, View.ld_unit_zero (S := S2048) hz1,
    View.readCov_unit_zero (S := S2048x64) _ hz2, View.readCov_unit_zero (S := S2048x1) _ hz2]
  rfl

include hc0 hc1 in
/-- The case's triple over the step: the accumulators' buffers end at the step's values, the output block's at the closing formula. -/
theorem sound_kernel1_C (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg7 fullShare d)
        ∗ owns (c : Thread nD τ) arg8 fullShare xs0
        ∗ owns (c : Thread nD τ) arg9 fullShare xs1
        ∗ owns (c : Thread nD τ) arg10 fullShare xs2
        ∗ owns (c : Thread nD τ) arg11 fullShare xs3
        ∗ owns (c : Thread nD τ) arg12 fullShare xs4
        ∗ owns (c : Thread nD τ) arg13 fullShare xs5
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare (fin x2 (step i ⟨xs0, xs1, xs2, xs3, xs4, xs5⟩ x0 x1 x3 x4))
            ∗ owns (c : Thread nD τ) arg8 fullShare (step i ⟨xs0, xs1, xs2, xs3, xs4, xs5⟩ x0 x1 x3 x4).s0
            ∗ owns (c : Thread nD τ) arg9 fullShare (step i ⟨xs0, xs1, xs2, xs3, xs4, xs5⟩ x0 x1 x3 x4).s1
            ∗ owns (c : Thread nD τ) arg10 fullShare (step i ⟨xs0, xs1, xs2, xs3, xs4, xs5⟩ x0 x1 x3 x4).s2
            ∗ owns (c : Thread nD τ) arg11 fullShare (step i ⟨xs0, xs1, xs2, xs3, xs4, xs5⟩ x0 x1 x3 x4).c0
            ∗ owns (c : Thread nD τ) arg12 fullShare (step i ⟨xs0, xs1, xs2, xs3, xs4, xs5⟩ x0 x1 x3 x4).c1
            ∗ owns (c : Thread nD τ) arg13 fullShare (step i ⟨xs0, xs1, xs2, xs3, xs4, xs5⟩ x0 x1 x3 x4).c2) -∗ K ⟨⟩))
      ⊢ wp frame (wpE (defs₀ (F := F)) Variants.none c none) E (cc1__rgcn_kernel i arg2 harg2 arg3 harg3 arg4 harg4 arg5 harg5 arg6 harg6 arg7 harg7 arg8 harg8 arg9 harg9 arg10 harg10 arg11 harg11 arg12 harg12 arg13 harg13) K := by
  iintro ⟨H0, H1, H2, H3, H4, H5, HS0, HS1, HS2, HS3, HS4, HS5, Hk⟩
  iapply ((kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%es0, HS0⟩, ⟨%es1, HS1⟩, ⟨%es2, HS2⟩, ⟨%es3, HS3⟩, ⟨%es4, HS4⟩, ⟨%es5, HS5⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (View.read_writes_eq_canon _ _ _ (covC_out c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_out c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS0]
  · unfold owns; iexists _; isplitr
    swap; · iexact HS0
    ipureintro; exact (View.read_writes_eq_canon _ _ _ (scovC_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS1]
  · unfold owns; iexists _; isplitr
    swap; · iexact HS1
    ipureintro; exact (View.read_writes_eq_canon _ _ _ (scovC_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS2]
  · unfold owns; iexists _; isplitr
    swap; · iexact HS2
    ipureintro; exact (View.read_writes_eq_canon _ _ _ (scovC_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS3]
  · unfold owns; iexists _; isplitr
    swap; · iexact HS3
    ipureintro; exact (View.read_writes_eq_canon _ _ _ (scovC_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_3 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  isplitl [HS4]
  · unfold owns; iexists _; isplitr
    swap; · iexact HS4
    ipureintro; exact (View.read_writes_eq_canon _ _ _ (scovC_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_4 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)
  unfold owns; iexists _; isplitr
  swap; · iexact HS5
  ipureintro; exact (View.read_writes_eq_canon _ _ _ (scovC_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)).trans (canonC_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 xs3 xs4 xs5)

end CaseC

-- the TensorCore's buffer contents when the region is entered
variable (V : (c : Dev nD) → (b : Ref sig .tc) → Buf (Elt F) ((c : Thread nD τ).loc b))

/-! ## The accumulators after a point, case by case -/

/-- At a point that opens a node block the accumulators are one step over zero. -/
theorem accAt_first (c : Dev nD) (t : Fin cfg1.N) (h0 : t.val % 360 = 0) :
    accAt V c t.val t.isLt = step (grid1.coords t) acc0 (xsB V c t) (wB V c t) (dstB V c t) (etyB V c t) := by
  obtain ⟨n, hn⟩ := t
  cases n with
  | zero => rfl
  | succ n => exact congrArg (fun a => step _ a _ _ _ _) (if_pos h0)

/-- At any other point they are one step over what the point before left. -/
theorem accAt_next (c : Dev nD) (t : Fin cfg1.N) (h0 : ¬t.val % 360 = 0) :
    accAt V c t.val t.isLt = step (grid1.coords t) (accAt V c (t.val - 1) (Nat.lt_of_le_of_lt (Nat.sub_le _ _) t.isLt)) (xsB V c t) (wB V c t) (dstB V c t) (etyB V c t) := by
  obtain ⟨n, hn⟩ := t
  cases n with
  | zero => exact absurd (Nat.zero_mod _) h0
  | succ n => exact congrArg (fun a => step _ a _ _ _ _) (if_neg h0)

/-! ## The invariant before a position -/

theorem PhiS1_zero (c : Dev nD) (n : ℕ) (h : n ≤ cfg1.N) (hz : n = 0) : PhiS1 V c n h = Pipeline.ΦA spec1 c := by
  subst hz; rfl

/-- After point n: the accumulators at that point's values. -/
theorem PhiS1_succ (c : Dev nD) (n : ℕ) (hn : n < cfg1.N) :
    PhiS1 V c (n + 1) hn = iprop(stgRest (F := F) c
      ∗ owns (c : Thread nD τ) scM0 fullShare (accAt V c n hn).s0
      ∗ owns (c : Thread nD τ) scM1 fullShare (accAt V c n hn).s1
      ∗ owns (c : Thread nD τ) scM2 fullShare (accAt V c n hn).s2
      ∗ owns (c : Thread nD τ) scM3 fullShare (accAt V c n hn).c0
      ∗ owns (c : Thread nD τ) scM4 fullShare (accAt V c n hn).c1
      ∗ owns (c : Thread nD τ) scM5 fullShare (accAt V c n hn).c2
      ∗ (∃ r, prngReg c r)) := rfl

/-- Before a point that is not the first: the accumulators at what the point before left. -/
theorem PhiS1_pos (c : Dev nD) (n : ℕ) (h : n ≤ cfg1.N) (hz : n ≠ 0) :
    PhiS1 V c n h = iprop(stgRest (F := F) c
      ∗ owns (c : Thread nD τ) scM0 fullShare (accAt V c (n - 1) (by omega)).s0
      ∗ owns (c : Thread nD τ) scM1 fullShare (accAt V c (n - 1) (by omega)).s1
      ∗ owns (c : Thread nD τ) scM2 fullShare (accAt V c (n - 1) (by omega)).s2
      ∗ owns (c : Thread nD τ) scM3 fullShare (accAt V c (n - 1) (by omega)).c0
      ∗ owns (c : Thread nD τ) scM4 fullShare (accAt V c (n - 1) (by omega)).c1
      ∗ owns (c : Thread nD τ) scM5 fullShare (accAt V c (n - 1) (by omega)).c2
      ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The input windows' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's position modulo 360 says which case it is in;
    the invariant hands the body the accumulators at what the point before left (at anything before the first point) and
    takes them back one step further; away from the last edge block the output window's buffer goes back as found, at
    the last edge block it holds the closing formula; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 2880 := lt_of_lt_of_eq t.isLt (show cfg1.N = 2880 from N_1)
  by_cases h0 : t.val % 360 = 0
  · have h1 : ¬t.val % 360 = 359 := by omega
    rw [Dat.leavesExact_idle (dat1 V c) 5 t (idleAt1_5 t (fun h => h1 ((hcond1_1 t).mp h))) (noFlush1_5 t (fun h => h1 ((hcond1_1 t).mp h)))]
    rw [accAt_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave ⟨Hstg, HS0, HS1, HS2, HS3, HS4, HS5, Hg⟩ := (PhiA1_split (F := F) c) $$ HΦ
      iapply (sound_kernel1_A c (grid1.coords t) (ms1_0 t) (hs1_0 t) (ms1_1 t) (hs1_1 t) (ms1_2 t) (hs1_2 t) (ms1_3 t) (hs1_3 t) (ms1_4 t) (hs1_4 t) (ms1_5 t) (hs1_5 t) scM0 (Memref.isWhole_whole _) scM1 (Memref.isWhole_whole _) scM2 (Memref.isWhole_whole _) scM3 (Memref.isWhole_whole _) scM4 (Memref.isWhole_whole _) scM5 (Memref.isWhole_whole _) ((hcond1_0 t).mpr h0) (fun h => h1 ((hcond1_1 t).mp h)) (xsB V c t) (wB V c t) (hB V c t) (dstB V c t) (etyB V c t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, HS0, HS1, HS2, HS3, HS4, HS5⟩
      isplitl [Hstg HS0 HS1 HS2 HS3 HS4 HS5 Hg]
      · isplitl [Hstg]; · iexact Hstg
        isplitl [HS0]; · iexact HS0
        isplitl [HS1]; · iexact HS1
        isplitl [HS2]; · iexact HS2
        isplitl [HS3]; · iexact HS3
        isplitl [HS4]; · iexact HS4
        isplitl [HS5]; · iexact HS5
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨Hstg, HS0, HS1, HS2, HS3, HS4, HS5, Hg⟩, Ho, ⟨%d0, H0⟩, ⟨%d1, H1⟩, ⟨%d2, H2⟩, ⟨%d3, H3⟩, ⟨%d4, H4⟩, ⟨%d5, H5⟩⟩
      iapply (sound_kernel1_A c (grid1.coords t) (ms1_0 t) (hs1_0 t) (ms1_1 t) (hs1_1 t) (ms1_2 t) (hs1_2 t) (ms1_3 t) (hs1_3 t) (ms1_4 t) (hs1_4 t) (ms1_5 t) (hs1_5 t) scM0 (Memref.isWhole_whole _) scM1 (Memref.isWhole_whole _) scM2 (Memref.isWhole_whole _) scM3 (Memref.isWhole_whole _) scM4 (Memref.isWhole_whole _) scM5 (Memref.isWhole_whole _) ((hcond1_0 t).mpr h0) (fun h => h1 ((hcond1_1 t).mp h)) (xsB V c t) (wB V c t) (hB V c t) (dstB V c t) (etyB V c t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, H4, H5, HS0, HS1, HS2, HS3, HS4, HS5⟩
      isplitl [Hstg HS0 HS1 HS2 HS3 HS4 HS5 Hg]
      · isplitl [Hstg]; · iexact Hstg
        isplitl [HS0]; · iexact HS0
        isplitl [HS1]; · iexact HS1
        isplitl [HS2]; · iexact HS2
        isplitl [HS3]; · iexact HS3
        isplitl [HS4]; · iexact HS4
        isplitl [HS5]; · iexact HS5
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [accAt_next V c t h0]
    rw [PhiS1_castSucc V c t, PhiS1_pos V c _ _ hz]
    by_cases h1 : t.val % 360 = 359
    · rw [show (dat1 V c).leavesExact 5 t = owns (c : Thread nD τ) (ms1_5 t) fullShare ((dat1 V c).after 5 t) from by
        unfold Dat.leavesExact; rw [liveAt1_5 t ((hcond1_1 t).mpr h1)], after1_5]
      rw [accAt_next V c t h0]
      iintro ⟨⟨Hstg, HS0, HS1, HS2, HS3, HS4, HS5, Hg⟩, Ho, ⟨%d0, H0⟩, ⟨%d1, H1⟩, ⟨%d2, H2⟩, ⟨%d3, H3⟩, ⟨%d4, H4⟩, ⟨%d5, H5⟩⟩
      iapply (sound_kernel1_C c (grid1.coords t) (ms1_0 t) (hs1_0 t) (ms1_1 t) (hs1_1 t) (ms1_2 t) (hs1_2 t) (ms1_3 t) (hs1_3 t) (ms1_4 t) (hs1_4 t) (ms1_5 t) (hs1_5 t) scM0 (Memref.isWhole_whole _) scM1 (Memref.isWhole_whole _) scM2 (Memref.isWhole_whole _) scM3 (Memref.isWhole_whole _) scM4 (Memref.isWhole_whole _) scM5 (Memref.isWhole_whole _) (fun h => h0 ((hcond1_0 t).mp h)) ((hcond1_1 t).mpr h1) (xsB V c t) (wB V c t) (hB V c t) (dstB V c t) (etyB V c t) (accAt V c (t.val - 1) (Nat.lt_of_le_of_lt (Nat.sub_le _ _) t.isLt)).s0 (accAt V c (t.val - 1) (Nat.lt_of_le_of_lt (Nat.sub_le _ _) t.isLt)).s1 (accAt V c (t.val - 1) (Nat.lt_of_le_of_lt (Nat.sub_le _ _) t.isLt)).s2 (accAt V c (t.val - 1) (Nat.lt_of_le_of_lt (Nat.sub_le _ _) t.isLt)).c0 (accAt V c (t.val - 1) (Nat.lt_of_le_of_lt (Nat.sub_le _ _) t.isLt)).c1 (accAt V c (t.val - 1) (Nat.lt_of_le_of_lt (Nat.sub_le _ _) t.isLt)).c2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, HS0, HS1, HS2, HS3, HS4, HS5⟩
      isplitl [Hstg HS0 HS1 HS2 HS3 HS4 HS5 Hg]
      · isplitl [Hstg]; · iexact Hstg
        isplitl [HS0]; · iexact HS0
        isplitl [HS1]; · iexact HS1
        isplitl [HS2]; · iexact HS2
        isplitl [HS3]; · iexact HS3
        isplitl [HS4]; · iexact HS4
        isplitl [HS5]; · iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      iintro ⟨⟨Hstg, HS0, HS1, HS2, HS3, HS4, HS5, Hg⟩, Ho, ⟨%d0, H0⟩, ⟨%d1, H1⟩, ⟨%d2, H2⟩, ⟨%d3, H3⟩, ⟨%d4, H4⟩, ⟨%d5, H5⟩⟩
      iapply (sound_kernel1_B c (grid1.coords t) (ms1_0 t) (hs1_0 t) (ms1_1 t) (hs1_1 t) (ms1_2 t) (hs1_2 t) (ms1_3 t) (hs1_3 t) (ms1_4 t) (hs1_4 t) (ms1_5 t) (hs1_5 t) scM0 (Memref.isWhole_whole _) scM1 (Memref.isWhole_whole _) scM2 (Memref.isWhole_whole _) scM3 (Memref.isWhole_whole _) scM4 (Memref.isWhole_whole _) scM5 (Memref.isWhole_whole _) (fun h => h0 ((hcond1_0 t).mp h)) (fun h => h1 ((hcond1_1 t).mp h)) (xsB V c t) (wB V c t) (hB V c t) (dstB V c t) (etyB V c t) (accAt V c (t.val - 1) (Nat.lt_of_le_of_lt (Nat.sub_le _ _) t.isLt)).s0 (accAt V c (t.val - 1) (Nat.lt_of_le_of_lt (Nat.sub_le _ _) t.isLt)).s1 (accAt V c (t.val - 1) (Nat.lt_of_le_of_lt (Nat.sub_le _ _) t.isLt)).s2 (accAt V c (t.val - 1) (Nat.lt_of_le_of_lt (Nat.sub_le _ _) t.isLt)).c0 (accAt V c (t.val - 1) (Nat.lt_of_le_of_lt (Nat.sub_le _ _) t.isLt)).c1 (accAt V c (t.val - 1) (Nat.lt_of_le_of_lt (Nat.sub_le _ _) t.isLt)).c2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, HS0, HS1, HS2, HS3, HS4, HS5⟩
      isplitl [Hstg HS0 HS1 HS2 HS3 HS4 HS5 Hg]
      · isplitl [Hstg]; · iexact Hstg
        isplitl [HS0]; · iexact HS0
        isplitl [HS1]; · iexact HS1
        isplitl [HS2]; · iexact HS2
        isplitl [HS3]; · iexact HS3
        isplitl [HS4]; · iexact HS4
        isplitl [HS5]; · iexact HS5
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the launch's back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 2880 := N_1; omega)]
  iintro ⟨Hstg, HS0, HS1, HS2, HS3, HS4, HS5, Hg⟩
  iapply (PhiA1_join (F := F) c)
  isplitl [Hstg]; · iexact Hstg
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iexact Hg

end Cert.KernelIdeal.R1

end
-- ==== Proof.KRun.lean ====
/-
  The run of @main, from the launch to the return: a host stretch, the projection region, a host stretch, the
  message-passing region. The buffer contents at each of the four boundaries are a fold from the launch memory: a host
  stretch leaves what its operations compute; a region leaves its arrays at what its write-backs fold to and every
  other buffer as entered. Every weakly fair execution terminates without fault, and every final memory holds, at each
  unscoped buffer, the last boundary's contents. Each argument array is read back through the fold to its launch
  contents: no host operation writes one, and a region either stages it as an input window (which hands the array
  back as entered) or does not touch it. Stated at any float interpretation F.
-/
import proofs.«420560_j48172353192125_2_alg».proof.Proof.Gen.KernelIdeal.Launch
import proofs.«420560_j48172353192125_2_alg».proof.Proof.Gen.KernelIdeal.Skeleton
import proofs.«420560_j48172353192125_2_alg».proof.Proof.Gen.KernelIdeal.Points
import proofs.«420560_j48172353192125_2_alg».proof.Proof.Gen.KernelIdeal.Regions
import proofs.«420560_j48172353192125_2_alg».proof.Proof.R0Body
import proofs.«420560_j48172353192125_2_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
/-- The same read at the TensorCore's references (what the projection region's proof data take). -/
abbrev V1 : (c : Dev nD) → (b : Ref sig .tc) → Buf (Elt F) ((c : Thread nD τ).loc b) := fun c b => W1 m c b
/-- At the projection region's exit: its arrays at what the pipeline leaves (the inputs as entered, each output's
    write-backs folded), every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the projection region's exit contents). -/
abbrev V2 : (c : Dev nD) → (b : Ref sig .tc) → Buf (Elt F) ((c : Thread nD τ).loc b) := fun c b => W2 m c b
/-- At the projection region's exit each of its arrays holds what the pipeline leaves, and every other buffer what it
    held at entry. -/
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the message-passing region's entry). -/
abbrev W3 : Dev nD → Valuation τ sig (Elt F) := fun c => StableHlo.after hostOps1 (W2 m c)
/-- The same read at the TensorCore's references (what the message-passing region's proof data take). -/
abbrev V3 : (c : Dev nD) → (b : Ref sig .tc) → Buf (Elt F) ((c : Thread nD τ).loc b) := fun c b => W3 m c b
/-- At the message-passing region's exit: its arrays at what the pipeline leaves, every other buffer as entered. -/
def W4 (c : Dev nD) : Valuation τ sig (Elt F) :=
  Pipeline.withArrays spec1 c (W3 m c) fun w => (R1.dat1 (V3 m) c).arrAt w cfg1.N
theorem W4_arr (c : Dev nD) (w : Fin cfg1.W) :
    W4 m c (Proc.devRef .tc (Pipeline.arrRef spec1 w)) = (R1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (the message-passing region's exit contents). -/
abbrev V4 : (c : Dev nD) → (b : Ref sig .tc) → Buf (Elt F) ((c : Thread nD τ).loc b) := fun c b => W4 m c b
theorem hF1 (c : Dev nD) (w : Fin cfg1.W) : (R1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A reference the first host stretch does not write keeps its launch contents across it. -/
theorem W1_of (c : Dev nD) (r : Ref sig .tc) (h : r ∉ hostOps0_W) :
    W1 m c (Proc.devRef .tc r) = W0 m c (Proc.devRef .tc r) :=
  StableHlo.after_of_writes_sub hostOps0 _ hostOps0_writes h
/-- A reference the second host stretch does not write keeps its contents across it. -/
theorem W3_of (c : Dev nD) (r : Ref sig .tc) (h : r ∉ hostOps1_W) :
    W3 m c (Proc.devRef .tc r) = W2 m c (Proc.devRef .tc r) :=
  StableHlo.after_of_writes_sub hostOps1 _ hostOps1_writes h

/-! ### The arguments end as launched: no host operation and no region writes one (a region reads it through an
    input window or bypasses it), so the fold at an argument's buffer walks back to the launch memory -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := (W2_arr m c 1).trans (((R0.dat0 (V1 m) c).arrAt_in 1 rfl _).trans (R0.A_eq0 (V1 m) c 1))
    _ = W0 m c (Proc.devRef .tc main_arg3) := W1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := (W2_arr m c 2).trans (((R0.dat0 (V1 m) c).arrAt_in 2 rfl _).trans (R0.A_eq0 (V1 m) c 2))
    _ = W0 m c (Proc.devRef .tc main_arg4) := W1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of m c main_arg5 (by decide)
    _ = W1 m c (Proc.devRef .tc main_arg5) := (W2_arr m c 3).trans (((R0.dat0 (V1 m) c).arrAt_in 3 rfl _).trans (R0.A_eq0 (V1 m) c 3))
    _ = W0 m c (Proc.devRef .tc main_arg5) := W1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := (W4_arr m c 1).trans (((R1.dat1 (V3 m) c).arrAt_in 1 rfl _).trans (R1.A_eq1 (V3 m) c 1))
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := W3_of m c main_arg7 (by decide)
    _ = W1 m c (Proc.devRef .tc main_arg7) := (W2_arr m c 4).trans (((R0.dat0 (V1 m) c).arrAt_in 4 rfl _).trans (R0.A_eq0 (V1 m) c 4))
    _ = W0 m c (Proc.devRef .tc main_arg7) := W1_of m c main_arg7 (by decide)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := (W4_arr m c 3).trans (((R1.dat1 (V3 m) c).arrAt_in 3 rfl _).trans (R1.A_eq1 (V3 m) c 3))
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl

theorem W4_main_arg10 (c : Dev nD) : W4 m c (Proc.devRef .tc main_arg10) = m ((c : Thread nD τ).loc main_arg10) :=
  calc W4 m c (Proc.devRef .tc main_arg10)
    _ = W3 m c (Proc.devRef .tc main_arg10) := (W4_arr m c 4).trans (((R1.dat1 (V3 m) c).arrAt_in 4 rfl _).trans (R1.A_eq1 (V3 m) c 4))
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region over the thread state: entered from every unscoped buffer at W1, left at W2. Its arrays
    split out of the unscoped buffers and put back at the exit contents; the generator register into the invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the message-passing region makes its invariant before the first point. -/
theorem hin1' (c : Dev nD) :
    (iprop((∃ r, prngReg c r) ∗ Pipeline.prefHeld (pcfgs (F := F) 1).pre c (fun _ => fullShare) (adm (F := F) 1).1
      ∗ Pipeline.scopedRest (Pipeline.pin (pcfgs (F := F)) adm 1).spec c) : sProp 𝕄) ⊢ (R1.dat1 (V3 m) c).Φ 0 := by
  refine BIBase.Entails.trans ?_ (R1.hin1 (V3 m) c)
  unfold Pipeline.ΦA
  iintro ⟨Hp, -, Hr⟩
  isplitl [Hr]; · iexact Hr
  iexact Hp

/-- After the last point the message-passing region's invariant gives the generator register and the scoped rest back. -/
theorem hout1' (c : Dev nD) :
    (R1.dat1 (V3 m) c).Φ (Fin.last cfg1.N)
      ⊢ (iprop((∃ r, prngReg c r) ∗ emp ∗ Pipeline.scopedRest (Pipeline.pin (pcfgs (F := F)) adm 1).spec c) : sProp 𝕄) := by
  refine BIBase.Entails.trans (R1.hout1 (V3 m) c) ?_
  unfold Pipeline.ΦA
  iintro ⟨Hr, Hp⟩
  isplitl [Hp]; · iexact Hp
  isplitr; · iempintro
  iexact Hr

set_option backward.isDefEq.respectTransparency.types false in
/-- The message-passing region over the thread state: entered from every unscoped buffer at W3, left at W4. Its
    invariant carries the scratch accumulators between points, so the launch's holdings enter it and leave it through
    the region's own first-point and last-point lemmas. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1' m c
  hout c := by
    rw [Pipeline.ownSems0_none]; exact hout1' m c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final memory holds at each unscoped buffer the last boundary's
    contents W4. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every weakly fair execution of @main terminates, nothing faulting, and every final memory has the
    argument arrays as launched: the run above, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c)⟩) (run_main m ρ)

end Cert.KernelIdeal.Run

end
-- ==== Proof.Spec.lean ====
/-
  The mathematics both programs compute, index by index over the extended reals.

  Nodes p < 16384 carry 64 channels; edges e < 737280 carry a destination node, a relation type in {0, 1, 2} and a
  gathered source row xs[e, ·]. With x = feats · W1 + b1 and h = x · Wroot + bconv, relation r sends along edge e the
  message D_r[e, ch] = Σ_k xs[e, k] · Wrel[r, k, ch] when the edge has type r (and nothing otherwise); node p
  averages the messages of the edges whose destination, read as a signed word, is p — the sum divided by
  max(count, 1) — adds the three averages to h in the order r = 0, 1, 2, and clips below at zero.
  An edge whose destination is outside [0, 16384) reaches no node.
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

abbrev TN6 : Shape := ⟨2, ![16384, 6]⟩
abbrev TN64 : Shape := ⟨2, ![16384, 64]⟩
abbrev T6x64 : Shape := ⟨2, ![6, 64]⟩
abbrev T64x64 : Shape := ⟨2, ![64, 64]⟩
abbrev T3x64x64 : Shape := ⟨3, ![3, 64, 64]⟩
abbrev T64 : Shape := ⟨1, ![64]⟩
abbrev TE : Shape := ⟨1, ![737280]⟩
abbrev TE64 : Shape := ⟨2, ![737280, 64]⟩

/-- The projected node features: feats · W1 + b1. -/
def X (feats : TN6.Idx → EReal) (W1 : T6x64.Idx → EReal) (b1 : T64.Idx → EReal) : TN64.Idx → EReal :=
  fun i => (∑ k : Fin 6, feats (ix2 (i 0) k) * W1 (ix2 k (i 1))) + b1 (ix1 (i 1))

/-- The root transform: x · Wroot + bconv. -/
def H (x : TN64.Idx → EReal) (Wroot : T64x64.Idx → EReal) (bconv : T64.Idx → EReal) : TN64.Idx → EReal :=
  fun i => (∑ k : Fin 64, x (ix2 (i 0) k) * Wroot (ix2 k (i 1))) + bconv (ix1 (i 1))

/-- Edge e has relation type r: one or zero. -/
def mk (ety : TE.Idx → BitVec 32) (r : Fin 3) (e : Fin 737280) : EReal :=
  if ety (ix1 e) = BitVec.ofNat 32 r.val then 1 else 0

/-- The message along edge e for relation r, channel ch, before masking. -/
def D (xs : TE64.Idx → EReal) (Wrel : T3x64x64.Idx → EReal) (r : Fin 3) (e : Fin 737280) (ch : Fin 64) : EReal :=
  ∑ k : Fin 64, xs (ix2 e k) * Wrel (ix3 r k ch)

/-- The edges that end at node p. -/
def into (dst : TE.Idx → BitVec 32) (p : Fin 16384) : Finset (Fin 737280) :=
  Finset.univ.filter fun e : Fin 737280 => (dst (ix1 e)).toInt = (p.val : Int)

/-- The summed messages of relation r into node p. -/
def msum (xs : TE64.Idx → EReal) (Wrel : T3x64x64.Idx → EReal) (dst ety : TE.Idx → BitVec 32) (r : Fin 3)
    (p : Fin 16384) (ch : Fin 64) : EReal :=
  ∑ e ∈ into dst p, D xs Wrel r e ch * mk ety r e

/-- The number of edges of relation r into node p. -/
def cnt (dst ety : TE.Idx → BitVec 32) (r : Fin 3) (p : Fin 16384) : EReal :=
  ∑ e ∈ into dst p, mk ety r e

/-- One relation's mean message (the sum over max(count, 1)). -/
def mean (xs : TE64.Idx → EReal) (Wrel : T3x64x64.Idx → EReal) (dst ety : TE.Idx → BitVec 32) (r : Fin 3)
    (p : Fin 16384) (ch : Fin 64) : EReal :=
  Ideal.div (msum xs Wrel dst ety r p ch) (max (cnt dst ety r p) (Ideal.ofBits .f32 0x3F800000#32))

/-- The layer's output. -/
def out (h : TN64.Idx → EReal) (xs : TE64.Idx → EReal) (Wrel : T3x64x64.Idx → EReal) (dst ety : TE.Idx → BitVec 32) :
    TN64.Idx → EReal :=
  fun i => max (((h i + mean xs Wrel dst ety 0 (i 0) (i 1)) + mean xs Wrel dst ety 1 (i 0) (i 1))
      + mean xs Wrel dst ety 2 (i 0) (i 1)) (Ideal.ofBits .f32 0x00000000#32)

end Cert.Spec

end
-- ==== Proof.R0Value.lean ====
/- Region 0's two output arrays after the run, at the ideal values: the first is the node features times the first
   weight matrix plus the first bias row, the second that array times the root matrix plus the second bias row, index
   by index over the extended reals. -/
import proofs.«420560_j48172353192125_2_alg».proof.Proof.R0Body
import proofs.«420560_j48172353192125_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0V

open Cert.KernelIdeal Cert.KernelIdeal.Gen Idealize.ShloMosaic Idealize.ShloMosaic.TcCoe Idealize.SL.Sem
open Idealize.ShloMosaic.Pipeline (Dat)
open Idealize.ShloMosaic.ValueIdx

/-! ## The two products' operand indices -/

theorem lhs_a_0 (i : S2048x64.Idx) (q : dot_S2048x6_S6x64_S2048x64_1_0_0_1_n_n.contr.Idx) :
    (dot_S2048x6_S6x64_S2048x64_1_0_0_1_n_n.lhsIdx i q 0).val = (i 0).val := by
  unfold DotDims.lhsIdx
  rw [dif_neg (show ¬(0 : Fin S2048x6.rank) ∈ dot_S2048x6_S6x64_S2048x64_1_0_0_1_n_n.lhsBatch by decide), dif_pos (show (0 : Fin S2048x6.rank) ∈ dot_S2048x6_S6x64_S2048x64_1_0_0_1_n_n.lhsNonContracting by decide)]
  rfl
theorem lhs_a_1 (i : S2048x64.Idx) (q : dot_S2048x6_S6x64_S2048x64_1_0_0_1_n_n.contr.Idx) :
    (dot_S2048x6_S6x64_S2048x64_1_0_0_1_n_n.lhsIdx i q 1).val = (q ⟨0, by decide⟩).val :=
  dot_S2048x6_S6x64_S2048x64_1_0_0_1_n_n.lhsIdx_val_of_single rfl i q
theorem rhs_a_0 (i : S2048x64.Idx) (q : dot_S2048x6_S6x64_S2048x64_1_0_0_1_n_n.contr.Idx) :
    (dot_S2048x6_S6x64_S2048x64_1_0_0_1_n_n.rhsIdx i q 0).val = (q ⟨0, by decide⟩).val :=
  dot_S2048x6_S6x64_S2048x64_1_0_0_1_n_n.rhsIdx_val_of_single rfl i q
theorem rhs_a_1 (i : S2048x64.Idx) (q : dot_S2048x6_S6x64_S2048x64_1_0_0_1_n_n.contr.Idx) :
    (dot_S2048x6_S6x64_S2048x64_1_0_0_1_n_n.rhsIdx i q 1).val = (i 1).val := by
  unfold DotDims.rhsIdx
  rw [dif_neg (show ¬(1 : Fin S6x64.rank) ∈ dot_S2048x6_S6x64_S2048x64_1_0_0_1_n_n.rhsBatch by decide), dif_pos (show (1 : Fin S6x64.rank) ∈ dot_S2048x6_S6x64_S2048x64_1_0_0_1_n_n.rhsNonContracting by decide)]
  rfl

theorem lhs_b_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_b_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhs_b_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhs_b_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-! ## The payloads at an index -/

/-- A bias row of 64, viewed as one row and repeated down the 2048 rows, read at an index is the row at the column. -/
theorem bias_apply {α : Type} (b : S64.Idx → α) (j : S2048x64.Idx) :
    broadcastTo S2048x64 (shapeCast S1x64 b shapeCasts_S64_S1x64) broadcasts_S1x64_S2048x64 j = b (ix1 (j 1)) := by
  rw [broadcastTo_apply _ broadcasts_S1x64_S2048x64 j (ix2 (0 : Fin 1) (j 1)) (fun a => match a with
    | ⟨0, _⟩ => by show (0 : Nat) = if (1 : Nat) = 1 then 0 else _; rw [if_pos rfl]
    | ⟨1, _⟩ => by show (j 1).val = if (64 : Nat) = 1 then 0 else (j 1).val; rw [if_neg (by decide)])]
  rw [shapeCast_addUnit_apply]
  exact congrArg b (funext fun a => match a with | ⟨0, _⟩ => rfl)

/-- The first product read at an index: the sum over the 6 features. -/
theorem mm_a_apply (x : FVec Ideal S2048x6 .f32) (w : FVec Ideal S6x64 .f32) (j : S2048x64.Idx) :
    matmul dot_S2048x6_S6x64_S2048x64_1_0_0_1_n_n none x w (constant S2048x64 .f32 0x00000000#32) j
      = ∑ k : Fin 6, x (ix2 (j 0) k) * w (ix2 k (j 1)) := by
  simp only [matmul]
  rw [Ideal.matmul_constant_zero_apply, ← Equiv.sum_comp (contrEquiv1 dot_S2048x6_S6x64_S2048x64_1_0_0_1_n_n 6 rfl rfl).symm]
  refine Finset.sum_congr rfl fun k _ => ?_
  have hk := contrEquiv1_symm_val dot_S2048x6_S6x64_S2048x64_1_0_0_1_n_n 6 rfl rfl k
  have el : dot_S2048x6_S6x64_S2048x64_1_0_0_1_n_n.lhsIdx j ((contrEquiv1 dot_S2048x6_S6x64_S2048x64_1_0_0_1_n_n 6 rfl rfl).symm k) = ix2 (j 0) k := funext fun a => Fin.ext (by
    match a with
    | ⟨0, _⟩ => exact lhs_a_0 _ _
    | ⟨1, _⟩ => exact (lhs_a_1 _ _).trans hk)
  have er : dot_S2048x6_S6x64_S2048x64_1_0_0_1_n_n.rhsIdx j ((contrEquiv1 dot_S2048x6_S6x64_S2048x64_1_0_0_1_n_n 6 rfl rfl).symm k) = ix2 k (j 1) := funext fun a => Fin.ext (by
    match a with
    | ⟨0, _⟩ => exact (rhs_a_0 _ _).trans hk
    | ⟨1, _⟩ => exact rhs_a_1 _ _)
  rw [el, er]
  rfl

/-- The second product read at an index: the sum over the 64 channels. -/
theorem mm_b_apply (x : FVec Ideal S2048x64 .f32) (w : FVec Ideal S64x64 .f32) (j : S2048x64.Idx) :
    matmul dot_S2048x64_S64x64_S2048x64_1_0_0_1_n_n none x w (constant S2048x64 .f32 0x00000000#32) j
      = ∑ k : Fin 64, x (ix2 (j 0) k) * w (ix2 k (j 1)) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx j ((contrEquiv1 dot_S2048x64_S64x64_S2048x64_1_0_0_1_n_n 64 rfl rfl).symm k) = ix2 (j 0) k := funext fun a => Fin.ext (by
    match a with
    | ⟨0, _⟩ => exact lhs_b_0 _ _
    | ⟨1, _⟩ => exact (lhs_b_1 _ _).trans hk)
  have er : dot_S2048x64_S64x64_S2048x64_1_0_0_1_n_n.rhsIdx j ((contrEquiv1 dot_S2048x64_S64x64_S2048x64_1_0_0_1_n_n 64 rfl rfl).symm k) = ix2 k (j 1) := funext fun a => Fin.ext (by
    match a with
    | ⟨0, _⟩ => exact (rhs_b_0 _ _).trans hk
    | ⟨1, _⟩ => exact rhs_b_1 _ _)
  rw [el, er]
  rfl

/-- The first store's payload at an index. -/
theorem pay1_apply (v0 : Vec Ideal S2048x6 .f32) (v2 : Vec Ideal S6x64 .f32) (v4 : Vec Ideal S64 .f32) (j : S2048x64.Idx) :
    k0_pay1 v0 v2 v4 j = (∑ k : Fin 6, v0 (ix2 (j 0) k) * v2 (ix2 k (j 1))) + v4 (ix1 (j 1)) := by
  show addf (matmul dot_S2048x6_S6x64_S2048x64_1_0_0_1_n_n none (shapeCast S2048x6 v0 shapeCasts_S2048x6_S2048x6 : FVec Ideal S2048x6 .f32) v2 (constant S2048x64 .f32 0x00000000#32))
    (broadcastTo S2048x64 (shapeCast S1x64 v4 shapeCasts_S64_S1x64 : FVec Ideal S1x64 .f32) broadcasts_S1x64_S2048x64) j = _
  rw [addf_apply, shapeCast_self, mm_a_apply, bias_apply]

/-- The second store's payload at an index, over the first's. -/
theorem pay2_apply (v0 : Vec Ideal S2048x6 .f32) (v2 : Vec Ideal S6x64 .f32) (v4 : Vec Ideal S64 .f32) (v9 : Vec Ideal S64x64 .f32)
    (v11 : Vec Ideal S64 .f32) (j : S2048x64.Idx) :
    k0_pay2 v0 v2 v4 v9 v11 j = (∑ k : Fin 64, k0_pay1 v0 v2 v4 (ix2 (j 0) k) * v9 (ix2 k (j 1))) + v11 (ix1 (j 1)) := by
  show addf (matmul dot_S2048x64_S64x64_S2048x64_1_0_0_1_n_n none (k0_pay1 v0 v2 v4) v9 (constant S2048x64 .f32 0x00000000#32))
    (broadcastTo S2048x64 (shapeCast S1x64 v11 shapeCasts_S64_S1x64 : FVec Ideal S1x64 .f32) broadcasts_S1x64_S2048x64) j = _
  rw [addf_apply, mm_b_apply, bias_apply]

/-! ## From blocks to the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the feature window and the two output windows sit at block row t
    and block column 0 at point t; the four whole-array windows at block 0 on every axis. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The five argument arrays as the region finds them, at their literal index types. -/
abbrev A0 (c : Dev nD) : S16384x6.Idx → EReal := V c main_v4
abbrev A1 (c : Dev nD) : S6x64.Idx → EReal := V c main_arg3
abbrev A2 (c : Dev nD) : S64.Idx → EReal := V c main_arg4
abbrev A3 (c : Dev nD) : S64x64.Idx → EReal := V c main_arg5
abbrev A4 (c : Dev nD) : S64.Idx → EReal := V c main_arg7

/-- The first output array, as the specification states it of the region-entry contents. -/
abbrev X0 (c : Dev nD) : S16384x64.Idx → EReal :=
  Cert.Spec.X (A0 V c) (A1 V c) (A2 V c)

/-- The second. -/
abbrev H0 (c : Dev nD) : S16384x64.Idx → EReal :=
  Cert.Spec.H (X0 V c) (A3 V c) (A4 V c)

/-- What point t writes back of window 5 is block t of the first output array. -/
theorem flushed5_eq (c : Dev nD) (t : Fin cfg0.N) :
    (R0.dat0 (F := Ideal) V c).flushed 5 t = ((cfg0.win 5).blk t).view.read (Elt Ideal) (X0 V c) := by
  show (cfg0.win 5).cut (grid0.coords t) ((R0.dat0 (F := Ideal) V c).after 5 t) = _
  rw [R0.after0_5]
  unfold R0.out0_5
  rw [View.canon_unit_zero hz2]
  simp only [View.ld_unit_zero (S := S2048x6) hz2, View.ld_unit_zero (S := S6x64) hz2, View.ld_unit_zero (S := S64) hz1]
  funext j
  refine (pay1_apply (R0.iblk0 V c 0 t) (R0.iblk0 V c 1 t) (R0.iblk0 V c 2 t) j).trans ?_
  obtain ⟨e00, e01, e10, e11, e20, e30, e31, e40, e50, e51, e60, e61⟩ := idx_facts t
  show (∑ k : Fin 6, A0 V c (((cfg0.win 0).blk t).view.emb (ix2 (j 0) k)) * A1 V c (((cfg0.win 1).blk t).view.emb (ix2 k (j 1))))
      + A2 V c (((cfg0.win 2).blk t).view.emb (ix1 (j 1)))
    = (∑ k : Fin 6, A0 V c (ix2 ((((cfg0.win 5).blk t).view.emb j) 0) k) * A1 V c (ix2 k ((((cfg0.win 5).blk t).view.emb j) 1)))
      + A2 V c (ix1 ((((cfg0.win 5).blk t).view.emb j) 1))
  have h0 : ∀ k : Fin 6, ((cfg0.win 0).blk t).view.emb (ix2 (j 0) k) = ix2 (((cfg0.win 5).blk t).view.emb j 0) k := fun k => by
    funext a; apply Fin.ext
    match a with
    | ⟨0, _⟩ => show win0_0.index t (0 : Fin 2) * 2048 + 1 * (j 0).val = win0_5.index t (0 : Fin 2) * 2048 + 1 * (j 0).val; omega
    | ⟨1, _⟩ => show win0_0.index t (1 : Fin 2) * 6 + 1 * k.val = k.val; omega
  have h1 : ∀ k : Fin 6, ((cfg0.win 1).blk t).view.emb (ix2 k (j 1)) = ix2 k (((cfg0.win 5).blk t).view.emb j 1) := fun k => by
    funext a; apply Fin.ext
    match a with
    | ⟨0, _⟩ => show win0_1.index t (0 : Fin 2) * 6 + 1 * k.val = k.val; omega
    | ⟨1, _⟩ => show win0_1.index t (1 : Fin 2) * 64 + 1 * (j 1).val = win0_5.index t (1 : Fin 2) * 64 + 1 * (j 1).val; omega
  have h2 : ((cfg0.win 2).blk t).view.emb (ix1 (j 1)) = ix1 (((cfg0.win 5).blk t).view.emb j 1) := by
    funext a; apply Fin.ext
    match a with
    | ⟨0, _⟩ => show win0_2.index t (0 : Fin 1) * 64 + 1 * (j 1).val = win0_5.index t (1 : Fin 2) * 64 + 1 * (j 1).val; omega
  simp only [h0, h1, h2]
  rfl

/-- What point t writes back of window 6 is block t of the second output array. -/
theorem flushed6_eq (c : Dev nD) (t : Fin cfg0.N) :
    (R0.dat0 (F := Ideal) V c).flushed 6 t = ((cfg0.win 6).blk t).view.read (Elt Ideal) (H0 V c) := by
  show (cfg0.win 6).cut (grid0.coords t) ((R0.dat0 (F := Ideal) V c).after 6 t) = _
  rw [R0.after0_6]
  unfold R0.out0_6
  rw [View.canon_unit_zero hz2]
  simp only [View.ld_unit_zero (S := S2048x6) hz2, View.ld_unit_zero (S := S6x64) hz2, View.ld_unit_zero (S := S64) hz1,
    View.ld_unit_zero (S := S64x64) hz2]
  funext j
  refine (pay2_apply (R0.iblk0 V c 0 t) (R0.iblk0 V c 1 t) (R0.iblk0 V c 2 t) (R0.iblk0 V c 3 t) (R0.iblk0 V c 4 t) j).trans ?_
  obtain ⟨e00, e01, e10, e11, e20, e30, e31, e40, e50, e51, e60, e61⟩ := idx_facts t
  have hp : ∀ k : Fin 64, k0_pay1 (R0.iblk0 V c 0 t) (R0.iblk0 V c 1 t) (R0.iblk0 V c 2 t) (ix2 (j 0) k)
      = (∑ k' : Fin 6, A0 V c (((cfg0.win 0).blk t).view.emb (ix2 (j 0) k')) * A1 V c (((cfg0.win 1).blk t).view.emb (ix2 k' k)))
        + A2 V c (((cfg0.win 2).blk t).view.emb (ix1 k)) :=
    fun k => pay1_apply (R0.iblk0 V c 0 t) (R0.iblk0 V c 1 t) (R0.iblk0 V c 2 t) (ix2 (j 0) k)
  show (∑ k : Fin 64, k0_pay1 (R0.iblk0 V c 0 t) (R0.iblk0 V c 1 t) (R0.iblk0 V c 2 t) (ix2 (j 0) k) * A3 V c (((cfg0.win 3).blk t).view.emb (ix2 k (j 1))))
      + A4 V c (((cfg0.win 4).blk t).view.emb (ix1 (j 1)))
    = (∑ k : Fin 64, ((∑ k' : Fin 6, A0 V c (ix2 ((((cfg0.win 6).blk t).view.emb j) 0) k') * A1 V c (ix2 k' k)) + A2 V c (ix1 k))
        * A3 V c (ix2 k ((((cfg0.win 6).blk t).view.emb j) 1)))
      + A4 V c (ix1 ((((cfg0.win 6).blk t).view.emb j) 1))
  have h0 : ∀ k : Fin 6, ((cfg0.win 0).blk t).view.emb (ix2 (j 0) k) = ix2 (((cfg0.win 6).blk t).view.emb j 0) k := fun k => by
    funext a; apply Fin.ext
    match a with
    | ⟨0, _⟩ => show win0_0.index t (0 : Fin 2) * 2048 + 1 * (j 0).val = win0_6.index t (0 : Fin 2) * 2048 + 1 * (j 0).val; omega
    | ⟨1, _⟩ => show win0_0.index t (1 : Fin 2) * 6 + 1 * k.val = k.val; omega
  have h1 : ∀ (k' : Fin 6) (k : Fin 64), ((cfg0.win 1).blk t).view.emb (ix2 k' k) = ix2 k' k := fun k' k => by
    funext a; apply Fin.ext
    match a with
    | ⟨0, _⟩ => show win0_1.index t (0 : Fin 2) * 6 + 1 * k'.val = k'.val; omega
    | ⟨1, _⟩ => show win0_1.index t (1 : Fin 2) * 64 + 1 * k.val = k.val; omega
  have h2 : ∀ k : Fin 64, ((cfg0.win 2).blk t).view.emb (ix1 k) = ix1 k := fun k => by
    funext a; apply Fin.ext
    match a with
    | ⟨0, _⟩ => show win0_2.index t (0 : Fin 1) * 64 + 1 * k.val = k.val; omega
  have h3 : ∀ k : Fin 64, ((cfg0.win 3).blk t).view.emb (ix2 k (j 1)) = ix2 k (((cfg0.win 6).blk t).view.emb j 1) := fun k => by
    funext a; apply Fin.ext
    match a with
    | ⟨0, _⟩ => show win0_3.index t (0 : Fin 2) * 64 + 1 * k.val = k.val; omega
    | ⟨1, _⟩ => show win0_3.index t (1 : Fin 2) * 64 + 1 * (j 1).val = win0_6.index t (1 : Fin 2) * 64 + 1 * (j 1).val; omega
  have h4 : ((cfg0.win 4).blk t).view.emb (ix1 (j 1)) = ix1 (((cfg0.win 6).blk t).view.emb j 1) := by
    funext a; apply Fin.ext
    match a with
    | ⟨0, _⟩ => show win0_4.index t (0 : Fin 1) * 64 + 1 * (j 1).val = win0_6.index t (1 : Fin 2) * 64 + 1 * (j 1).val; omega
  simp only [hp, h0, h1, h2, h3, h4]
  rfl

/-! ## The cover: row r of either output array is in point r / 2048's block -/

/-- Every block row is some point's. -/
theorem idx_onto5 : ∀ q : Fin 8, ∃ t : Fin cfg0.N, win0_5.index t (0 : Fin 2) = q.val ∧ win0_5.index t (1 : Fin 2) = 0 :=
  (by decide +kernel : ∀ q : Fin 8, ∃ t : Fin grid0.N, win0_5.index t (0 : Fin 2) = q.val ∧ win0_5.index t (1 : Fin 2) = 0)
theorem idx_onto6 : ∀ q : Fin 8, ∃ t : Fin cfg0.N, win0_6.index t (0 : Fin 2) = q.val ∧ win0_6.index t (1 : Fin 2) = 0 :=
  (by decide +kernel : ∀ q : Fin 8, ∃ t : Fin grid0.N, win0_6.index t (0 : Fin 2) = q.val ∧ win0_6.index t (1 : Fin 2) = 0)

/-- An index of the array is in point t's block iff each coordinate is in the block's range on its axis. -/
theorem mem_blk5 (t : Fin cfg0.N) (i : S16384x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v5_0).slice (win0_5.rect t)).set ↔ _
  rw [View.set_slice_whole, Rect.mem_set_unit]
  exact Iff.rfl
theorem mem_blk6 (t : Fin cfg0.N) (i : S16384x64.Idx) :
    i ∈ ((cfg0.win 6).blk t).view.set ↔ ∀ a : Fin 2, win0_6.index t a * S2048x64.size a ≤ (i a).val ∧ (i a).val < win0_6.index t a * S2048x64.size a + S2048x64.size a := by
  show i ∈ ((View.whole main_v5_1).slice (win0_6.rect t)).set ↔ _
  rw [View.set_slice_whole, Rect.mem_set_unit]
  exact Iff.rfl

theorem cover5 (i : S16384x64.Idx) : ∃ t : Fin cfg0.N, (cfg0.win 5).flush t = true ∧ i ∈ ((cfg0.win 5).blk t).view.set := by
  have hi0 : (i 0).val < 16384 := (i 0).isLt
  have hi1 : (i 1).val < 64 := (i 1).isLt
  obtain ⟨t, q0, q1⟩ := idx_onto5 ⟨(i 0).val / 2048, by omega⟩
  refine ⟨t, flush0_5 t, ?_⟩
  rw [mem_blk5]
  intro a
  match a with
  | ⟨0, _⟩ => show win0_5.index t (0 : Fin 2) * 2048 ≤ (i 0).val ∧ (i 0).val < win0_5.index t (0 : Fin 2) * 2048 + 2048; simp only [q0]; omega
  | ⟨1, _⟩ => show win0_5.index t (1 : Fin 2) * 64 ≤ (i 1).val ∧ (i 1).val < win0_5.index t (1 : Fin 2) * 64 + 64; omega

theorem cover6 (i : S16384x64.Idx) : ∃ t : Fin cfg0.N, (cfg0.win 6).flush t = true ∧ i ∈ ((cfg0.win 6).blk t).view.set := by
  have hi0 : (i 0).val < 16384 := (i 0).isLt
  have hi1 : (i 1).val < 64 := (i 1).isLt
  obtain ⟨t, q0, q1⟩ := idx_onto6 ⟨(i 0).val / 2048, by omega⟩
  refine ⟨t, flush0_6 t, ?_⟩
  rw [mem_blk6]
  intro a
  match a with
  | ⟨0, _⟩ => show win0_6.index t (0 : Fin 2) * 2048 ≤ (i 0).val ∧ (i 0).val < win0_6.index t (0 : Fin 2) * 2048 + 2048; simp only [q0]; omega
  | ⟨1, _⟩ => show win0_6.index t (1 : Fin 2) * 64 ≤ (i 1).val ∧ (i 1).val < win0_6.index t (1 : Fin 2) * 64 + 64; omega

/-! ## The two arrays after the run -/

/-- The first output array ends holding the node features times the first weights plus the first bias. -/
theorem arr0_5 (c : Dev nD) :
    (R0.dat0 (F := Ideal) V c).arrAt 5 cfg0.N = Cert.Spec.X (V c main_v4) (V c main_arg3) (V c main_arg4) :=
  (R0.dat0 (F := Ideal) V c).arrAt_eq_of_cover 5 (X0 V c) (fun t _ => flushed5_eq V c t) cover5

/-- The second ends holding the first times the root weights plus the second bias. -/
theorem arr0_6 (c : Dev nD) :
    (R0.dat0 (F := Ideal) V c).arrAt 6 cfg0.N
      = Cert.Spec.H (Cert.Spec.X (V c main_v4) (V c main_arg3) (V c main_arg4)) (V c main_arg5) (V c main_arg7) :=
  (R0.dat0 (F := Ideal) V c).arrAt_eq_of_cover 6 (H0 V c) (fun t _ => flushed6_eq V c t) cover6

end Cert.KernelIdeal.R0V

end
-- ==== Proof.PayAt.lean ====
/-
  The kernel's one-point step, its zero start and its closing formula, read at an index over the extended reals.

  Edge e' of the current block reaches row `row` of node block nb exactly when its destination, read as a signed word,
  is nb * 2048 + row: inside the block the clamped local index is that row and the one-hot entry is one; outside the
  block the range mask is zero, so the masked message is zero whatever row the clamp picked. Multiplying by a zero
  or a one is exact on the extended reals, so no finiteness is needed.
-/
import proofs.«420560_j48172353192125_2_alg».proof.Proof.R1Step
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.R1

open Idealize.ShloMosaic Idealize.ShloMosaic.ValueIdx Idealize.SL.Sem Cert.KernelIdeal Cert.KernelIdeal.Gen

/-- The unmasked message of relation r along local edge e', channel ch. -/
def msgB (xs : Vec Ideal S2048x64 .f32) (w : Vec Ideal S3x64x64 .f32) (r : Fin 3) (e' : Fin 2048) (ch : Fin 64) : EReal :=
  ∑ k : Fin 64, xs (ix2 e' k) * w (ix3 r k ch)

/-- Local edge e' has relation type r: one or zero. -/
def mkB (ety : Vec Ideal S2048 .i32) (r : Fin 3) (e' : Fin 2048) : EReal :=
  if ety (ix1 e') = BitVec.ofNat 32 r.val then 1 else 0

/-- What the edge block adds to relation r's message sum at (row, ch). -/
def addS (i : grid1.Coords) (xs : Vec Ideal S2048x64 .f32) (w : Vec Ideal S3x64x64 .f32) (dst ety : Vec Ideal S2048 .i32)
    (r : Fin 3) (row : Fin 2048) (ch : Fin 64) : EReal :=
  ∑ e' : Fin 2048, if (dst (ix1 e')).toInt = (((i 0).val * 2048 + row.val : Nat) : Int) then msgB xs w r e' ch * mkB ety r e' else 0

/-- What the edge block adds to relation r's edge count at row. -/
def addC (i : grid1.Coords) (dst ety : Vec Ideal S2048 .i32) (r : Fin 3) (row : Fin 2048) : EReal :=
  ∑ e' : Fin 2048, if (dst (ix1 e')).toInt = (((i 0).val * 2048 + row.val : Nat) : Int) then mkB ety r e' else 0

/-! ## Words: the block's first node, the range bit, the one-hot bit -/

/-- The word of the first node of node block nb. -/
def baseW (nb : Nat) : BitVec 32 := Scalar.muli (BitVec.ofNat 32 nb) 2048#32

theorem baseW_toInt (nb : Nat) (hnb : nb < 8) : (baseW nb).toInt = ((nb * 2048 : Nat) : Int) := by
  interval_cases nb <;> rfl

theorem baseW_add_toInt (nb : Nat) (hnb : nb < 8) : (Scalar.addi (baseW nb) 2048#32).toInt = ((nb * 2048 + 2048 : Nat) : Int) := by
  interval_cases nb <;> rfl

/-- The range bit. -/
def rangeW (d b : BitVec 32) : BitVec 1 :=
  IntOp.andi (IntOp.cmpi .sge d b) (IntOp.cmpi .slt d (Scalar.addi b 2048#32))

theorem rangeW_eq (d : BitVec 32) (nb : Nat) (hnb : nb < 8) :
    rangeW d (baseW nb) = if ((nb * 2048 : Nat) : Int) ≤ d.toInt ∧ d.toInt < ((nb * 2048 + 2048 : Nat) : Int) then 1#1 else 0#1 := by
  unfold rangeW IntOp.andi IntOp.cmpi
  simp only [BitVec.sle, BitVec.slt, baseW_toInt nb hnb, baseW_add_toInt nb hnb]
  by_cases h1 : ((nb * 2048 : Nat) : Int) ≤ d.toInt <;> by_cases h2 : d.toInt < ((nb * 2048 + 2048 : Nat) : Int) <;> (push_cast at h1 h2; simp [h1, h2])

theorem subi_base_toInt (d : BitVec 32) (nb : Nat) (hnb : nb < 8)
    (h1 : ((nb * 2048 : Nat) : Int) ≤ d.toInt) (h2 : d.toInt < ((nb * 2048 + 2048 : Nat) : Int)) :
    (IntOp.subi d (baseW nb)).toInt = d.toInt - ((nb * 2048 : Nat) : Int) := by
  unfold IntOp.subi
  rw [BitVec.toInt_sub, baseW_toInt nb hnb, Int.bmod_def]
  push_cast at h1 h2 ⊢
  omega

/-- The one-hot bit: the row word against the clamped local index. -/
def hotW (r d b : BitVec 32) : BitVec 1 :=
  IntOp.cmpi .eq r (IntOp.minsi 2047#32 (IntOp.maxsi 0#32 (IntOp.subi d b)))

theorem clamp_id (t : BitVec 32) (h0 : 0 ≤ t.toInt) (h1 : t.toInt < 2048) :
    IntOp.minsi 2047#32 (IntOp.maxsi 0#32 t) = t := by
  have e0 : (0#32 : BitVec 32).toInt = 0 := rfl
  have e1 : (2047#32 : BitVec 32).toInt = 2047 := rfl
  have m : IntOp.maxsi 0#32 t = t := by
    unfold IntOp.maxsi
    rw [if_neg]
    simp only [BitVec.slt, e0, decide_eq_true_eq]; omega
  rw [m]
  unfold IntOp.minsi
  rw [if_neg]
  simp only [BitVec.slt, e1, decide_eq_true_eq]; omega

theorem row_toInt (row : Fin 2048) : (BitVec.ofNat 32 row.val).toInt = (row.val : Int) := by
  have := row.isLt
  have h : (BitVec.ofNat 32 row.val).toNat = row.val := by rw [BitVec.toNat_ofNat]; omega
  rw [BitVec.toInt_eq_toNat_cond, h]; omega

theorem hotW_eq (d : BitVec 32) (nb : Nat) (hnb : nb < 8) (row : Fin 2048)
    (h1 : ((nb * 2048 : Nat) : Int) ≤ d.toInt) (h2 : d.toInt < ((nb * 2048 + 2048 : Nat) : Int)) :
    hotW (BitVec.ofNat 32 row.val) d (baseW nb) = if d.toInt = ((nb * 2048 + row.val : Nat) : Int) then 1#1 else 0#1 := by
  have ht := subi_base_toInt d nb hnb h1 h2
  unfold hotW
  rw [clamp_id _ (by rw [ht]; omega) (by rw [ht]; push_cast at h2 ⊢; omega)]
  unfold IntOp.cmpi
  have key : (BitVec.ofNat 32 row.val = IntOp.subi d (baseW nb)) ↔ d.toInt = ((nb * 2048 + row.val : Nat) : Int) := by
    rw [← BitVec.toInt_inj, ht, row_toInt]; push_cast; omega
  by_cases h : d.toInt = ((nb * 2048 + row.val : Nat) : Int)
  · rw [if_pos h, key.mpr h]; simp
  · rw [if_neg h]
    have : ¬ (BitVec.ofNat 32 row.val = IntOp.subi d (baseW nb)) := fun e => h (key.mp e)
    rw [beq_eq_false_iff_ne.mpr this]; rfl

/-- A bit as an extended real: zero-extended to a word, read signed, converted. -/
def f01 (b : BitVec 1) : EReal := FloatOps.sitofp (F := Ideal) .f32 (b.setWidth 32)

theorem f01_one : f01 1#1 = 1 := by
  show ((((1#1 : BitVec 1).setWidth 32).toInt : ℝ) : EReal) = 1
  have : ((1#1 : BitVec 1).setWidth 32).toInt = 1 := by decide
  rw [this]; simp
theorem f01_zero : f01 0#1 = 0 := by
  show ((((0#1 : BitVec 1).setWidth 32).toInt : ℝ) : EReal) = 0
  have : ((0#1 : BitVec 1).setWidth 32).toInt = 0 := by decide
  rw [this]; simp

theorem andi_one (e : BitVec 1) : IntOp.andi e 1#1 = e := by
  rcases BitVec.eq_zero_or_eq_one e with rfl | rfl <;> rfl
theorem andi_zero (e : BitVec 1) : IntOp.andi e 0#1 = 0#1 := by
  rcases BitVec.eq_zero_or_eq_one e with rfl | rfl <;> rfl

theorem f01_cmpi_eq (x c : BitVec 32) : f01 (IntOp.cmpi .eq x c) = if x = c then 1 else 0 := by
  unfold IntOp.cmpi
  by_cases h : x = c
  · rw [if_pos h, h]; simp only [beq_self_eq_true]; exact f01_one
  · rw [if_neg h, beq_eq_false_iff_ne.mpr h]; exact f01_zero

/-- One term of the message contraction. -/
theorem term_s (d : BitVec 32) (nb : Nat) (hnb : nb < 8) (row : Fin 2048) (e : BitVec 1) (m : EReal) :
    f01 (hotW (BitVec.ofNat 32 row.val) d (baseW nb)) * (m * f01 (IntOp.andi e (rangeW d (baseW nb))))
      = if d.toInt = ((nb * 2048 + row.val : Nat) : Int) then m * f01 e else 0 := by
  rw [rangeW_eq d nb hnb]
  by_cases hr : ((nb * 2048 : Nat) : Int) ≤ d.toInt ∧ d.toInt < ((nb * 2048 + 2048 : Nat) : Int)
  · rw [if_pos hr, hotW_eq d nb hnb row hr.1 hr.2, andi_one]
    by_cases h : d.toInt = ((nb * 2048 + row.val : Nat) : Int)
    · rw [if_pos h, if_pos h, f01_one, one_mul]
    · rw [if_neg h, if_neg h, f01_zero, zero_mul]
  · rw [if_neg hr, andi_zero, f01_zero, mul_zero, mul_zero, if_neg]
    intro h; apply hr; have := row.isLt; push_cast at h ⊢; omega

/-- One term of the count contraction. -/
theorem term_c (d : BitVec 32) (nb : Nat) (hnb : nb < 8) (row : Fin 2048) (e : BitVec 1) :
    f01 (hotW (BitVec.ofNat 32 row.val) d (baseW nb)) * f01 (IntOp.andi e (rangeW d (baseW nb)))
      = if d.toInt = ((nb * 2048 + row.val : Nat) : Int) then f01 e else 0 := by
  have := term_s d nb hnb row e 1
  rwa [one_mul, one_mul] at this

/-! ## Layout: a vector as a column, the column spread over the channels -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A mask vector as a column spread over the channels reads its entry at the row. -/
theorem col_read (m : FVec Ideal S2048 .f32) (e' : Fin 2048) (ch : Fin 64) :
    broadcastTo S2048x64 (shapeCast S2048x1 m shapeCasts_S2048_S2048x1) broadcasts_S2048x1_S2048x64 (ix2 e' ch) = m (ix1 e') := by
  rw [broadcastTo_a1_ab_apply, shapeCast_a_a1_apply]

/-! ## The payload pieces at an index -/

/-- The range mask at local edge e'. -/
theorem pay12_apply (i : grid1.Coords) (dst : Vec Ideal S2048 .i32) (e' : Fin 2048) :
    k1_pay12 i dst (ix1 e') = rangeW (dst (ix1 e')) (baseW (i 0).val) := rfl

/-- Row indices against a row of local indices spread over the rows: at (row, e') the row's word against entry e'. -/
theorem hot_read (v : IVec S2048 32) (row e' : Fin 2048) :
    (sitofp .f32 (extui 32 (cmpi .eq (iota .tc S2048x2048 32 [0] iota_S2048x2048_d0_w32)
        (broadcastTo S2048x2048 (shapeCast S1x2048 v shapeCasts_S2048_S1x2048) broadcasts_S1x2048_S2048x2048)) natLt_1_32)
      : FVec Ideal S2048x2048 .f32) (ix2 row e') = f01 (IntOp.cmpi .eq (BitVec.ofNat 32 row.val) (v (ix1 e'))) := by
  have hi : iota .tc S2048x2048 32 [0] iota_S2048x2048_d0_w32 (ix2 row e') = BitVec.ofNat 32 row.val := by
    show BitVec.ofNat 32 (0 * 2048 + row.val) = _
    rw [Nat.zero_mul, Nat.zero_add]
  show f01 (IntOp.cmpi .eq (iota .tc S2048x2048 32 [0] iota_S2048x2048_d0_w32 (ix2 row e'))
    (broadcastTo S2048x2048 (shapeCast S1x2048 v shapeCasts_S2048_S1x2048) broadcasts_S1x2048_S2048x2048 (ix2 row e'))) = _
  rw [hi, broadcastTo_1b_ab_apply, shapeCast_a_1a_apply]

/-- The one-hot matrix at (row, e'). -/
theorem pay13_apply (i : grid1.Coords) (dst : Vec Ideal S2048 .i32) (row e' : Fin 2048) :
    k1_pay13 i dst (ix2 row e') = f01 (hotW (BitVec.ofNat 32 row.val) (dst (ix1 e')) (baseW (i 0).val)) := by
  unfold k1_pay13
  exact hot_read _ row e'

/-! ## The contractions at an index -/

theorem lhs_S_0 (j : S2048x64.Idx) (q : dot_S2048x64_S64x64_S2048x64_1_0_0_1_n_n.contr.Idx) : (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_S_1 (j : S2048x64.Idx) (q : dot_S2048x64_S64x64_S2048x64_1_0_0_1_n_n.contr.Idx) : (dot_S2048x64_S64x64_S2048x64_1_0_0_1_n_n.lhsIdx j q 1).val = (q ⟨0, by decide⟩).val :=
  dot_S2048x64_S64x64_S2048x64_1_0_0_1_n_n.lhsIdx_val_of_single rfl j q
theorem rhs_S_0 (j : S2048x64.Idx) (q : dot_S2048x64_S64x64_S2048x64_1_0_0_1_n_n.contr.Idx) : (dot_S2048x64_S64x64_S2048x64_1_0_0_1_n_n.rhsIdx j q 0).val = (q ⟨0, by decide⟩).val :=
  dot_S2048x64_S64x64_S2048x64_1_0_0_1_n_n.rhsIdx_val_of_single rfl j q
theorem rhs_S_1 (j : S2048x64.Idx) (q : dot_S2048x64_S64x64_S2048x64_1_0_0_1_n_n.contr.Idx) : (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

theorem lhs_B_0 (j : S2048x64.Idx) (q : dot_S2048x2048_S2048x64_S2048x64_1_0_0_1_n_n.contr.Idx) : (dot_S2048x2048_S2048x64_S2048x64_1_0_0_1_n_n.lhsIdx j q 0).val = (j 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_B_1 (j : S2048x64.Idx) (q : dot_S2048x2048_S2048x64_S2048x64_1_0_0_1_n_n.contr.Idx) : (dot_S2048x2048_S2048x64_S2048x64_1_0_0_1_n_n.lhsIdx j q 1).val = (q ⟨0, by decide⟩).val :=
  dot_S2048x2048_S2048x64_S2048x64_1_0_0_1_n_n.lhsIdx_val_of_single rfl j q
theorem rhs_B_0 (j : S2048x64.Idx) (q : dot_S2048x2048_S2048x64_S2048x64_1_0_0_1_n_n.contr.Idx) : (dot_S2048x2048_S2048x64_S2048x64_1_0_0_1_n_n.rhsIdx j q 0).val = (q ⟨0, by decide⟩).val :=
  dot_S2048x2048_S2048x64_S2048x64_1_0_0_1_n_n.rhsIdx_val_of_single rfl j q
theorem rhs_B_1 (j : S2048x64.Idx) (q : dot_S2048x2048_S2048x64_S2048x64_1_0_0_1_n_n.contr.Idx) : (dot_S2048x2048_S2048x64_S2048x64_1_0_0_1_n_n.rhsIdx j q 1).val = (j 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

theorem lhs_C_0 (j : S2048x1.Idx) (q : dot_S2048x2048_S2048x1_S2048x1_1_0_0_1_n_n.contr.Idx) : (dot_S2048x2048_S2048x1_S2048x1_1_0_0_1_n_n.lhsIdx j q 0).val = (j 0).val := by
  unfold DotDims.lhsIdx
  rw [dif_neg (show ¬(0 : Fin S2048x2048.rank) ∈ dot_S2048x2048_S2048x1_S2048x1_1_0_0_1_n_n.lhsBatch by decide), dif_pos (show (0 : Fin S2048x2048.rank) ∈ dot_S2048x2048_S2048x1_S2048x1_1_0_0_1_n_n.lhsNonContracting by decide)]
  rfl
theorem lhs_C_1 (j : S2048x1.Idx) (q : dot_S2048x2048_S2048x1_S2048x1_1_0_0_1_n_n.contr.Idx) : (dot_S2048x2048_S2048x1_S2048x1_1_0_0_1_n_n.lhsIdx j q 1).val = (q ⟨0, by decide⟩).val :=
  dot_S2048x2048_S2048x1_S2048x1_1_0_0_1_n_n.lhsIdx_val_of_single rfl j q
theorem rhs_C_0 (j : S2048x1.Idx) (q : dot_S2048x2048_S2048x1_S2048x1_1_0_0_1_n_n.contr.Idx) : (dot_S2048x2048_S2048x1_S2048x1_1_0_0_1_n_n.rhsIdx j q 0).val = (q ⟨0, by decide⟩).val :=
  dot_S2048x2048_S2048x1_S2048x1_1_0_0_1_n_n.rhsIdx_val_of_single rfl j q
theorem rhs_C_1 (j : S2048x1.Idx) (q : dot_S2048x2048_S2048x1_S2048x1_1_0_0_1_n_n.contr.Idx) : (dot_S2048x2048_S2048x1_S2048x1_1_0_0_1_n_n.rhsIdx j q 1).val = (j 1).val := by
  unfold DotDims.rhsIdx
  rw [dif_neg (show ¬(1 : Fin S2048x1.rank) ∈ dot_S2048x2048_S2048x1_S2048x1_1_0_0_1_n_n.rhsBatch by decide), dif_pos (show (1 : Fin S2048x1.rank) ∈ dot_S2048x2048_S2048x1_S2048x1_1_0_0_1_n_n.rhsNonContracting by decide)]
  rfl

/-- Rows times a 64 by 64 weight into a zero accumulator: the sum over the inner channel. -/
theorem mmS_read (A : FVec Ideal S2048x64 .f32) (B : FVec Ideal S64x64 .f32) (p : Fin 2048) (c : Fin 64) :
    matmul dot_S2048x64_S64x64_S2048x64_1_0_0_1_n_n none A B (constant S2048x64 .f32 0x00000000#32) (ix2 p c)
      = ∑ k : Fin 64, A (ix2 p k) * B (ix2 k c) := by
  show FloatOps.matmul dot_S2048x64_S64x64_S2048x64_1_0_0_1_n_n none A B (constant S2048x64 .f32 0x00000000#32) (ix2 p c) = _
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p c) ((contrEquiv1 dot_S2048x64_S64x64_S2048x64_1_0_0_1_n_n 64 rfl rfl).symm k) = ix2 p k := funext fun a => Fin.ext (by
    match a with
    | ⟨0, _⟩ => exact lhs_S_0 _ _
    | ⟨1, _⟩ => exact (lhs_S_1 _ _).trans hk)
  have er : dot_S2048x64_S64x64_S2048x64_1_0_0_1_n_n.rhsIdx (ix2 p c) ((contrEquiv1 dot_S2048x64_S64x64_S2048x64_1_0_0_1_n_n 64 rfl rfl).symm k) = ix2 k c := funext fun a => Fin.ext (by
    match a with
    | ⟨0, _⟩ => exact (rhs_S_0 _ _).trans hk
    | ⟨1, _⟩ => exact rhs_S_1 _ _)
  rw [el, er]

/-- The one-hot matrix times the masked messages into a zero accumulator: the sum over the local edges. -/
theorem mmB_read (A : FVec Ideal S2048x2048 .f32) (B : FVec Ideal S2048x64 .f32) (p : Fin 2048) (c : Fin 64) :
    matmul dot_S2048x2048_S2048x64_S2048x64_1_0_0_1_n_n none A B (constant S2048x64 .f32 0x00000000#32) (ix2 p c)
      = ∑ k : Fin 2048, A (ix2 p k) * B (ix2 k c) := by
  show FloatOps.matmul dot_S2048x2048_S2048x64_S2048x64_1_0_0_1_n_n none A B (constant S2048x64 .f32 0x00000000#32) (ix2 p c) = _
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 p c) ((contrEquiv1 dot_S2048x2048_S2048x64_S2048x64_1_0_0_1_n_n 2048 rfl rfl).symm k) = ix2 p k := funext fun a => Fin.ext (by
    match a with
    | ⟨0, _⟩ => exact lhs_B_0 _ _
    | ⟨1, _⟩ => exact (lhs_B_1 _ _).trans hk)
  have er : dot_S2048x2048_S2048x64_S2048x64_1_0_0_1_n_n.rhsIdx (ix2 p c) ((contrEquiv1 dot_S2048x2048_S2048x64_S2048x64_1_0_0_1_n_n 2048 rfl rfl).symm k) = ix2 k c := funext fun a => Fin.ext (by
    match a with
    | ⟨0, _⟩ => exact (rhs_B_0 _ _).trans hk
    | ⟨1, _⟩ => exact rhs_B_1 _ _)
  rw [el, er]

/-- The one-hot matrix times the mask column into a zero accumulator: the sum over the local edges. -/
theorem mmC_read (A : FVec Ideal S2048x2048 .f32) (B : FVec Ideal S2048x1 .f32) (p : Fin 2048) (c : Fin 1) :
    matmul dot_S2048x2048_S2048x1_S2048x1_1_0_0_1_n_n none A B (constant S2048x1 .f32 0x00000000#32) (ix2 p c)
      = ∑ k : Fin 2048, A (ix2 p k) * B (ix2 k c) := by
  show FloatOps.matmul dot_S2048x2048_S2048x1_S2048x1_1_0_0_1_n_n none A B (constant S2048x1 .f32 0x00000000#32) (ix2 p c) = _
  rw [Ideal.matmul_constant_zero_apply, ← Equiv.sum_comp (contrEquiv1 dot_S2048x2048_S2048x1_S2048x1_1_0_0_1_n_n 2048 rfl rfl).symm]
  refine Finset.sum_congr rfl fun k _ => ?_
  have hk := contrEquiv1_symm_val dot_S2048x2048_S2048x1_S2048x1_1_0_0_1_n_n 2048 rfl rfl k
  have el : dot_S2048x2048_S2048x1_S2048x1_1_0_0_1_n_n.lhsIdx (ix2 p c) ((contrEquiv1 dot_S2048x2048_S2048x1_S2048x1_1_0_0_1_n_n 2048 rfl rfl).symm k) = ix2 p k := funext fun a => Fin.ext (by
    match a with
    | ⟨0, _⟩ => exact lhs_C_0 _ _
    | ⟨1, _⟩ => exact (lhs_C_1 _ _).trans hk)
  have er : dot_S2048x2048_S2048x1_S2048x1_1_0_0_1_n_n.rhsIdx (ix2 p c) ((contrEquiv1 dot_S2048x2048_S2048x1_S2048x1_1_0_0_1_n_n 2048 rfl rfl).symm k) = ix2 k c := funext fun a => Fin.ext (by
    match a with
    | ⟨0, _⟩ => exact (rhs_C_0 _ _).trans hk
    | ⟨1, _⟩ => exact rhs_C_1 _ _)
  rw [el, er]

/-! ## The weight of relation r through its rectangle -/

theorem ld_rW0 (w : Vec Ideal S3x64x64 .f32) (k ch : Fin 64) :
    View.ld w rW0 (ix3 (0 : Fin 1) k ch) = w (ix3 (0 : Fin 3) k ch) := by
  show w (rW0.idx (ix3 (0 : Fin 1) k ch)) = _
  congr 1
  funext a
  match a with
  | ⟨0, _⟩ => exact Fin.ext (by show 0 + 1 * 0 = 0; rfl)
  | ⟨1, _⟩ => exact Fin.ext (by show 0 + 1 * k.val = k.val; omega)
  | ⟨2, _⟩ => exact Fin.ext (by show 0 + 1 * ch.val = ch.val; omega)

theorem ld_rW1 (w : Vec Ideal S3x64x64 .f32) (k ch : Fin 64) :
    View.ld w rW1 (ix3 (0 : Fin 1) k ch) = w (ix3 (1 : Fin 3) k ch) := by
  show w (rW1.idx (ix3 (0 : Fin 1) k ch)) = _
  congr 1
  funext a
  match a with
  | ⟨0, _⟩ => exact Fin.ext (by show 1 + 1 * 0 = 1; rfl)
  | ⟨1, _⟩ => exact Fin.ext (by show 0 + 1 * k.val = k.val; omega)
  | ⟨2, _⟩ => exact Fin.ext (by show 0 + 1 * ch.val = ch.val; omega)

theorem ld_rW2 (w : Vec Ideal S3x64x64 .f32) (k ch : Fin 64) :
    View.ld w rW2 (ix3 (0 : Fin 1) k ch) = w (ix3 (2 : Fin 3) k ch) := by
  show w (rW2.idx (ix3 (0 : Fin 1) k ch)) = _
  congr 1
  funext a
  match a with
  | ⟨0, _⟩ => exact Fin.ext (by show 2 + 1 * 0 = 2; rfl)
  | ⟨1, _⟩ => exact Fin.ext (by show 0 + 1 * k.val = k.val; omega)
  | ⟨2, _⟩ => exact Fin.ext (by show 0 + 1 * ch.val = ch.val; omega)

/-! ## One relation's update, the relation's word a parameter -/

/-- The mask of the relation whose word is c over a range mask, as the kernel builds it: the bit "type is c and in range" as a real. -/
def maskV (c : BitVec 32) (ety : Vec Ideal S2048 .i32) (v13 : IVec S2048 1) : FVec Ideal S2048 .f32 :=
  sitofp .f32 (extui 32 (andi (cmpi .eq ety (broadcast S2048 c)) v13) natLt_1_32)

theorem maskV_apply (c : BitVec 32) (ety : Vec Ideal S2048 .i32) (v13 : IVec S2048 1) (e' : Fin 2048) :
    maskV c ety v13 (ix1 e') = f01 (IntOp.andi (IntOp.cmpi .eq (ety (ix1 e')) c) (v13 (ix1 e'))) := rfl

/-- The unmasked messages at (e', ch): the gathered row times the relation's weight. -/
theorem msg_read (xs : Vec Ideal S2048x64 .f32) (W : Vec Ideal S1x64x64 .f32) (e' : Fin 2048) (ch : Fin 64) :
    matmul dot_S2048x64_S64x64_S2048x64_1_0_0_1_n_n none (k1_pay11 xs) (shapeCast S64x64 W shapeCasts_S1x64x64_S64x64 : FVec Ideal S64x64 .f32) (constant S2048x64 .f32 0x00000000#32) (ix2 e' ch)
      = ∑ k : Fin 64, xs (ix2 e' k) * W (ix3 (0 : Fin 1) k ch) := by
  rw [mmS_read]
  refine Finset.sum_congr rfl fun k _ => ?_
  rw [shapeCast_1ab_ab_apply]
  congr 1
  unfold k1_pay11
  exact shapeCast_apply xs _ _ _ rfl

/-- A message sum after the edge block: the sum before plus, over the local edges that end at this row, the message where the
    edge has the relation's type. -/
theorem genS (c : BitVec 32) (i : grid1.Coords) (a0 xs : Vec Ideal S2048x64 .f32) (W : Vec Ideal S1x64x64 .f32)
    (w : Vec Ideal S3x64x64 .f32) (r : Fin 3) (hW : ∀ (k ch : Fin 64), W (ix3 (0 : Fin 1) k ch) = w (ix3 r k ch))
    (dst ety : Vec Ideal S2048 .i32) (row : Fin 2048) (ch : Fin 64) :
    shapeCast S2048x64 (addf a0 (matmul dot_S2048x2048_S2048x64_S2048x64_1_0_0_1_n_n none (k1_pay13 i dst)
        (mulf (matmul dot_S2048x64_S64x64_S2048x64_1_0_0_1_n_n none (k1_pay11 xs) (shapeCast S64x64 W shapeCasts_S1x64x64_S64x64 : FVec Ideal S64x64 .f32) (constant S2048x64 .f32 0x00000000#32))
          (broadcastTo S2048x64 (shapeCast S2048x1 (maskV c ety (k1_pay12 i dst)) shapeCasts_S2048_S2048x1) broadcasts_S2048x1_S2048x64))
        (constant S2048x64 .f32 0x00000000#32))) shapeCasts_S2048x64_S2048x64 (ix2 row ch)
      = a0 (ix2 row ch) + ∑ e' : Fin 2048, if (dst (ix1 e')).toInt = (((i 0).val * 2048 + row.val : Nat) : Int)
          then (∑ k : Fin 64, xs (ix2 e' k) * w (ix3 r k ch)) * (if ety (ix1 e') = c then 1 else 0) else 0 := by
  rw [shapeCast_apply _ shapeCasts_S2048x64_S2048x64 (ix2 row ch) (ix2 row ch) rfl]
  rw [addf_apply]
  rw [mmB_read]
  refine congrArg (a0 (ix2 row ch) + ·) ?_
  refine Finset.sum_congr rfl fun e' _ => ?_
  rw [pay13_apply]
  rw [mulf_apply]
  rw [msg_read]
  rw [Finset.sum_congr rfl fun k _ => by rw [hW k ch]]
  rw [col_read]
  rw [maskV_apply]
  rw [pay12_apply]
  rw [term_s _ _ (i 0).isLt]
  rw [f01_cmpi_eq]

/-- An edge count after the edge block: the count before plus the number of local edges of the relation's type that end at this row. -/
theorem genC (c : BitVec 32) (i : grid1.Coords) (a0 : Vec Ideal S2048x1 .f32) (dst ety : Vec Ideal S2048 .i32) (row : Fin 2048) :
    shapeCast S2048x1 (addf a0 (matmul dot_S2048x2048_S2048x1_S2048x1_1_0_0_1_n_n none (k1_pay13 i dst)
        (shapeCast S2048x1 (maskV c ety (k1_pay12 i dst)) shapeCasts_S2048_S2048x1)
        (constant S2048x1 .f32 0x00000000#32))) shapeCasts_S2048x1_S2048x1 (ix2 row (0 : Fin 1))
      = a0 (ix2 row (0 : Fin 1)) + ∑ e' : Fin 2048, if (dst (ix1 e')).toInt = (((i 0).val * 2048 + row.val : Nat) : Int)
          then (if ety (ix1 e') = c then 1 else 0) else 0 := by
  rw [shapeCast_apply _ shapeCasts_S2048x1_S2048x1 (ix2 row (0 : Fin 1)) (ix2 row (0 : Fin 1)) rfl]
  rw [addf_apply]
  rw [mmC_read]
  refine congrArg (a0 (ix2 row (0 : Fin 1)) + ·) ?_
  refine Finset.sum_congr rfl fun e' _ => ?_
  rw [pay13_apply]
  rw [shapeCast_a_a1_apply]
  rw [maskV_apply]
  rw [pay12_apply]
  rw [term_c _ _ (i 0).isLt]
  rw [f01_cmpi_eq]

section
variable (i : grid1.Coords) (a : Acc Ideal) (xs : Vec Ideal S2048x64 .f32) (w : Vec Ideal S3x64x64 .f32)
  (dst ety : Vec Ideal S2048 .i32) (row : Fin 2048) (ch : Fin 64)

theorem step_s0_apply : (step i a xs w dst ety).s0 (ix2 row ch) = a.s0 (ix2 row ch) + addS i xs w dst ety 0 row ch := by
  refine (genS 0#32 i a.s0 xs (View.ld w rW0) w 0 (ld_rW0 w) dst ety row ch).trans ?_
  unfold addS msgB mkB
  rfl
theorem step_s1_apply : (step i a xs w dst ety).s1 (ix2 row ch) = a.s1 (ix2 row ch) + addS i xs w dst ety 1 row ch := by
  refine (genS 1#32 i a.s1 xs (View.ld w rW1) w 1 (ld_rW1 w) dst ety row ch).trans ?_
  unfold addS msgB mkB
  rfl
theorem step_s2_apply : (step i a xs w dst ety).s2 (ix2 row ch) = a.s2 (ix2 row ch) + addS i xs w dst ety 2 row ch := by
  refine (genS 2#32 i a.s2 xs (View.ld w rW2) w 2 (ld_rW2 w) dst ety row ch).trans ?_
  unfold addS msgB mkB
  rfl
theorem step_c0_apply : (step i a xs w dst ety).c0 (ix2 row (0 : Fin 1)) = a.c0 (ix2 row (0 : Fin 1)) + addC i dst ety 0 row := by
  refine (genC 0#32 i a.c0 dst ety row).trans ?_
  unfold addC mkB
  rfl
theorem step_c1_apply : (step i a xs w dst ety).c1 (ix2 row (0 : Fin 1)) = a.c1 (ix2 row (0 : Fin 1)) + addC i dst ety 1 row := by
  refine (genC 1#32 i a.c1 dst ety row).trans ?_
  unfold addC mkB
  rfl
theorem step_c2_apply : (step i a xs w dst ety).c2 (ix2 row (0 : Fin 1)) = a.c2 (ix2 row (0 : Fin 1)) + addC i dst ety 2 row := by
  refine (genC 2#32 i a.c2 dst ety row).trans ?_
  unfold addC mkB
  rfl
end

end Cert.KernelIdeal.R1

end
-- ==== Proof.PayFin.lean ====
/-
  The accumulators' zero start and the closing formula of the message-passing kernel, read at an index over the
  extended reals: the start is the zero word broadcast; the close adds to the root transform, in the order of the
  relations, each message sum divided by the larger of its count and one, and clips the result below at zero.
-/
import proofs.«420560_j48172353192125_2_alg».proof.Proof.R1Step
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.R1

open Idealize.ShloMosaic Idealize.ShloMosaic.ValueIdx Idealize.SL.Sem Cert.KernelIdeal Cert.KernelIdeal.Gen

/-- An `[a, 1]` column broadcast to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem acc0_s0 (j : S2048x64.Idx) : (acc0 (F := Ideal)).s0 j = 0 := by
  show shapeCast S2048x64 (broadcast S2048x64 (Scalar.ofBits (F := Ideal) .f32 0x00000000#32)) shapeCasts_S2048x64_S2048x64 j = 0
  rw [shapeCast_self, broadcast_apply]
  exact Ideal.ofBits_zero_f32
theorem acc0_s1 (j : S2048x64.Idx) : (acc0 (F := Ideal)).s1 j = 0 := by
  show shapeCast S2048x64 (broadcast S2048x64 (Scalar.ofBits (F := Ideal) .f32 0x00000000#32)) shapeCasts_S2048x64_S2048x64 j = 0
  rw [shapeCast_self, broadcast_apply]
  exact Ideal.ofBits_zero_f32
theorem acc0_s2 (j : S2048x64.Idx) : (acc0 (F := Ideal)).s2 j = 0 := by
  show shapeCast S2048x64 (broadcast S2048x64 (Scalar.ofBits (F := Ideal) .f32 0x00000000#32)) shapeCasts_S2048x64_S2048x64 j = 0
  rw [shapeCast_self, broadcast_apply]
  exact Ideal.ofBits_zero_f32
theorem acc0_c0 (j : S2048x1.Idx) : (acc0 (F := Ideal)).c0 j = 0 := by
  show shapeCast S2048x1 (broadcast S2048x1 (Scalar.ofBits (F := Ideal) .f32 0x00000000#32)) shapeCasts_S2048x1_S2048x1 j = 0
  rw [shapeCast_self, broadcast_apply]
  exact Ideal.ofBits_zero_f32
theorem acc0_c1 (j : S2048x1.Idx) : (acc0 (F := Ideal)).c1 j = 0 := by
  show shapeCast S2048x1 (broadcast S2048x1 (Scalar.ofBits (F := Ideal) .f32 0x00000000#32)) shapeCasts_S2048x1_S2048x1 j = 0
  rw [shapeCast_self, broadcast_apply]
  exact Ideal.ofBits_zero_f32
theorem acc0_c2 (j : S2048x1.Idx) : (acc0 (F := Ideal)).c2 j = 0 := by
  show shapeCast S2048x1 (broadcast S2048x1 (Scalar.ofBits (F := Ideal) .f32 0x00000000#32)) shapeCasts_S2048x1_S2048x1 j = 0
  rw [shapeCast_self, broadcast_apply]
  exact Ideal.ofBits_zero_f32

/-- The closing formula at (row, ch). -/
theorem fin_apply (h : Vec Ideal S2048x64 .f32) (a : Acc Ideal) (row : Fin 2048) (ch : Fin 64) :
    fin h a (ix2 row ch)
      = max (((h (ix2 row ch)
            + Ideal.div (a.s0 (ix2 row ch)) (max (a.c0 (ix2 row (0 : Fin 1))) (Ideal.ofBits .f32 0x3F800000#32)))
            + Ideal.div (a.s1 (ix2 row ch)) (max (a.c1 (ix2 row (0 : Fin 1))) (Ideal.ofBits .f32 0x3F800000#32)))
            + Ideal.div (a.s2 (ix2 row ch)) (max (a.c2 (ix2 row (0 : Fin 1))) (Ideal.ofBits .f32 0x3F800000#32)))
          (Ideal.ofBits .f32 0x00000000#32) := by
  unfold fin k1_pay4
  simp only [maximumf_apply, addf_apply, divf_apply, broadcast_apply, shapeCast_self]
  rw [broadcastTo_column_apply, broadcastTo_column_apply, broadcastTo_column_apply]
  simp only [maximumf_apply, broadcast_apply]
  rfl

end Cert.KernelIdeal.R1

end
-- ==== Proof.R1Value.lean ====
/-
  The message-passing region's output array after its run is the layer's specification of the arrays it reads.

  Point (nb, eb) adds to node block nb's accumulators the edges of block eb that end in the block; after the last
  edge block they hold, per relation, the sum over ALL edges that end at each node of the block, the closing formula
  turns them into the output block, and the eight written-back blocks tile the output array.
-/
import proofs.«420560_j48172353192125_2_alg».proof.Proof.R1Dat
import proofs.«420560_j48172353192125_2_alg».proof.Proof.PayAt
import proofs.«420560_j48172353192125_2_alg».proof.Proof.PayFin
import proofs.«420560_j48172353192125_2_alg».proof.Proof.Spec
import Idealize.ShloMosaic.Lib.Pipeline.Value
import Idealize.ShloMosaic.Lib.ValueIdx
import Mathlib.Algebra.BigOperators.Group.Finset.Basic
import Mathlib.Algebra.BigOperators.Fin
import Mathlib.Data.Fintype.BigOperators
import Mathlib.Logic.Equiv.Fin.Basic

set_option maxRecDepth 16384

noncomputable section

open scoped BigOperators

namespace Cert.KernelIdeal.R1V

open Idealize.ShloMosaic Idealize.ShloMosaic.TcCoe Idealize.ShloMosaic.ValueIdx Idealize.SL.Sem
open Cert.KernelIdeal Cert.KernelIdeal.Gen Cert.KernelIdeal.R1

variable (V : (c : Dev nD) → (b : Ref sig .tc) → Buf (Elt Ideal) ((c : Thread nD τ).loc b))

/-! ## The printed index maps, decided once over the grid -/

/-- At point t the edge windows sit at block t mod 360, the node windows at block t div 360, the weight window at
    block 0, and the point's coordinates are (t div 360, t mod 360). -/
theorem idx_facts : ∀ t : Fin cfg1.N,
    (win1_0.index t (0 : Fin 2) = t.val % 360 ∧ win1_0.index t (1 : Fin 2) = 0)
    ∧ (win1_2.index t (0 : Fin 2) = t.val / 360 ∧ win1_2.index t (1 : Fin 2) = 0)
    ∧ win1_3.index t (0 : Fin 1) = t.val % 360
    ∧ win1_4.index t (0 : Fin 1) = t.val % 360
    ∧ (win1_5.index t (0 : Fin 2) = t.val / 360 ∧ win1_5.index t (1 : Fin 2) = 0)
    ∧ (win1_1.index t (0 : Fin 3) = 0 ∧ win1_1.index t (1 : Fin 3) = 0 ∧ win1_1.index t (2 : Fin 3) = 0)
    ∧ ((grid1.coords t 0).val = t.val / 360 ∧ (grid1.coords t 1).val = t.val % 360) :=
  (by decide +kernel : ∀ t : Fin grid1.N, _)

/-! ## The arrays the region reads, and its blocks as parts of them -/

abbrev Axs (c : Dev nD) : S737280x64.Idx → EReal := V c main_v12
abbrev Aw (c : Dev nD) : S3x64x64.Idx → EReal := V c main_arg6
abbrev Ah (c : Dev nD) : S16384x64.Idx → EReal := V c main_v5_1
abbrev Adst (c : Dev nD) : S737280.Idx → BitVec 32 := V c main_arg9
abbrev Aety (c : Dev nD) : S737280.Idx → BitVec 32 := V c main_arg10

theorem lt_N {n : Nat} (hn : n < cfg1.N) : n < 2880 := N_1 ▸ hn

/-- Edge e' of the point's edge block, as an edge. -/
theorem edge_lt {n : Nat} (hn : n < cfg1.N) (e' : Fin 2048) : n % 360 * 2048 + e'.val < 737280 := by
  have := lt_N hn; have := e'.isLt; omega

/-- Row `row` of node block nb, as a node. -/
theorem node_lt {n : Nat} (hn : n < cfg1.N) (row : Fin 2048) : n / 360 * 2048 + row.val < 16384 := by
  have := lt_N hn; have := row.isLt; omega

theorem xsB_apply (c : Dev nD) (n : Nat) (hn : n < cfg1.N) (e' : Fin 2048) (k : Fin 64) :
    xsB V c ⟨n, hn⟩ (ix2 e' k) = Axs V c (ix2 ⟨n % 360 * 2048 + e'.val, edge_lt hn e'⟩ k) := by
  obtain ⟨⟨e0, e1⟩, -⟩ := idx_facts ⟨n, hn⟩
  have e0' : win1_0.index ⟨n, hn⟩ (0 : Fin 2) = n % 360 := e0
  show Axs V c (((cfg1.win 0).blk ⟨n, hn⟩).view.emb (ix2 e' k)) = _
  refine congrArg (Axs V c) (funext fun a => Fin.ext ?_)
  match a with
  | ⟨0, _⟩ => show win1_0.index ⟨n, hn⟩ (0 : Fin 2) * 2048 + 1 * e'.val = n % 360 * 2048 + e'.val; omega
  | ⟨1, _⟩ => show win1_0.index ⟨n, hn⟩ (1 : Fin 2) * 64 + 1 * k.val = k.val; omega

theorem hB_apply (c : Dev nD) (n : Nat) (hn : n < cfg1.N) (row : Fin 2048) (ch : Fin 64) :
    hB V c ⟨n, hn⟩ (ix2 row ch) = Ah V c (ix2 ⟨n / 360 * 2048 + row.val, node_lt hn row⟩ ch) := by
  obtain ⟨-, ⟨e0, e1⟩, -⟩ := idx_facts ⟨n, hn⟩
  have e0' : win1_2.index ⟨n, hn⟩ (0 : Fin 2) = n / 360 := e0
  show Ah V c (((cfg1.win 2).blk ⟨n, hn⟩).view.emb (ix2 row ch)) = _
  refine congrArg (Ah V c) (funext fun a => Fin.ext ?_)
  match a with
  | ⟨0, _⟩ => show win1_2.index ⟨n, hn⟩ (0 : Fin 2) * 2048 + 1 * row.val = n / 360 * 2048 + row.val; omega
  | ⟨1, _⟩ => show win1_2.index ⟨n, hn⟩ (1 : Fin 2) * 64 + 1 * ch.val = ch.val; omega

theorem dstB_apply (c : Dev nD) (n : Nat) (hn : n < cfg1.N) (e' : Fin 2048) :
    dstB V c ⟨n, hn⟩ (ix1 e') = Adst V c (ix1 ⟨n % 360 * 2048 + e'.val, edge_lt hn e'⟩) := by
  obtain ⟨-, -, e0, -⟩ := idx_facts ⟨n, hn⟩
  have e0' : win1_3.index ⟨n, hn⟩ (0 : Fin 1) = n % 360 := e0
  show Adst V c (((cfg1.win 3).blk ⟨n, hn⟩).view.emb (ix1 e')) = _
  refine congrArg (Adst V c) (funext fun a => Fin.ext ?_)
  match a with
  | ⟨0, _⟩ => show win1_3.index ⟨n, hn⟩ (0 : Fin 1) * 2048 + 1 * e'.val = n % 360 * 2048 + e'.val; omega

theorem etyB_apply (c : Dev nD) (n : Nat) (hn : n < cfg1.N) (e' : Fin 2048) :
    etyB V c ⟨n, hn⟩ (ix1 e') = Aety V c (ix1 ⟨n % 360 * 2048 + e'.val, edge_lt hn e'⟩) := by
  obtain ⟨-, -, -, e0, -⟩ := idx_facts ⟨n, hn⟩
  have e0' : win1_4.index ⟨n, hn⟩ (0 : Fin 1) = n % 360 := e0
  show Aety V c (((cfg1.win 4).blk ⟨n, hn⟩).view.emb (ix1 e')) = _
  refine congrArg (Aety V c) (funext fun a => Fin.ext ?_)
  match a with
  | ⟨0, _⟩ => show win1_4.index ⟨n, hn⟩ (0 : Fin 1) * 2048 + 1 * e'.val = n % 360 * 2048 + e'.val; omega

theorem wB_eq (c : Dev nD) (t : Fin cfg1.N) : wB V c t = Aw V c := by
  obtain ⟨-, -, -, -, -, ⟨e0, e1, e2⟩, -⟩ := idx_facts t
  funext j
  show Aw V c (((cfg1.win 1).blk t).view.emb j) = Aw V c j
  refine congrArg (Aw V c) (funext fun a => Fin.ext ?_)
  match a with
  | ⟨0, _⟩ => show win1_1.index t (0 : Fin 3) * 3 + 1 * (j 0).val = (j 0).val; omega
  | ⟨1, _⟩ => show win1_1.index t (1 : Fin 3) * 64 + 1 * (j 1).val = (j 1).val; omega
  | ⟨2, _⟩ => show win1_1.index t (2 : Fin 3) * 64 + 1 * (j 2).val = (j 2).val; omega

/-! ## One edge block's contribution, over the whole arrays -/

/-- What edge e adds to relation r's message sum at node p, channel ch (zero past the last edge). -/
def GS (c : Dev nD) (r : Fin 3) (p : Nat) (ch : Fin 64) (e : Nat) : EReal :=
  if h : e < 737280 then
    (if (Adst V c (ix1 (⟨e, h⟩ : Fin 737280))).toInt = (p : Int)
      then Cert.Spec.D (Axs V c) (Aw V c) r ⟨e, h⟩ ch * Cert.Spec.mk (Aety V c) r ⟨e, h⟩ else 0)
  else 0

/-- What edge e adds to relation r's edge count at node p. -/
def GC (c : Dev nD) (r : Fin 3) (p : Nat) (e : Nat) : EReal :=
  if h : e < 737280 then
    (if (Adst V c (ix1 (⟨e, h⟩ : Fin 737280))).toInt = (p : Int) then Cert.Spec.mk (Aety V c) r ⟨e, h⟩ else 0)
  else 0

theorem msgB_eq (c : Dev nD) (n : Nat) (hn : n < cfg1.N) (r : Fin 3) (e' : Fin 2048) (ch : Fin 64) :
    msgB (xsB V c ⟨n, hn⟩) (wB V c ⟨n, hn⟩) r e' ch
      = Cert.Spec.D (Axs V c) (Aw V c) r ⟨n % 360 * 2048 + e'.val, edge_lt hn e'⟩ ch := by
  unfold msgB Cert.Spec.D
  rw [wB_eq]
  exact Finset.sum_congr rfl fun k _ => by rw [xsB_apply]

theorem mkB_eq (c : Dev nD) (n : Nat) (hn : n < cfg1.N) (r : Fin 3) (e' : Fin 2048) :
    mkB (etyB V c ⟨n, hn⟩) r e' = Cert.Spec.mk (Aety V c) r ⟨n % 360 * 2048 + e'.val, edge_lt hn e'⟩ := by
  unfold mkB Cert.Spec.mk
  rw [etyB_apply]

theorem coord0 (n : Nat) (hn : n < cfg1.N) : (grid1.coords ⟨n, hn⟩ 0).val = n / 360 :=
  (idx_facts ⟨n, hn⟩).2.2.2.2.2.2.1

theorem addS_eq (c : Dev nD) (n : Nat) (hn : n < cfg1.N) (r : Fin 3) (row : Fin 2048) (ch : Fin 64) :
    addS (grid1.coords ⟨n, hn⟩) (xsB V c ⟨n, hn⟩) (wB V c ⟨n, hn⟩) (dstB V c ⟨n, hn⟩) (etyB V c ⟨n, hn⟩) r row ch
      = ∑ e' : Fin 2048, GS V c r (n / 360 * 2048 + row.val) ch (n % 360 * 2048 + e'.val) := by
  unfold addS
  refine Finset.sum_congr rfl fun e' _ => ?_
  unfold GS
  rw [dif_pos (edge_lt hn e'), dstB_apply, msgB_eq, mkB_eq, coord0]

theorem addC_eq (c : Dev nD) (n : Nat) (hn : n < cfg1.N) (r : Fin 3) (row : Fin 2048) :
    addC (grid1.coords ⟨n, hn⟩) (dstB V c ⟨n, hn⟩) (etyB V c ⟨n, hn⟩) r row
      = ∑ e' : Fin 2048, GC V c r (n / 360 * 2048 + row.val) (n % 360 * 2048 + e'.val) := by
  unfold addC
  refine Finset.sum_congr rfl fun e' _ => ?_
  unfold GC
  rw [dif_pos (edge_lt hn e'), dstB_apply, mkB_eq, coord0]

/-! ## The accumulators by relation -/

def accS (a : Acc Ideal) (r : Fin 3) : Vec Ideal S2048x64 .f32 := match r with | 0 => a.s0 | 1 => a.s1 | 2 => a.s2
def accC (a : Acc Ideal) (r : Fin 3) : Vec Ideal S2048x1 .f32 := match r with | 0 => a.c0 | 1 => a.c1 | 2 => a.c2

theorem accS_step (i : grid1.Coords) (a : Acc Ideal) (xs : Vec Ideal S2048x64 .f32) (w : Vec Ideal S3x64x64 .f32)
    (dst ety : Vec Ideal S2048 .i32) (r : Fin 3) (row : Fin 2048) (ch : Fin 64) :
    accS (step i a xs w dst ety) r (ix2 row ch) = accS a r (ix2 row ch) + addS i xs w dst ety r row ch := by
  match r with
  | 0 => exact step_s0_apply i a xs w dst ety row ch
  | 1 => exact step_s1_apply i a xs w dst ety row ch
  | 2 => exact step_s2_apply i a xs w dst ety row ch

theorem accC_step (i : grid1.Coords) (a : Acc Ideal) (xs : Vec Ideal S2048x64 .f32) (w : Vec Ideal S3x64x64 .f32)
    (dst ety : Vec Ideal S2048 .i32) (r : Fin 3) (row : Fin 2048) :
    accC (step i a xs w dst ety) r (ix2 row (0 : Fin 1)) = accC a r (ix2 row (0 : Fin 1)) + addC i dst ety r row := by
  match r with
  | 0 => exact step_c0_apply i a xs w dst ety row
  | 1 => exact step_c1_apply i a xs w dst ety row
  | 2 => exact step_c2_apply i a xs w dst ety row

theorem accS_zero (r : Fin 3) (j : S2048x64.Idx) : accS (acc0 (F := Ideal)) r j = 0 := by
  match r with
  | 0 => exact acc0_s0 j
  | 1 => exact acc0_s1 j
  | 2 => exact acc0_s2 j

theorem accC_zero (r : Fin 3) (j : S2048x1.Idx) : accC (acc0 (F := Ideal)) r j = 0 := by
  match r with
  | 0 => exact acc0_c0 j
  | 1 => exact acc0_c1 j
  | 2 => exact acc0_c2 j

/-! ## The invariant: after point (nb, eb) the accumulators hold the contributions of edge blocks 0 … eb -/

theorem inv_S (c : Dev nD) : ∀ (n : Nat) (hn : n < cfg1.N) (nb eb : Nat), n / 360 = nb → n % 360 = eb →
    ∀ (r : Fin 3) (row : Fin 2048) (ch : Fin 64),
      accS (accAt V c n hn) r (ix2 row ch)
        = ∑ b ∈ Finset.range (eb + 1), ∑ e' : Fin 2048, GS V c r (nb * 2048 + row.val) ch (b * 2048 + e'.val)
  | 0, hn, nb, eb, h1, h2, r, row, ch => by
    obtain rfl : nb = 0 := by omega
    obtain rfl : eb = 0 := by omega
    show accS (step (grid1.coords ⟨0, hn⟩) acc0 (xsB V c ⟨0, hn⟩) (wB V c ⟨0, hn⟩) (dstB V c ⟨0, hn⟩) (etyB V c ⟨0, hn⟩)) r (ix2 row ch) = _
    rw [accS_step, accS_zero, zero_add, addS_eq, Finset.sum_range_one]
  | n + 1, hn, nb, eb, h1, h2, r, row, ch => by
    show accS (step (grid1.coords ⟨n + 1, hn⟩) (if (n + 1) % 360 = 0 then acc0 else accAt V c n (Nat.lt_of_succ_lt hn))
      (xsB V c ⟨n + 1, hn⟩) (wB V c ⟨n + 1, hn⟩) (dstB V c ⟨n + 1, hn⟩) (etyB V c ⟨n + 1, hn⟩)) r (ix2 row ch) = _
    rw [accS_step, addS_eq, h1, h2]
    by_cases h0 : eb = 0
    · subst h0
      rw [if_pos rfl, accS_zero, zero_add, Finset.sum_range_one]
    · rw [if_neg h0]
      obtain ⟨eb', rfl⟩ : ∃ eb', eb = eb' + 1 := ⟨eb - 1, by omega⟩
      rw [inv_S c n (Nat.lt_of_succ_lt hn) nb eb' (by omega) (by omega) r row ch, Finset.sum_range_succ (n := eb' + 1)]

theorem inv_C (c : Dev nD) : ∀ (n : Nat) (hn : n < cfg1.N) (nb eb : Nat), n / 360 = nb → n % 360 = eb →
    ∀ (r : Fin 3) (row : Fin 2048),
      accC (accAt V c n hn) r (ix2 row (0 : Fin 1))
        = ∑ b ∈ Finset.range (eb + 1), ∑ e' : Fin 2048, GC V c r (nb * 2048 + row.val) (b * 2048 + e'.val)
  | 0, hn, nb, eb, h1, h2, r, row => by
    obtain rfl : nb = 0 := by omega
    obtain rfl : eb = 0 := by omega
    show accC (step (grid1.coords ⟨0, hn⟩) acc0 (xsB V c ⟨0, hn⟩) (wB V c ⟨0, hn⟩) (dstB V c ⟨0, hn⟩) (etyB V c ⟨0, hn⟩)) r (ix2 row (0 : Fin 1)) = _
    rw [accC_step, accC_zero, zero_add, addC_eq, Finset.sum_range_one]
  | n + 1, hn, nb, eb, h1, h2, r, row => by
    show accC (step (grid1.coords ⟨n + 1, hn⟩) (if (n + 1) % 360 = 0 then acc0 else accAt V c n (Nat.lt_of_succ_lt hn))
      (xsB V c ⟨n + 1, hn⟩) (wB V c ⟨n + 1, hn⟩) (dstB V c ⟨n + 1, hn⟩) (etyB V c ⟨n + 1, hn⟩)) r (ix2 row (0 : Fin 1)) = _
    rw [accC_step, addC_eq, h1, h2]
    by_cases h0 : eb = 0
    · subst h0
      rw [if_pos rfl, accC_zero, zero_add, Finset.sum_range_one]
    · rw [if_neg h0]
      obtain ⟨eb', rfl⟩ : ∃ eb', eb = eb' + 1 := ⟨eb - 1, by omega⟩
      rw [inv_C c n (Nat.lt_of_succ_lt hn) nb eb' (by omega) (by omega) r row, Finset.sum_range_succ (n := eb' + 1)]

/-! ## All 360 edge blocks: every edge once -/

/-- 360 blocks of 2048 edges are the 737280 edges, block by block. -/
theorem sum_blocks (f : Nat → EReal) :
    ∑ b ∈ Finset.range 360, ∑ e' : Fin 2048, f (b * 2048 + e'.val) = ∑ e : Fin 737280, f e.val := by
  have h1 : ∑ e : Fin 737280, f e.val = ∑ x : Fin 360 × Fin 2048, f (finProdFinEquiv x).val :=
    (Equiv.sum_comp (finProdFinEquiv (m := 360) (n := 2048)) (fun e : Fin (360 * 2048) => f e.val)).symm
  rw [h1, Fintype.sum_prod_type, Finset.sum_range fun b => ∑ e' : Fin 2048, f (b * 2048 + e'.val)]
  refine Finset.sum_congr rfl fun b _ => Finset.sum_congr rfl fun e' _ => ?_
  show f (b.val * 2048 + e'.val) = f (e'.val + 2048 * b.val)
  rw [Nat.mul_comm, Nat.add_comm]

theorem msum_eq (c : Dev nD) (r : Fin 3) (p : Nat) (hp : p < 16384) (ch : Fin 64) :
    ∑ b ∈ Finset.range (359 + 1), ∑ e' : Fin 2048, GS V c r p ch (b * 2048 + e'.val)
      = Cert.Spec.msum (Axs V c) (Aw V c) (Adst V c) (Aety V c) r ⟨p, hp⟩ ch := by
  show ∑ b ∈ Finset.range 360, ∑ e' : Fin 2048, GS V c r p ch (b * 2048 + e'.val) = _
  rw [sum_blocks (GS V c r p ch)]
  unfold Cert.Spec.msum Cert.Spec.into
  rw [Finset.sum_filter]
  refine Finset.sum_congr rfl fun e _ => ?_
  unfold GS
  rw [dif_pos e.isLt]

theorem cnt_eq (c : Dev nD) (r : Fin 3) (p : Nat) (hp : p < 16384) :
    ∑ b ∈ Finset.range (359 + 1), ∑ e' : Fin 2048, GC V c r p (b * 2048 + e'.val)
      = Cert.Spec.cnt (Adst V c) (Aety V c) r ⟨p, hp⟩ := by
  show ∑ b ∈ Finset.range 360, ∑ e' : Fin 2048, GC V c r p (b * 2048 + e'.val) = _
  rw [sum_blocks (GC V c r p)]
  unfold Cert.Spec.cnt Cert.Spec.into
  rw [Finset.sum_filter]
  refine Finset.sum_congr rfl fun e _ => ?_
  unfold GC
  rw [dif_pos e.isLt]

/-! ## What the last edge block of a node block writes back -/

/-- The layer's specification of the arrays the region finds. -/
abbrev Gout (c : Dev nD) : S16384x64.Idx → EReal :=
  Cert.Spec.out (Ah V c) (Axs V c) (Aw V c) (Adst V c) (Aety V c)

theorem w5_emb (n : Nat) (hn : n < cfg1.N) (row : Fin 2048) (ch : Fin 64) :
    ((cfg1.win 5).blk ⟨n, hn⟩).view.emb (ix2 row ch) = (ix2 ⟨n / 360 * 2048 + row.val, node_lt hn row⟩ ch : S16384x64.Idx) := by
  obtain ⟨-, -, -, -, ⟨e0, e1⟩, -⟩ := idx_facts ⟨n, hn⟩
  have e0' : win1_5.index ⟨n, hn⟩ (0 : Fin 2) = n / 360 := e0
  funext a; apply Fin.ext
  match a with
  | ⟨0, _⟩ => show win1_5.index ⟨n, hn⟩ (0 : Fin 2) * 2048 + 1 * row.val = n / 360 * 2048 + row.val; omega
  | ⟨1, _⟩ => show win1_5.index ⟨n, hn⟩ (1 : Fin 2) * 64 + 1 * ch.val = ch.val; omega

theorem flushed_eq (c : Dev nD) (t : Fin cfg1.N) (hf : t.val % 360 = 359) :
    (dat1 (F := Ideal) V c).flushed 5 t = ((cfg1.win 5).blk t).view.read (Elt Ideal) (Gout V c) := by
  obtain ⟨n, hn⟩ := t
  have hf' : n % 360 = 359 := hf
  show (cfg1.win 5).cut (grid1.coords ⟨n, hn⟩) ((dat1 (F := Ideal) V c).after 5 ⟨n, hn⟩) = _
  rw [after1_5]
  funext j
  obtain ⟨row, ch, rfl⟩ : ∃ (row : Fin 2048) (ch : Fin 64), j = ix2 row ch := ⟨j 0, j 1, eq_ix2 j⟩
  show fin (hB V c ⟨n, hn⟩) (accAt V c n hn) (ix2 row ch) = Gout V c (((cfg1.win 5).blk ⟨n, hn⟩).view.emb (ix2 row ch))
  rw [w5_emb, fin_apply, hB_apply]
  have s0 : (accAt V c n hn).s0 (ix2 row ch) = _ := (inv_S V c n hn (n / 360) 359 rfl hf' 0 row ch).trans (msum_eq V c 0 _ (node_lt hn row) ch)
  have s1 : (accAt V c n hn).s1 (ix2 row ch) = _ := (inv_S V c n hn (n / 360) 359 rfl hf' 1 row ch).trans (msum_eq V c 1 _ (node_lt hn row) ch)
  have s2 : (accAt V c n hn).s2 (ix2 row ch) = _ := (inv_S V c n hn (n / 360) 359 rfl hf' 2 row ch).trans (msum_eq V c 2 _ (node_lt hn row) ch)
  have c0 : (accAt V c n hn).c0 (ix2 row (0 : Fin 1)) = _ := (inv_C V c n hn (n / 360) 359 rfl hf' 0 row).trans (cnt_eq V c 0 _ (node_lt hn row))
  have c1 : (accAt V c n hn).c1 (ix2 row (0 : Fin 1)) = _ := (inv_C V c n hn (n / 360) 359 rfl hf' 1 row).trans (cnt_eq V c 1 _ (node_lt hn row))
  have c2 : (accAt V c n hn).c2 (ix2 row (0 : Fin 1)) = _ := (inv_C V c n hn (n / 360) 359 rfl hf' 2 row).trans (cnt_eq V c 2 _ (node_lt hn row))
  rw [s0, s1, s2, c0, c1, c2]
  rfl

/-! ## The eight written-back blocks tile the output -/

theorem mem_blk5 (t : Fin cfg1.N) (i : S16384x64.Idx) :
    i ∈ ((cfg1.win 5).blk t).view.set ↔ ∀ a : Fin 2, win1_5.index t a * S2048x64.size a ≤ (i a).val ∧ (i a).val < win1_5.index t a * S2048x64.size a + S2048x64.size a := by
  show i ∈ ((View.whole main_v13).slice (win1_5.rect t)).set ↔ _
  rw [View.set_slice_whole, Rect.mem_set_unit]
  exact Iff.rfl

theorem cover (i : S16384x64.Idx) : ∃ t : Fin cfg1.N, (cfg1.win 5).flush t = true ∧ i ∈ ((cfg1.win 5).blk t).view.set := by
  have hi0 : (i 0).val < 16384 := (i 0).isLt
  have hi1 : (i 1).val < 64 := (i 1).isLt
  have hN : (i 0).val / 2048 * 360 + 359 < cfg1.N := by rw [show cfg1.N = 2880 from N_1]; omega
  refine ⟨⟨(i 0).val / 2048 * 360 + 359, hN⟩, (flush1_5 _).mpr (by show ((i 0).val / 2048 * 360 + 359) % 360 = 359; omega), ?_⟩
  obtain ⟨-, -, -, -, ⟨e0, e1⟩, -⟩ := idx_facts ⟨(i 0).val / 2048 * 360 + 359, hN⟩
  have e0' : win1_5.index ⟨(i 0).val / 2048 * 360 + 359, hN⟩ (0 : Fin 2) = ((i 0).val / 2048 * 360 + 359) / 360 := e0
  rw [mem_blk5]
  intro a
  match a with
  | ⟨0, _⟩ =>
    show win1_5.index ⟨(i 0).val / 2048 * 360 + 359, hN⟩ (0 : Fin 2) * 2048 ≤ (i 0).val ∧ (i 0).val < win1_5.index ⟨(i 0).val / 2048 * 360 + 359, hN⟩ (0 : Fin 2) * 2048 + 2048
    omega
  | ⟨1, _⟩ =>
    show win1_5.index ⟨(i 0).val / 2048 * 360 + 359, hN⟩ (1 : Fin 2) * 64 ≤ (i 1).val ∧ (i 1).val < win1_5.index ⟨(i 0).val / 2048 * 360 + 359, hN⟩ (1 : Fin 2) * 64 + 64
    omega

/-- The output array after the region: the specification of the root transform, the gathered rows, the relation
    weights, the destinations and the relation types as the region finds them. -/
theorem arr1_5 (c : Dev nD) :
    (dat1 (F := Ideal) V c).arrAt 5 cfg1.N
      = Cert.Spec.out (V c main_v5_1) (V c main_v12) (V c main_arg6) (V c main_arg9) (V c main_arg10) :=
  (dat1 (F := Ideal) V c).arrAt_eq_of_cover 5 (Gout V c) (fun t hf => flushed_eq V c t ((flush1_5 t).mp hf)) cover

end Cert.KernelIdeal.R1V

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.RefValue.lean ====
/-
  The reference program's result is the specification of its own intermediate arrays.

  Reading the reference one operation at a time at an index (p, ch): the projected features are feats · W1 + b1
  (ref_x_eq) and the root transform is x · Wroot + bconv (ref_h_eq). For each relation r the mask is the one-bit test
  "the edge's type is r" read as one or zero (mask_eq, maskR); the message along edge e is the product of the gathered
  row with the r-th slice of Wrel, Σ_k xs[e, k] · Wrel[r, k, ch], times the mask (msgR: the slice and its reshape read
  Wrel at (r, k, ch), since (k · 64 + ch) / 64 % 64 = k and (k · 64 + ch) % 64 = ch below 64). The accumulating row
  scatter of the messages into zeros, one destination per edge, is the sum over the edges whose destination, read
  signed, is p; the flat scatter of the mask into zeros is their count; the quotient by max(count, 1) is the mean
  (mean_of_reads, meanR). The layer adds the three means to the root transform in the order r = 0, 1, 2 and clips below
  at zero (ref_eq). The concatenated features and the gathered rows stay as the arrays the program computes.
-/
import proofs.«420560_j48172353192125_2_alg».proof.Proof.Gen.ReferenceIdeal.Read
import proofs.«420560_j48172353192125_2_alg».proof.Proof.Spec
import proofs.«420560_j48172353192125_2_alg».proof.Proof.LibScatterSum

noncomputable section

open scoped BigOperators

namespace Cert.ReferenceIdeal.RefValue

open Cert.ReferenceIdeal Idealize.ShloMosaic Idealize.ShloMosaic.ValueIdx

theorem ref_x_eq (x0 : (⟨S4x16x16x16, .f32⟩ : BufTy).Contents (Elt Ideal)) (x1 : (⟨S1, .f32⟩ : BufTy).Contents (Elt Ideal))
    (x2 : (⟨S16384x4, .f32⟩ : BufTy).Contents (Elt Ideal)) (x3 : (⟨S6x64, .f32⟩ : BufTy).Contents (Elt Ideal))
    (x4 : (⟨S64, .f32⟩ : BufTy).Contents (Elt Ideal)) :
    Read.val_main_v8 (F := Ideal) x0 x1 x2 x3 x4
      = Cert.Spec.X (Read.val_main_v4 (F := Ideal) x0 x1 x2) x3 x4 := by
  funext i
  obtain ⟨p, ch, rfl⟩ : ∃ p ch, i = ix2 p ch := ⟨i 0, i 1, eq_ix2 i⟩
  rw [Read.val_main_v8_apply, Read.val_main_v5_apply, Read.val_main_v7_apply, Read.val_main_v6_apply]
  have el : ∀ k : Fin 6, Read.lidx_main_v5 (ix2 p ch) k = ix2 p k := fun k => funext fun a =>
    match a with | ⟨0, _⟩ => rfl | ⟨1, _⟩ => rfl
  have er : ∀ k : Fin 6, Read.ridx_main_v5 (ix2 p ch) k = ix2 k ch := fun k => funext fun a =>
    match a with | ⟨0, _⟩ => rfl | ⟨1, _⟩ => rfl
  have eb : Read.idx_main_v6 (Read.idx_main_v7 (ix2 p ch)) = ix1 ch := funext fun a =>
    match a with | ⟨0, _⟩ => rfl
  simp only [el, er, eb]
  rfl

/-- The one-bit equality test of two words, read as a number: one when they agree, zero otherwise. -/
theorem mask_eq (a c : BitVec 32) :
    FloatOps.uitofp (F := Ideal) .f32 (IntOp.cmpi .eq a c) = if a = c then (1 : EReal) else 0 := by
  show (((IntOp.cmpi .eq a c).toNat : ℝ) : EReal) = _
  by_cases h : a = c
  · subst h
    have e : IntOp.cmpi .eq a a = 1#1 := by unfold IntOp.cmpi; simp
    rw [if_pos rfl, e]; simp
  · have e : IntOp.cmpi .eq a c = 0#1 := by
      unfold IntOp.cmpi
      show BitVec.ofBool (a == c) = 0#1
      rw [beq_eq_false_iff_ne.2 h]; rfl
    rw [if_neg h, e]; simp

/-- One relation's mean message from the reads of its arrays: the row scatter of the masked messages into zeros is the
    summed messages, the flat scatter of the mask into zeros is the count, and their quotient (count at least one) is
    the mean. -/
theorem mean_of_reads (xs : Spec.TE64.Idx → EReal) (Wrel : Spec.T3x64x64.Idx → EReal) (dst ety : Spec.TE.Idx → BitVec 32)
    (r : Fin 3)
    (z2 : FVec Ideal S16384x64 .f32) (z1 : FVec Ideal S16384 .f32) (i2 i1 : IVec S737280x1 32)
    (msg : FVec Ideal S737280x64 .f32) (mask : FVec Ideal S737280 .f32)
    (hz2 : ∀ i, z2 i = 0) (hz1 : ∀ i, z1 i = 0)
    (hi2 : ∀ n : Fin 737280, i2 (ix2 n (0 : Fin 1)) = dst (ix1 n))
    (hi1 : ∀ n : Fin 737280, i1 (ix2 n (0 : Fin 1)) = dst (ix1 n))
    (hmsg : ∀ (e : Fin 737280) (ch : Fin 64), msg (ix2 e ch) = Spec.D xs Wrel r e ch * Spec.mk ety r e)
    (hmask : ∀ e : Fin 737280, mask (ix1 e) = Spec.mk ety r e)
    (p : Fin 16384) (ch : Fin 64) :
    Ideal.div (Host.scatterAdd (F := Ideal) (φ := .f32) scatter_S16384x64_S737280x1_S737280x64_1_0_0_1 z2 i2 msg (ix2 p ch))
        (max (Host.scatterAdd (F := Ideal) (φ := .f32) scatter_S16384_S737280x1_S737280_n_0_0_1 z1 i1 mask (ix1 p))
          (Ideal.ofBits .f32 0x3F800000#32))
      = Spec.mean xs Wrel dst ety r p ch := by
  have hrows : Host.scatterAdd (F := Ideal) (φ := .f32) scatter_S16384x64_S737280x1_S737280x64_1_0_0_1 z2 i2 msg (ix2 p ch)
      = Spec.msum xs Wrel dst ety r p ch := by
    show Ideal.hostScatterAdd scatter_S16384x64_S737280x1_S737280x64_1_0_0_1 z2 i2 msg (ix2 p ch) = _
    rw [ScatterSum.scatterAdd_rows_apply _ rfl rfl rfl rfl, hz2, zero_add]
    unfold Spec.msum Spec.into
    simp only [hi2, hmsg]
  have hflat : Host.scatterAdd (F := Ideal) (φ := .f32) scatter_S16384_S737280x1_S737280_n_0_0_1 z1 i1 mask (ix1 p)
      = Spec.cnt dst ety r p := by
    show Ideal.hostScatterAdd scatter_S16384_S737280x1_S737280_n_0_0_1 z1 i1 mask (ix1 p) = _
    rw [ScatterSum.scatterAdd_flat_apply _ rfl rfl rfl rfl, hz1, zero_add]
    unfold Spec.cnt Spec.into
    simp only [hi1, hmask]
  rw [hrows, hflat]
  rfl

section Relations

variable (x0 : (⟨S4x16x16x16, .f32⟩ : BufTy).Contents (Elt Ideal)) (x1 : (⟨S1, .f32⟩ : BufTy).Contents (Elt Ideal))
  (x2 : (⟨S16384x4, .f32⟩ : BufTy).Contents (Elt Ideal)) (x3 : (⟨S6x64, .f32⟩ : BufTy).Contents (Elt Ideal))
  (x4 : (⟨S64, .f32⟩ : BufTy).Contents (Elt Ideal)) (x5 : (⟨S64x64, .f32⟩ : BufTy).Contents (Elt Ideal))
  (x6 : (⟨S3x64x64, .f32⟩ : BufTy).Contents (Elt Ideal)) (x7 : (⟨S64, .f32⟩ : BufTy).Contents (Elt Ideal))
  (x8 x9 x10 : (⟨S737280, .i32⟩ : BufTy).Contents (Elt Ideal))

/-! ### Relation 0 -/

theorem mask0 (e : Fin 737280) : Read.val_main_v22 (F := Ideal) x10 (ix1 e) = Spec.mk x10 0 e := by
  rw [Read.val_main_v22_apply, Read.val_main_v21_apply, Read.val_main_v20_apply, Read.val_main_c_1_apply, mask_eq]
  rfl

theorem msg0 (e : Fin 737280) (ch : Fin 64) :
    Read.val_main_v28 (F := Ideal) x0 x1 x2 x3 x4 x6 x8 x10 (ix2 e ch)
      = Spec.D (Read.val_main_v19 (F := Ideal) x0 x1 x2 x3 x4 x8) x6 0 e ch * Spec.mk x10 0 e := by
  rw [Read.val_main_v28_apply, Read.val_main_v25_apply, Read.val_main_v27_apply, Read.val_main_v26_apply]
  have el : ∀ k : Fin 64, Read.lidx_main_v25 (ix2 e ch) k = ix2 e k := fun k => funext fun a =>
    match a with | ⟨0, _⟩ => rfl | ⟨1, _⟩ => rfl
  have er : ∀ k : Fin 64,
      Read.val_main_v24 (F := Ideal) x6 (Read.ridx_main_v25 (ix2 e ch) k) = x6 (ix3 0 k ch) := fun k => by
    rw [Read.val_main_v24_apply, Read.val_main_v23_apply]
    refine congrArg x6 (funext fun a => ?_)
    have hk := k.isLt
    have hc := ch.isLt
    match a with
    | ⟨0, _⟩ => rfl
    | ⟨1, _⟩ => exact Fin.ext (by show (k.val * 64 + ch.val) / 64 % 64 = k.val; omega)
    | ⟨2, _⟩ => exact Fin.ext (by show (k.val * 64 + ch.val) % 64 = ch.val; omega)
  have em : Read.idx_main_v26 (Read.idx_main_v27 (ix2 e ch)) = ix1 e := funext fun a =>
    match a with | ⟨0, _⟩ => rfl
  rw [em, mask0]
  simp only [el, er]
  rfl

theorem mean0 (p : Fin 16384) (ch : Fin 64) :
    Read.val_main_v39 (F := Ideal) x0 x1 x2 x3 x4 x6 x8 x9 x10 (ix2 p ch)
      = Spec.mean (Read.val_main_v19 (F := Ideal) x0 x1 x2 x3 x4 x8) x6 x9 x10 0 p ch := by
  rw [Read.val_main_v39_apply, Read.val_main_v38_apply, Read.val_main_v37_apply, Read.val_main_v36_apply,
    Read.val_main_v35_apply, Read.val_main_cst_4_apply]
  have ei : Read.idx_main_v37 (Read.idx_main_v38 (ix2 p ch)) = ix1 p := funext fun a =>
    match a with | ⟨0, _⟩ => rfl
  rw [ei]
  unfold Read.val_main_v31 Read.val_main_v34
  exact mean_of_reads _ x6 x9 x10 0 _ _ _ _ _ _
    (fun i => by rw [Read.val_main_v29_apply, Read.val_main_cst_2_apply]; exact Ideal.ofBits_zero_f32)
    (fun i => by rw [Read.val_main_v32_apply, Read.val_main_cst_3_apply]; exact Ideal.ofBits_zero_f32)
    (fun n => by
      rw [Read.val_main_v30_apply]
      exact congrArg x9 (funext fun a => match a with | ⟨0, _⟩ => rfl))
    (fun n => by
      rw [Read.val_main_v33_apply]
      exact congrArg x9 (funext fun a => match a with | ⟨0, _⟩ => rfl))
    (msg0 x0 x1 x2 x3 x4 x6 x8 x10) (mask0 x10) p ch

/-! ### Relation 1 -/

theorem mask1 (e : Fin 737280) : Read.val_main_v43 (F := Ideal) x10 (ix1 e) = Spec.mk x10 1 e := by
  rw [Read.val_main_v43_apply, Read.val_main_v42_apply, Read.val_main_v41_apply, Read.val_main_c_5_apply, mask_eq]
  rfl

theorem msg1 (e : Fin 737280) (ch : Fin 64) :
    Read.val_main_v49 (F := Ideal) x0 x1 x2 x3 x4 x6 x8 x10 (ix2 e ch)
      = Spec.D (Read.val_main_v19 (F := Ideal) x0 x1 x2 x3 x4 x8) x6 1 e ch * Spec.mk x10 1 e := by
  rw [Read.val_main_v49_apply, Read.val_main_v46_apply, Read.val_main_v48_apply, Read.val_main_v47_apply]
  have el : ∀ k : Fin 64, Read.lidx_main_v46 (ix2 e ch) k = ix2 e k := fun k => funext fun a =>
    match a with | ⟨0, _⟩ => rfl | ⟨1, _⟩ => rfl
  have er : ∀ k : Fin 64,
      Read.val_main_v45 (F := Ideal) x6 (Read.ridx_main_v46 (ix2 e ch) k) = x6 (ix3 1 k ch) := fun k => by
    rw [Read.val_main_v45_apply, Read.val_main_v44_apply]
    refine congrArg x6 (funext fun a => ?_)
    have hk := k.isLt
    have hc := ch.isLt
    match a with
    | ⟨0, _⟩ => rfl
    | ⟨1, _⟩ => exact Fin.ext (by show (k.val * 64 + ch.val) / 64 % 64 = k.val; omega)
    | ⟨2, _⟩ => exact Fin.ext (by show (k.val * 64 + ch.val) % 64 = ch.val; omega)
  have em : Read.idx_main_v47 (Read.idx_main_v48 (ix2 e ch)) = ix1 e := funext fun a =>
    match a with | ⟨0, _⟩ => rfl
  rw [em, mask1]
  simp only [el, er]
  rfl

theorem mean1 (p : Fin 16384) (ch : Fin 64) :
    Read.val_main_v60 (F := Ideal) x0 x1 x2 x3 x4 x6 x8 x9 x10 (ix2 p ch)
      = Spec.mean (Read.val_main_v19 (F := Ideal) x0 x1 x2 x3 x4 x8) x6 x9 x10 1 p ch := by
  rw [Read.val_main_v60_apply, Read.val_main_v59_apply, Read.val_main_v58_apply, Read.val_main_v57_apply,
    Read.val_main_v56_apply, Read.val_main_cst_8_apply]
  have ei : Read.idx_main_v58 (Read.idx_main_v59 (ix2 p ch)) = ix1 p := funext fun a =>
    match a with | ⟨0, _⟩ => rfl
  rw [ei]
  unfold Read.val_main_v52 Read.val_main_v55
  exact mean_of_reads _ x6 x9 x10 1 _ _ _ _ _ _
    (fun i => by rw [Read.val_main_v50_apply, Read.val_main_cst_6_apply]; exact Ideal.ofBits_zero_f32)
    (fun i => by rw [Read.val_main_v53_apply, Read.val_main_cst_7_apply]; exact Ideal.ofBits_zero_f32)
    (fun n => by
      rw [Read.val_main_v51_apply]
      exact congrArg x9 (funext fun a => match a with | ⟨0, _⟩ => rfl))
    (fun n => by
      rw [Read.val_main_v54_apply]
      exact congrArg x9 (funext fun a => match a with | ⟨0, _⟩ => rfl))
    (msg1 x0 x1 x2 x3 x4 x6 x8 x10) (mask1 x10) p ch

/-! ### Relation 2 -/

theorem mask2 (e : Fin 737280) : Read.val_main_v64 (F := Ideal) x10 (ix1 e) = Spec.mk x10 2 e := by
  rw [Read.val_main_v64_apply, Read.val_main_v63_apply, Read.val_main_v62_apply, Read.val_main_c_9_apply, mask_eq]
  rfl

theorem msg2 (e : Fin 737280) (ch : Fin 64) :
    Read.val_main_v70 (F := Ideal) x0 x1 x2 x3 x4 x6 x8 x10 (ix2 e ch)
      = Spec.D (Read.val_main_v19 (F := Ideal) x0 x1 x2 x3 x4 x8) x6 2 e ch * Spec.mk x10 2 e := by
  rw [Read.val_main_v70_apply, Read.val_main_v67_apply, Read.val_main_v69_apply, Read.val_main_v68_apply]
  have el : ∀ k : Fin 64, Read.lidx_main_v67 (ix2 e ch) k = ix2 e k := fun k => funext fun a =>
    match a with | ⟨0, _⟩ => rfl | ⟨1, _⟩ => rfl
  have er : ∀ k : Fin 64,
      Read.val_main_v66 (F := Ideal) x6 (Read.ridx_main_v67 (ix2 e ch) k) = x6 (ix3 2 k ch) := fun k => by
    rw [Read.val_main_v66_apply, Read.val_main_v65_apply]
    refine congrArg x6 (funext fun a => ?_)
    have hk := k.isLt
    have hc := ch.isLt
    match a with
    | ⟨0, _⟩ => rfl
    | ⟨1, _⟩ => exact Fin.ext (by show (k.val * 64 + ch.val) / 64 % 64 = k.val; omega)
    | ⟨2, _⟩ => exact Fin.ext (by show (k.val * 64 + ch.val) % 64 = ch.val; omega)
  have em : Read.idx_main_v68 (Read.idx_main_v69 (ix2 e ch)) = ix1 e := funext fun a =>
    match a with | ⟨0, _⟩ => rfl
  rw [em, mask2]
  simp only [el, er]
  rfl

theorem mean2 (p : Fin 16384) (ch : Fin 64) :
    Read.val_main_v81 (F := Ideal) x0 x1 x2 x3 x4 x6 x8 x9 x10 (ix2 p ch)
      = Spec.mean (Read.val_main_v19 (F := Ideal) x0 x1 x2 x3 x4 x8) x6 x9 x10 2 p ch := by
  rw [Read.val_main_v81_apply, Read.val_main_v80_apply, Read.val_main_v79_apply, Read.val_main_v78_apply,
    Read.val_main_v77_apply, Read.val_main_cst_12_apply]
  have ei : Read.idx_main_v79 (Read.idx_main_v80 (ix2 p ch)) = ix1 p := funext fun a =>
    match a with | ⟨0, _⟩ => rfl
  rw [ei]
  unfold Read.val_main_v73 Read.val_main_v76
  exact mean_of_reads _ x6 x9 x10 2 _ _ _ _ _ _
    (fun i => by rw [Read.val_main_v71_apply, Read.val_main_cst_10_apply]; exact Ideal.ofBits_zero_f32)
    (fun i => by rw [Read.val_main_v74_apply, Read.val_main_cst_11_apply]; exact Ideal.ofBits_zero_f32)
    (fun n => by
      rw [Read.val_main_v72_apply]
      exact congrArg x9 (funext fun a => match a with | ⟨0, _⟩ => rfl))
    (fun n => by
      rw [Read.val_main_v75_apply]
      exact congrArg x9 (funext fun a => match a with | ⟨0, _⟩ => rfl))
    (msg2 x0 x1 x2 x3 x4 x6 x8 x10) (mask2 x10) p ch

/-! ### The root transform and the whole layer -/

theorem ref_h_eq :
    Read.val_main_v12 (F := Ideal) x0 x1 x2 x3 x4 x5 x7
      = Cert.Spec.H (Read.val_main_v8 (F := Ideal) x0 x1 x2 x3 x4) x5 x7 := by
  funext i
  obtain ⟨p, ch, rfl⟩ : ∃ p ch, i = ix2 p ch := ⟨i 0, i 1, eq_ix2 i⟩
  rw [Read.val_main_v12_apply, Read.val_main_v9_apply, Read.val_main_v11_apply, Read.val_main_v10_apply]
  have el : ∀ k : Fin 64, Read.lidx_main_v9 (ix2 p ch) k = ix2 p k := fun k => funext fun a =>
    match a with | ⟨0, _⟩ => rfl | ⟨1, _⟩ => rfl
  have er : ∀ k : Fin 64, Read.ridx_main_v9 (ix2 p ch) k = ix2 k ch := fun k => funext fun a =>
    match a with | ⟨0, _⟩ => rfl | ⟨1, _⟩ => rfl
  have eb : Read.idx_main_v10 (Read.idx_main_v11 (ix2 p ch)) = ix1 ch := funext fun a =>
    match a with | ⟨0, _⟩ => rfl
  simp only [el, er, eb]
  rfl

theorem ref_eq :
    Read.val_main_v83 (F := Ideal) x0 x1 x2 x3 x4 x5 x6 x7 x8 x9 x10
      = Cert.Spec.out
          (Cert.Spec.H (Cert.Spec.X (Read.val_main_v4 (F := Ideal) x0 x1 x2) x3 x4) x5 x7)
          (Read.val_main_v19 (F := Ideal) x0 x1 x2 x3 x4 x8) x6 x9 x10 := by
  funext i
  obtain ⟨p, ch, rfl⟩ : ∃ p ch, i = ix2 p ch := ⟨i 0, i 1, eq_ix2 i⟩
  rw [Read.val_main_v83_apply, Read.val_main_v82_apply, Read.val_main_v61_apply, Read.val_main_v40_apply,
    mean0, mean1, mean2, ref_h_eq, ref_x_eq, Read.val_main_call0_v0_apply, Read.val_main_call0_cst_apply]
  rfl

end Relations

end Cert.ReferenceIdeal.RefValue

end
-- ==== Proof.KValue.lean ====
/-
  The idealized kernel program's result array, after its run, is the reference's result term of the same arguments.

  The first region leaves x = feats · W1 + b1 and the root transform h = x · Wroot + bconv, feats the features the
  host operations before it concatenate; the host operations between the regions gather the source rows of x along the
  edges; the second region leaves the layer's specification of h, the gathered rows, the relation weights, the
  destinations and the relation types. The reference computes the same specification of the same arrays.
-/
import proofs.«420560_j48172353192125_2_alg».proof.Proof.KRun
import proofs.«420560_j48172353192125_2_alg».proof.Proof.R0Value
import proofs.«420560_j48172353192125_2_alg».proof.Proof.R1Value
import proofs.«420560_j48172353192125_2_alg».proof.Proof.RefValue
import Idealize.ShloMosaic.Lib.StableHlo.Run

set_option maxRecDepth 16384

noncomputable section

namespace Cert.KernelIdeal.KV

open Idealize.ShloMosaic Idealize.ShloMosaic.TcCoe Idealize.ShloMosaic.StableHlo Idealize.SL.Sem
open Cert.KernelIdeal Cert.KernelIdeal.Gen Cert.KernelIdeal.Run

variable (m : (ℓ : Loc nD τ sig) → Buf (Elt Ideal) ℓ)

/-- The reference's result term of the kernel program's argument arrays. -/
def result (c : Dev nD) : Buf (Elt Ideal) ((c.tc : Thread nD τ).loc main_v13) :=
  Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## The arrays the regions read, back to the launch memory -/

/-- The features the host operations before the first region concatenate: the reference's term for them. -/
theorem feats_eq (c : Dev nD) :
    (Run.V1 m c main_v4 : S16384x6.Idx → EReal)
      = Cert.ReferenceIdeal.Read.val_main_v4 (F := Ideal) (m ((c : Thread nD τ).loc main_arg0)) (m ((c : Thread nD τ).loc main_arg1)) (m ((c : Thread nD τ).loc main_arg2)) := by
  show StableHlo.after (hostOps0 (F := Ideal)) (fun b => m (c, b)) (Proc.devRef .tc main_v4) = _
  after_results
  rfl

theorem V1_arg3 (c : Dev nD) : Run.V1 m c main_arg3 = m ((c : Thread nD τ).loc main_arg3) := W1_of m c main_arg3 (by decide)
theorem V1_arg4 (c : Dev nD) : Run.V1 m c main_arg4 = m ((c : Thread nD τ).loc main_arg4) := W1_of m c main_arg4 (by decide)
theorem V1_arg5 (c : Dev nD) : Run.V1 m c main_arg5 = m ((c : Thread nD τ).loc main_arg5) := W1_of m c main_arg5 (by decide)
theorem V1_arg7 (c : Dev nD) : Run.V1 m c main_arg7 = m ((c : Thread nD τ).loc main_arg7) := W1_of m c main_arg7 (by decide)

/-- The projected features the first region leaves: the reference's term for them. -/
theorem x_eq (c : Dev nD) :
    (W2 m c (Proc.devRef .tc main_v5_0) : S16384x64.Idx → EReal)
      = Cert.ReferenceIdeal.Read.val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : W2 m c (Proc.devRef .tc main_v5_0) = (R0.dat0 (Run.V1 m) c).arrAt 5 cfg0.N := W2_arr m c 5
  rw [e, R0V.arr0_5 (Run.V1 m) c, feats_eq m c, V1_arg3 m c, V1_arg4 m c]
  exact (Cert.ReferenceIdeal.RefValue.ref_x_eq _ _ _ _ _).symm

/-- The root transform the first region leaves, as the second region finds it. -/
theorem h_eq (c : Dev nD) :
    (Run.V3 m c main_v5_1 : S16384x64.Idx → EReal)
      = Cert.Spec.H (Cert.Spec.X (Cert.ReferenceIdeal.Read.val_main_v4 (F := Ideal) (m ((c : Thread nD τ).loc main_arg0)) (m ((c : Thread nD τ).loc main_arg1)) (m ((c : Thread nD τ).loc main_arg2))) (m ((c : Thread nD τ).loc main_arg3)) (m ((c : Thread nD τ).loc main_arg4)))
          (m ((c : Thread nD τ).loc main_arg5)) (m ((c : Thread nD τ).loc main_arg7)) := by
  have e1 : Run.V3 m c main_v5_1 = W2 m c (Proc.devRef .tc main_v5_1) := W3_of m c main_v5_1 (by decide)
  have e2 : W2 m c (Proc.devRef .tc main_v5_1) = (R0.dat0 (Run.V1 m) c).arrAt 6 cfg0.N := W2_arr m c 6
  rw [e1, e2, R0V.arr0_6 (Run.V1 m) c, feats_eq m c, V1_arg3 m c, V1_arg4 m c, V1_arg5 m c, V1_arg7 m c]

/-- The edge sources as the second host stretch finds them. -/
theorem W2_arg8 (c : Dev nD) : W2 m c (Proc.devRef .tc main_arg8) = m ((c : Thread nD τ).loc main_arg8) :=
  (W2_of_ne m c main_arg8 (by decide)).trans (W1_of m c main_arg8 (by decide))

/-- The gathered source rows the second region reads: the reference's term for them. -/
theorem xs_eq (c : Dev nD) :
    (Run.V3 m c main_v12 : S737280x64.Idx → EReal)
      = Cert.ReferenceIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  have e : (Run.V3 m c main_v12 : S737280x64.Idx → EReal)
      = Host.gather gather_S16384x64_S737280x1_S737280x64_1_0_n_n_0_1_164 (W2 m c (Proc.devRef .tc main_v5_0))
          (Cert.ReferenceIdeal.Read.val_main_v18 (F := Ideal) (W2 m c (Proc.devRef .tc main_arg8))) := by
    show StableHlo.after (hostOps1 (F := Ideal)) (W2 m c) (Proc.devRef .tc main_v12) = _
    after_results
    rfl
  rw [e, x_eq m c, W2_arg8 m c]
  rfl

theorem V3_arg6 (c : Dev nD) : Run.V3 m c main_arg6 = m ((c : Thread nD τ).loc main_arg6) :=
  (W3_of m c main_arg6 (by decide)).trans ((W2_of_ne m c main_arg6 (by decide)).trans (W1_of m c main_arg6 (by decide)))
theorem V3_arg9 (c : Dev nD) : Run.V3 m c main_arg9 = m ((c : Thread nD τ).loc main_arg9) :=
  (W3_of m c main_arg9 (by decide)).trans ((W2_of_ne m c main_arg9 (by decide)).trans (W1_of m c main_arg9 (by decide)))
theorem V3_arg10 (c : Dev nD) : Run.V3 m c main_arg10 = m ((c : Thread nD τ).loc main_arg10) :=
  (W3_of m c main_arg10 (by decide)).trans ((W2_of_ne m c main_arg10 (by decide)).trans (W1_of m c main_arg10 (by decide)))

/-! ## The result -/

/-- The result array after the run is the reference's result term of the arguments. -/
theorem value (c : Dev nD) : W4 m c (Proc.devRef .tc main_v13) = result m c := by
  have e : W4 m c (Proc.devRef .tc main_v13) = (R1.dat1 (Run.V3 m) c).arrAt 5 cfg1.N := W4_arr m c 5
  rw [e, R1V.arr1_5 (Run.V3 m) c, h_eq m c, xs_eq m c, V3_arg6 m c, V3_arg9 m c, V3_arg10 m c]
  exact (Cert.ReferenceIdeal.RefValue.ref_eq _ _ _ _ _ _ _ _ _ _ _).symm

end Cert.KernelIdeal.KV

end
-- ==== Proof.lean ====
/-
  The certificate: the word-level kernel program, its idealization and the idealized reference each run to the end
  with their argument arrays unchanged, and the two idealized programs end with equal results over the extended reals.

  Both idealized programs compute, at node p and channel ch, the clipped sum of the root transform and the three
  relations' mean messages (Proof/Spec.lean). The reference does so with one accumulating scatter per relation over all
  edges; the kernel walks the edges in blocks of 2048 per node block of 2048, adding a one-hot matrix product per block
  to scratch accumulators and closing at the last block. On the extended reals the two agree with no appeal to
  finiteness: only commutativity and associativity of the sum and exact products with zero and one are used.
  The ideal pass rewrote nothing, so the idealization is the program's own text.
-/
import proofs.«420560_j48172353192125_2_alg».proof.Defs
import proofs.«420560_j48172353192125_2_alg».proof.Proof.Gen.Kernel
import proofs.«420560_j48172353192125_2_alg».proof.Proof.Gen.KernelIdeal
import proofs.«420560_j48172353192125_2_alg».proof.Proof.Gen.ReferenceIdeal
import proofs.«420560_j48172353192125_2_alg».proof.Proof.Gen.ReferenceIdeal.Run
import proofs.«420560_j48172353192125_2_alg».proof.Proof.Gen.ReferenceIdeal.Read
import proofs.«420560_j48172353192125_2_alg».proof.Proof.Gen.Pre_finite_inputs
import proofs.«420560_j48172353192125_2_alg».proof.Proof.BKRun
import proofs.«420560_j48172353192125_2_alg».proof.Proof.KRun
import proofs.«420560_j48172353192125_2_alg».proof.Proof.KValue
import proofs.«420560_j48172353192125_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Run.frame (F := Bits) m ρ

theorem frame_ki : @Cert.frame_KernelIdeal Cert.KernelIdeal.Gen.facts Cert.Pre_finite_inputs.Gen.facts :=
  fun m ρ _ => Cert.KernelIdeal.Run.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

open Cert.KernelIdeal in
/-- Both idealized programs end at the reference's result term of the kernel's arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KV.result m c, ?_, ?_⟩
  · refine (θ_run Cert.KernelIdeal.defs _ _).mono (fun r h c => ?_) (Cert.KernelIdeal.Run.run_main (F := Ideal) m ρ)
    exact ⟨(h c _ (Cert.KernelIdeal.Run.mem_uc main_v13 (by decide))).trans (Cert.KernelIdeal.KV.value m c),
      (h c _ (Cert.KernelIdeal.Run.mem_uc main_arg0 (by decide))).trans (Cert.KernelIdeal.Run.W4_main_arg0 m c),
      (h c _ (Cert.KernelIdeal.Run.mem_uc main_arg1 (by decide))).trans (Cert.KernelIdeal.Run.W4_main_arg1 m c),
      (h c _ (Cert.KernelIdeal.Run.mem_uc main_arg2 (by decide))).trans (Cert.KernelIdeal.Run.W4_main_arg2 m c),
      (h c _ (Cert.KernelIdeal.Run.mem_uc main_arg3 (by decide))).trans (Cert.KernelIdeal.Run.W4_main_arg3 m c),
      (h c _ (Cert.KernelIdeal.Run.mem_uc main_arg4 (by decide))).trans (Cert.KernelIdeal.Run.W4_main_arg4 m c),
      (h c _ (Cert.KernelIdeal.Run.mem_uc main_arg5 (by decide))).trans (Cert.KernelIdeal.Run.W4_main_arg5 m c),
      (h c _ (Cert.KernelIdeal.Run.mem_uc main_arg6 (by decide))).trans (Cert.KernelIdeal.Run.W4_main_arg6 m c),
      (h c _ (Cert.KernelIdeal.Run.mem_uc main_arg7 (by decide))).trans (Cert.KernelIdeal.Run.W4_main_arg7 m c),
      (h c _ (Cert.KernelIdeal.Run.mem_uc main_arg8 (by decide))).trans (Cert.KernelIdeal.Run.W4_main_arg8 m c),
      (h c _ (Cert.KernelIdeal.Run.mem_uc main_arg9 (by decide))).trans (Cert.KernelIdeal.Run.W4_main_arg9 m c),
      (h c _ (Cert.KernelIdeal.Run.mem_uc main_arg10 (by decide))).trans (Cert.KernelIdeal.Run.W4_main_arg10 m c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v83_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
